-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S256 : Shape := ⟨1, ![256]⟩
abbrev S128x128 : Shape := ⟨2, ![128, 128]⟩
abbrev S128 : Shape := ⟨1, ![128]⟩
abbrev S256x128 : Shape := ⟨2, ![256, 128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S256x128 .f32) (main_arg10 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S256 .f32) (main_arg5 : FVec F S256 .f32) (main_arg6 : FVec F S256 .f32) (main_arg7 : FVec F S128x128 .f32) (main_arg8 : FVec F S128 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x256 .f32) (main_arg2 : FVec F S256 .f32) (main_arg3 : FVec F S256 .f32) (main_arg4 : FVec F S256 .f32) (main_arg5 : FVec F S256 .f32) (main_arg6 : FVec F S256 .f32) (main_arg7 : FVec F S128x128 .f32) (main_arg8 : FVec F S128 .f32) (main_arg9 : FVec F S256x128 .f32) (main_arg10 : FVec F S128 .f32) (main_arg11 : IVec S2x1600000 32) (main_arg12 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x256 : Shape := ⟨2, ![128, 256]⟩
abbrev S256 : Shape := ⟨1, ![256]⟩
abbrev S128x128 : Shape := ⟨2, ![128, 128]⟩
abbrev S128 : Shape := ⟨1, ![128]⟩
abbrev S256x128 : Shape := ⟨2, ![256, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x256 : Shape := ⟨2, ![1, 256]⟩
abbrev S2x1x256 : Shape := ⟨3, ![2, 1, 256]⟩
abbrev S5000x128 : Shape := ⟨2, ![5000, 128]⟩
abbrev S1x1x256 : Shape := ⟨3, ![1, 1, 256]⟩
abbrev S5000x256 : Shape := ⟨2, ![5000, 256]⟩
abbrev S100000x1 : Shape := ⟨2, ![100000, 1]⟩
abbrev S2x512x128 : Shape := ⟨3, ![2, 512, 128]⟩
abbrev S2x512x256 : Shape := ⟨3, ![2, 512, 256]⟩
abbrev S2000x128 : Shape := ⟨2, ![2000, 128]⟩
abbrev S2000x1 : Shape := ⟨2, ![2000, 1]⟩
abbrev S1x512x128 : Shape := ⟨3, ![1, 512, 128]⟩
abbrev S1x512x256 : Shape := ⟨3, ![1, 512, 256]⟩
abbrev S2000x256 : Shape := ⟨2, ![2000, 256]⟩
abbrev S2000x512 : Shape := ⟨2, ![2000, 512]⟩
abbrev S512x128 : Shape := ⟨2, ![512, 128]⟩
abbrev S512x256 : Shape := ⟨2, ![512, 256]⟩
abbrev S1x128 : Shape := ⟨2, ![1, 128]⟩

abbrev nBuf : Space → Nat
  | .hbm => 97
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S2x1600000, .i32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x128, .bf16⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .bf16⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .bf16⟩
  | .hbm, ⟨34, _⟩ => ⟨S1x256, .f32⟩
  | .hbm, ⟨35, _⟩ => ⟨S2x1x256, .f32⟩
  | .hbm, ⟨36, _⟩ => ⟨S2x1x256, .f32⟩
  | .hbm, ⟨37, _⟩ => ⟨S_, .f32⟩
  | .hbm, ⟨38, _⟩ => ⟨S1x256, .f32⟩
  | .hbm, ⟨39, _⟩ => ⟨S_, .f32⟩
  | .hbm, ⟨40, _⟩ => ⟨S1x256, .f32⟩
  | .hbm, ⟨41, _⟩ => ⟨S_, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S_, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S2x1x256, .f32⟩
  | .hbm, ⟨62, _⟩ => ⟨S2x1x256, .f32⟩
  | .hbm, ⟨63, _⟩ => ⟨S_, .f32⟩
  | .hbm, ⟨64, _⟩ => ⟨S1x256, .f32⟩
  | .hbm, ⟨65, _⟩ => ⟨S_, .f32⟩
  | .hbm, ⟨66, _⟩ => ⟨S1x256, .f32⟩
  | .hbm, ⟨67, _⟩ => ⟨S_, .f32⟩
  | .hbm, ⟨68, _⟩ => ⟨S1x256, .f32⟩
  | .hbm, ⟨69, _⟩ => ⟨S1x256, .f32⟩
  | .hbm, ⟨70, _⟩ => ⟨S_, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S_, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S_, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S100000x1, .i32⟩
  | .hbm, ⟨88, _⟩ => ⟨S2x512x128, .f32⟩
  | .hbm, ⟨89, _⟩ => ⟨S2x512x256, .f32⟩
  | .hbm, ⟨90, _⟩ => ⟨S_, .f32⟩
  | .hbm, ⟨91, _⟩ => ⟨S512x128, .f32⟩
  | .hbm, ⟨92, _⟩ => ⟨S_, .f32⟩
  | .hbm, ⟨93, _⟩ => ⟨S512x256, .f32⟩
  | .hbm, ⟨94, _⟩ => ⟨S1x128, .f32⟩
  | .hbm, ⟨95, _⟩ => ⟨S1x128, .f32⟩
  | .hbm, ⟨96, _⟩ => ⟨S512x128, .f32⟩
  | .local _ .vmem, ⟨0, _⟩ => ⟨S5000x128, .bf16⟩
  | .local _ .vmem, ⟨1, _⟩ => ⟨S5000x128, .bf16⟩
  | .local _ .vmem, ⟨2, _⟩ => ⟨S128x256, .f32⟩
  | .local _ .vmem, ⟨3, _⟩ => ⟨S1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S5000x128, .bf16⟩
  | .local _ .vmem, ⟨9, _⟩ => ⟨S5000x128, .bf16⟩
  | .local _ .vmem, ⟨10, _⟩ => ⟨S128x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S2000x128, .bf16⟩
  | .local _ .vmem, ⟨19, _⟩ => ⟨S2000x128, .bf16⟩
  | .local _ .vmem, ⟨20, _⟩ => ⟨S2000x128, .f32⟩
  | .local _ .vmem, ⟨21, _⟩ => ⟨S2000x128, .f32⟩
  | .local _ .vmem, ⟨22, _⟩ => ⟨S2000x1, .i32⟩
  | .local _ .vmem, ⟨23, _⟩ => ⟨S2000x1, .i32⟩
  | .local _ .vmem, ⟨24, _⟩ => ⟨S128x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x512x128, .f32⟩
  | .local _ .vmem, ⟨31, _⟩ => ⟨S1x512x128, .f32⟩
  | .local _ .vmem, ⟨32, _⟩ => ⟨S1x512x256, .f32⟩
  | .local _ .vmem, ⟨33, _⟩ => ⟨S1x512x256, .f32⟩
  | .local _ .vmem, ⟨34, _⟩ => ⟨S512x128, .f32⟩
  | .local _ .vmem, ⟨35, _⟩ => ⟨S512x256, .f32⟩
  | .local _ .vmem, ⟨36, _⟩ => ⟨S128x128, .f32⟩
  | .local _ .vmem, ⟨37, _⟩ => ⟨S1x128, .f32⟩
  | .local _ .vmem, ⟨38, _⟩ => ⟨S256x128, .f32⟩
  | .local _ .vmem, ⟨39, _⟩ => ⟨S1x128, .f32⟩
  | .local _ .vmem, ⟨40, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58_0 : Ref sig .tc := ⟨.hbm, 88, rfl⟩
abbrev main_v58_1 : Ref sig .tc := ⟨.hbm, 89, rfl⟩
abbrev main_cst_13 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc2_stg10_0 : Ref sig .tc := ⟨.vmem, 32, rfl⟩
abbrev cc2_stg10_1 : Ref sig .tc := ⟨.vmem, 33, rfl⟩
abbrev cc3_stg0_0 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31
abbrev cc2_sem10_0 : DmaSem sig := 32
abbrev cc2_sem10_1 : DmaSem sig := 33
abbrev cc3_sem0_0 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x512x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S1x512x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reduces_S5000x256_S256 : S5000x256.Reduces [0] S256
  shapeCasts_S1x1x256_S1x1x256 : S1x1x256.ShapeCasts S1x1x256
  shapeCasts_S1x256_S1x1x256 : S1x256.ShapeCasts S1x1x256
  reducesTo_S2x1x256_S1x256_d0 : S2x1x256.ReducesTo [0] S1x256
  h_S_ : 0 < S_.numel
  bcast_S_S1x256 : S_.BroadcastsInDim S1x256 (![] : Fin 0 → Fin S1x256.rank)
  shapeCasts_S100000_S100000x1 : S100000.ShapeCasts S100000x1
  inb_S1x512x128_S1x512x128_0_0_0 : ∀ a, (![0, 0, 0] : Fin 3 → Nat) a + S1x512x128.size a ≤ S1x512x128.size a
  h_S1x512x128 : 0 < S1x512x128.numel
  inb_S1x512x256_S1x512x256_0_0_0 : ∀ a, (![0, 0, 0] : Fin 3 → Nat) a + S1x512x256.size a ≤ S1x512x256.size a
  h_S1x512x256 : 0 < S1x512x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S1x512x128_S1x512x128 : S1x512x128.ShapeCasts S1x512x128
  shapeCasts_S512x128_S1x512x128 : S512x128.ShapeCasts S1x512x128
  shapeCasts_S1x512x256_S1x512x256 : S1x512x256.ShapeCasts S1x512x256
  shapeCasts_S512x256_S1x512x256 : S512x256.ShapeCasts S1x512x256
  reducesTo_S2x512x128_S512x128_d0 : S2x512x128.ReducesTo [0] S512x128
  reducesTo_S2x512x256_S512x256_d0 : S2x512x256.ReducesTo [0] S512x256
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  dot_S2000x128_S128x256_S2000x256_1_0_0_1_n_n_wf : DotDims.WF S2000x128 S128x256 S2000x256 [1] [0] [0] [1] [] []
  dot_S2000x512_S2000x128_S512x128_0_0_1_1_n_n_wf : DotDims.WF S2000x512 S2000x128 S512x128 [0] [0] [1] [1] [] []
  dot_S2000x512_S2000x256_S512x256_0_0_1_1_n_n_wf : DotDims.WF S2000x512 S2000x256 S512x256 [0] [0] [1] [1] [] []
  dot_S512x128_S128x128_S512x128_1_0_0_1_n_n_wf : DotDims.WF S512x128 S128x128 S512x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .bf16 = 32 ∨ (Rect.block (s := S100000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256.size a ≤ S2x1x256.size a
  hwx1_5 : ∀ i : grid1.Coords, EltTy.bits .f32 = 32 ∨ (Rect.block (s := S2x1x256) S1x1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x256.size a ≤ S2x1x256.size a
  hwx1_6 : ∀ i : grid1.Coords, EltTy.bits .f32 = 32 ∨ (Rect.block (s := S2x1x256) S1x1x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .i32 = 32 ∨ (Rect.block (s := S100000x1) S2000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x512x128.size a ≤ S2x512x128.size a
  hwx2_9 : ∀ i : grid2.Coords, EltTy.bits .f32 = 32 ∨ (Rect.block (s := S2x512x128) S1x512x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1x512x256.size a ≤ S2x512x256.size a
  hwx2_10 : ∀ i : grid2.Coords, EltTy.bits .f32 = 32 ∨ (Rect.block (s := S2x512x256) S1x512x256.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S512x256.size a
  hwx3_1 : ∀ i : grid3.Coords, EltTy.bits .f32 = 32 ∨ (Rect.block (s := S512x256) S512x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x128.size a ≤ S512x128.size a
  hwx3_6 : ∀ i : grid3.Coords, EltTy.bits .f32 = 32 ∨ (Rect.block (s := S512x128) S512x128.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S2000x256_S512x256_0_0_1_1_n_n : DotDims S2000x512 S2000x256 S512x256 where
  lhsContracting := [0]
  rhsContracting := [0]
  lhsNonContracting := [1]
  rhsNonContracting := [1]
  lhsBatch := []
  rhsBatch := []
  wf := dot_S2000x512_S2000x256_S512x256_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38_0) S1x1x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_1) S1x1x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v17) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v58_0) S1x512x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v58_1) S1x512x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v59) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v60) S512x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S512x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S256 : Shape := ⟨1, ![256]⟩
abbrev S128x128 : Shape := ⟨2, ![128, 128]⟩
abbrev S128 : Shape := ⟨1, ![128]⟩
abbrev S256x128 : Shape := ⟨2, ![256, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S1x256 : Shape := ⟨2, ![1, 256]⟩
abbrev S512x128 : Shape := ⟨2, ![512, 128]⟩
abbrev S100000x1 : Shape := ⟨2, ![100000, 1]⟩
abbrev S512x256 : Shape := ⟨2, ![512, 256]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S128x256, .f32⟩
  | 2 => ⟨S256, .f32⟩
  | 3 => ⟨S256, .f32⟩
  | 4 => ⟨S256, .f32⟩
  | 5 => ⟨S256, .f32⟩
  | 6 => ⟨S256, .f32⟩
  | 7 => ⟨S128x128, .f32⟩
  | 8 => ⟨S128, .f32⟩
  | 9 => ⟨S256x128, .f32⟩
  | 10 => ⟨S128, .f32⟩
  | 11 => ⟨S2x1600000, .i32⟩
  | 12 => ⟨S100000, .i32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S100000x128, .f32⟩
  | 31 => ⟨S100000x256, .f32⟩
  | 32 => ⟨S1x256, .f32⟩
  | 33 => ⟨S100000x256, .f32⟩
  | 34 => ⟨S100000x256, .f32⟩
  | 35 => ⟨S_, .f32⟩
  | 36 => ⟨S256, .f32⟩
  | 37 => ⟨S_, .f32⟩
  | 38 => ⟨S256, .f32⟩
  | 39 => ⟨S256, .f32⟩
  | 40 => ⟨S_, .i32⟩
  | 41 => ⟨S_, .f32⟩
  | 42 => ⟨S256, .f32⟩
  | 43 => ⟨S1x256, .f32⟩
  | 44 => ⟨S_, .f32⟩
  | 45 => ⟨S1x256, .f32⟩
  | 46 => ⟨S1x256, .f32⟩
  | 47 => ⟨S100000x256, .f32⟩
  | 48 => ⟨S100000x256, .f32⟩
  | 49 => ⟨S100000x256, .f32⟩
  | 50 => ⟨S_, .f32⟩
  | 51 => ⟨S_, .f32⟩
  | 52 => ⟨S_, .f32⟩
  | 53 => ⟨S_, .f32⟩
  | 54 => ⟨S256, .f32⟩
  | 55 => ⟨S256, .f32⟩
  | 56 => ⟨S256, .f32⟩
  | 57 => ⟨S_, .f32⟩
  | 58 => ⟨S_, .i1⟩
  | 59 => ⟨S_, .f32⟩
  | 60 => ⟨S_, .f32⟩
  | 61 => ⟨S256, .f32⟩
  | 62 => ⟨S256, .f32⟩
  | 63 => ⟨S1x256, .f32⟩
  | 64 => ⟨S100000x256, .f32⟩
  | 65 => ⟨S100000x256, .f32⟩
  | 66 => ⟨S_, .f32⟩
  | 67 => ⟨S256, .f32⟩
  | 68 => ⟨S256, .f32⟩
  | 69 => ⟨S256, .f32⟩
  | 70 => ⟨S1x256, .f32⟩
  | 71 => ⟨S100000x256, .f32⟩
  | 72 => ⟨S100000x256, .f32⟩
  | 73 => ⟨S1x256, .f32⟩
  | 74 => ⟨S100000x256, .f32⟩
  | 75 => ⟨S100000x256, .f32⟩
  | 76 => ⟨S1x256, .f32⟩
  | 77 => ⟨S100000x256, .f32⟩
  | 78 => ⟨S100000x256, .f32⟩
  | 79 => ⟨S_, .f32⟩
  | 80 => ⟨S100000x256, .f32⟩
  | 81 => ⟨S100000x256, .f32⟩
  | 82 => ⟨S_, .f32⟩
  | 83 => ⟨S256, .f32⟩
  | 84 => ⟨S_, .f32⟩
  | 85 => ⟨S256, .f32⟩
  | 86 => ⟨S256, .f32⟩
  | 87 => ⟨S_, .i32⟩
  | 88 => ⟨S_, .f32⟩
  | 89 => ⟨S256, .f32⟩
  | 90 => ⟨S1x256, .f32⟩
  | 91 => ⟨S_, .f32⟩
  | 92 => ⟨S1x256, .f32⟩
  | 93 => ⟨S1x256, .f32⟩
  | 94 => ⟨S100000x256, .f32⟩
  | 95 => ⟨S100000x256, .f32⟩
  | 96 => ⟨S100000x256, .f32⟩
  | 97 => ⟨S_, .f32⟩
  | 98 => ⟨S_, .f32⟩
  | 99 => ⟨S_, .f32⟩
  | 100 => ⟨S_, .f32⟩
  | 101 => ⟨S256, .f32⟩
  | 102 => ⟨S256, .f32⟩
  | 103 => ⟨S256, .f32⟩
  | 104 => ⟨S_, .f32⟩
  | 105 => ⟨S_, .i1⟩
  | 106 => ⟨S_, .f32⟩
  | 107 => ⟨S_, .f32⟩
  | 108 => ⟨S256, .f32⟩
  | 109 => ⟨S256, .f32⟩
  | 110 => ⟨S1x256, .f32⟩
  | 111 => ⟨S100000x256, .f32⟩
  | 112 => ⟨S100000x256, .f32⟩
  | 113 => ⟨S_, .f32⟩
  | 114 => ⟨S256, .f32⟩
  | 115 => ⟨S256, .f32⟩
  | 116 => ⟨S256, .f32⟩
  | 117 => ⟨S1x256, .f32⟩
  | 118 => ⟨S100000x256, .f32⟩
  | 119 => ⟨S100000x256, .f32⟩
  | 120 => ⟨S1x256, .f32⟩
  | 121 => ⟨S100000x256, .f32⟩
  | 122 => ⟨S100000x256, .f32⟩
  | 123 => ⟨S1x256, .f32⟩
  | 124 => ⟨S100000x256, .f32⟩
  | 125 => ⟨S100000x256, .f32⟩
  | 126 => ⟨S_, .f32⟩
  | 127 => ⟨S100000x256, .f32⟩
  | _ => ⟨S100000x128, .f32⟩

abbrev hbmTy0_1 (i : Nat) : BufTy := match i % 128 with
  | 0 => ⟨S100000x256, .f32⟩
  | 1 => ⟨S_, .f32⟩
  | 2 => ⟨S512x128, .f32⟩
  | 3 => ⟨S100000x1, .i32⟩
  | 4 => ⟨S512x128, .f32⟩
  | 5 => ⟨S_, .f32⟩
  | 6 => ⟨S512x256, .f32⟩
  | 7 => ⟨S100000x1, .i32⟩
  | 8 => ⟨S512x256, .f32⟩
  | 9 => ⟨S512x128, .f32⟩
  | 10 => ⟨S1x128, .f32⟩
  | 11 => ⟨S512x128, .f32⟩
  | 12 => ⟨S512x128, .f32⟩
  | 13 => ⟨S512x128, .f32⟩
  | 14 => ⟨S1x128, .f32⟩
  | 15 => ⟨S512x128, .f32⟩
  | 16 => ⟨S512x128, .f32⟩
  | 17 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_4 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call1_cst : Ref sig .tc := ⟨.hbm, 79, rfl⟩
abbrev main_call1_v0 : Ref sig .tc := ⟨.hbm, 80, rfl⟩
abbrev main_v38 : Ref sig .tc := ⟨.hbm, 81, rfl⟩
abbrev main_cst_5 : Ref sig .tc := ⟨.hbm, 82, rfl⟩
abbrev main_v39 : Ref sig .tc := ⟨.hbm, 83, rfl⟩
abbrev main_cst_6 : Ref sig .tc := ⟨.hbm, 84, rfl⟩
abbrev main_v40 : Ref sig .tc := ⟨.hbm, 85, rfl⟩
abbrev main_v41 : Ref sig .tc := ⟨.hbm, 86, rfl⟩
abbrev main_c_7 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_cst_1 : Ref sig .tc := ⟨.hbm, 98, rfl⟩
abbrev main_call2_v8 : Ref sig .tc := ⟨.hbm, 99, rfl⟩
abbrev main_call2_cst_2 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_cst_3 : Ref sig .tc := ⟨.hbm, 104, rfl⟩
abbrev main_call2_v12 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_cst_8 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_call3_cst : Ref sig .tc := ⟨.hbm, 126, rfl⟩
abbrev main_call3_v0 : Ref sig .tc := ⟨.hbm, 127, rfl⟩
abbrev main_v58 : Ref sig .tc := ⟨.hbm, 128, rfl⟩
abbrev main_cst_9 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_10 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S100000x256 : S_.BroadcastsInDim S100000x256 (![] : Fin 0 → Fin S100000x256.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512x256 : S_.BroadcastsInDim S512x256 (![] : Fin 0 → Fin S512x256.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  scatter_S512x128_S100000x1_S100000x128_1_0_0_1_wf : ScatterDims.WF S512x128 S100000x1 S100000x128 [1] [0] [0] 1
  scatter_S512x256_S100000x1_S100000x256_1_0_0_1_wf : ScatterDims.WF S512x256 S100000x1 S100000x256 [1] [0] [0] 1
  dot_S512x128_S128x128_S512x128_1_0_0_1_n_n_wf : DotDims.WF S512x128 S128x128 S512x128 [1] [0] [0] [1] [] []
  dot_S512x256_S256x128_S512x128_1_0_0_1_n_n_wf : DotDims.WF S512x256 S256x128 S512x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.Spec.lean ====
/-
  The mathematics both programs compute, on plain index ranges over the extended reals.

  A graph network layer on N = 100000 nodes: each node's aggregated feature row (128 numbers) goes through a linear
  layer into 256 channels, then twice through a batch normalisation over all the nodes (per channel: subtract the
  mean, divide by the square root of the variance plus a small constant, scale and shift) followed by max(·, 0); the
  input features and the result are then summed per graph (512 graphs, each node naming its graph by a number), and
  the two pooled arrays go through a linear head each, whose outputs are added.

  The two programs differ in the batch normalisation only. One takes the variance as the mean of the squared
  deviations and normalises (z − μ) · r · γ + β with r = 1/√(variance + ε); the other takes the variance as the mean of
  the squares minus the squared mean, clamped at 0, and applies the fused form z · (γ · r) + (β − μ · (γ · r)).
-/
import Idealize.ShloMosaic.PureOps.Ideal
import Mathlib.Algebra.BigOperators.Group.Finset.Basic
import Mathlib.Algebra.BigOperators.Fin

noncomputable section

open scoped BigOperators
open Idealize.ShloMosaic

namespace Cert.Spec

/-- Entry (r, j) of the linear layer: row r of the aggregated features times column j of the weights, plus the bias. -/
def lin (A : Fin 100000 → Fin 128 → EReal) (W : Fin 128 → Fin 256 → EReal) (b : Fin 256 → EReal)
    (r : Fin 100000) (j : Fin 256) : EReal :=
  (∑ k : Fin 128, A r k * W k j) + b j

variable (nn eps : EReal)

/-- The mean of channel j over all the nodes (nn is the number of nodes, as the programs spell it). -/
def mean (Z : Fin 100000 → Fin 256 → EReal) (j : Fin 256) : EReal :=
  Ideal.div (∑ r : Fin 100000, Z r j) nn

/-- The variance as the mean of the squares minus the squared mean, clamped at zero. -/
def varK (Z : Fin 100000 → Fin 256 → EReal) (j : Fin 256) : EReal :=
  max (Ideal.div (∑ r : Fin 100000, Z r j * Z r j) nn - mean nn Z j * mean nn Z j) 0

/-- The fused scale γ · 1/√(variance + ε). -/
def scaleK (g : Fin 256 → EReal) (Z : Fin 100000 → Fin 256 → EReal) (j : Fin 256) : EReal :=
  g j * Ideal.rsqrt (varK nn Z j + eps)

/-- The fused shift β − μ · scale. -/
def shiftK (g bb : Fin 256 → EReal) (Z : Fin 100000 → Fin 256 → EReal) (j : Fin 256) : EReal :=
  bb j - mean nn Z j * scaleK nn eps g Z j

/-- Batch normalisation in the fused form, then max(·, 0). -/
def bnK (g bb : Fin 256 → EReal) (Z : Fin 100000 → Fin 256 → EReal) (r : Fin 100000) (j : Fin 256) : EReal :=
  max (Z r j * scaleK nn eps g Z j + shiftK nn eps g bb Z j) 0

/-- The variance as the mean of the squared deviations from the mean. -/
def varR (Z : Fin 100000 → Fin 256 → EReal) (j : Fin 256) : EReal :=
  Ideal.div (∑ r : Fin 100000, (Z r j - mean nn Z j) * (Z r j - mean nn Z j)) nn

/-- Batch normalisation in the textbook form, then max(·, 0). -/
def bnR (g bb : Fin 256 → EReal) (Z : Fin 100000 → Fin 256 → EReal) (r : Fin 100000) (j : Fin 256) : EReal :=
  max ((Z r j - mean nn Z j) * Ideal.rsqrt (varR nn Z j + eps) * g j + bb j) 0

/-- The per-graph sum: entry (g, k) adds column k of the rows whose graph number, read as a signed integer, is g. -/
def pool {D : ℕ} (ids : Fin 100000 → BitVec 32) (X : Fin 100000 → Fin D → EReal) (g : Fin 512) (k : Fin D) : EReal :=
  ∑ r ∈ Finset.univ.filter (fun r : Fin 100000 => (ids r).toInt = (g.val : ℤ)), X r k

/-- The two linear heads on the two pooled arrays, added. -/
def head (P0 : Fin 512 → Fin 128 → EReal) (W0 : Fin 128 → Fin 128 → EReal) (c0 : Fin 128 → EReal)
    (P1 : Fin 512 → Fin 256 → EReal) (W1 : Fin 256 → Fin 128 → EReal) (c1 : Fin 128 → EReal)
    (g : Fin 512) (o : Fin 128) : EReal :=
  ((∑ f : Fin 128, P0 g f * W0 f o) + c0 o) + ((∑ j : Fin 256, P1 g j * W1 j o) + c1 o)

/-- The whole result with the fused normalisation. -/
def scoreK (A : Fin 100000 → Fin 128 → EReal) (W : Fin 128 → Fin 256 → EReal) (b g1 b1 g2 b2 : Fin 256 → EReal)
    (X : Fin 100000 → Fin 128 → EReal) (ids : Fin 100000 → BitVec 32)
    (W0 : Fin 128 → Fin 128 → EReal) (c0 : Fin 128 → EReal) (W1 : Fin 256 → Fin 128 → EReal) (c1 : Fin 128 → EReal) :
    Fin 512 → Fin 128 → EReal :=
  head (pool ids X) W0 c0 (pool ids (bnK nn eps g2 b2 (bnK nn eps g1 b1 (lin A W b)))) W1 c1

/-- The whole result with the textbook normalisation. -/
def scoreR (A : Fin 100000 → Fin 128 → EReal) (W : Fin 128 → Fin 256 → EReal) (b g1 b1 g2 b2 : Fin 256 → EReal)
    (X : Fin 100000 → Fin 128 → EReal) (ids : Fin 100000 → BitVec 32)
    (W0 : Fin 128 → Fin 128 → EReal) (c0 : Fin 128 → EReal) (W1 : Fin 256 → Fin 128 → EReal) (c1 : Fin 128 → EReal) :
    Fin 512 → Fin 128 → EReal :=
  head (pool ids X) W0 c0 (pool ids (bnR nn eps g2 b2 (bnR nn eps g1 b1 (lin A W b)))) W1 c1

end Cert.Spec

end
-- ==== Proof.Read.lean ====
/-
  Arrays read as functions of plain coordinates.
-/
import Idealize.ShloMosaic.Lib.ValueIdx

noncomputable section

open Idealize.ShloMosaic Idealize.ShloMosaic.ValueIdx

namespace Cert.Read

/-- A matrix [a, b] as a function of its row and column. -/
def f2 {a b : ℕ} (x : (⟨2, ![a, b]⟩ : Shape).Idx → EReal) : Fin a → Fin b → EReal := fun r k => x (ix2 r k)

/-- A vector [a] as a function of its coordinate. -/
def f1 {a : ℕ} (x : (⟨1, ![a]⟩ : Shape).Idx → EReal) : Fin a → EReal := fun j => x (ix1 j)

/-- A row [1, a] as a function of its column. -/
def frow {a : ℕ} (x : (⟨2, ![1, a]⟩ : Shape).Idx → EReal) : Fin a → EReal := fun j => x (ix2 (0 : Fin 1) j)

/-- A vector [a] of 32-bit words as a function of its coordinate. -/
def i1 {a : ℕ} (x : (⟨1, ![a]⟩ : Shape).Idx → BitVec 32) : Fin a → BitVec 32 := fun r => x (ix1 r)

/-- A column [a, 1] of 32-bit words as a function of its row. -/
def icol {a : ℕ} (x : (⟨2, ![a, 1]⟩ : Shape).Idx → BitVec 32) : Fin a → BitVec 32 := fun r => x (ix2 r (0 : Fin 1))

/-- Row n of half `core` of 100000 rows split in two halves of 50000. -/
def rowOf (core : Fin 2) (n : Fin 50000) : Fin 100000 :=
  ⟨50000 * core.val + n.val, by have := core.isLt; have := n.isLt; omega⟩

/-- Whether a graph-number word, read as a signed integer, names graph g: 1 if so, else 0. -/
def oneHot (w : BitVec 32) (g : Fin 512) : EReal := if w.toInt = (g.val : ℤ) then 1 else 0

end Cert.Read

end
-- ==== Proof.KVals.lean ====
/-
  What the kernel's four launches leave in their result arrays, as whole-array functions of the buffer contents V at
  the launch's entry: per half of the rows (2 halves of 50000 rows, one per core) the column sums and sums of squares
  of the linear layer's output z, then of h = max(z · scale₁ + shift₁, 0), then the per-graph sums of x and of
  h' = max(h · scale₂ + shift₂, 0) through a 0/1 membership matrix, and last the two linear heads added.
-/
import proofs.«429314_j22110491639897_3_alg».proof.KernelIdeal
import proofs.«429314_j22110491639897_3_alg».proof.Proof.Spec
import proofs.«429314_j22110491639897_3_alg».proof.Proof.Read

noncomputable section

open scoped BigOperators
open Idealize.ShloMosaic Idealize.ShloMosaic.TcCoe Idealize.ShloMosaic.ValueIdx Idealize.SL.Sem

namespace Cert.KernelIdeal.KVals

open Cert.KernelIdeal Cert.Read

variable [Facts]
variable (V : (c : Dev nD) → (b : Ref sig .tc) → Buf (Elt Ideal) ((c : Thread nD τ).loc b)) (c : Dev nD)

/-- The aggregated features (carried as bf16, the same extended reals). -/
def aggA : Fin 100000 → Fin 128 → EReal := f2 (V c main_v17 : S100000x128.Idx → EReal)
/-- The linear layer's weights and bias (the bias kept as a row). -/
def wA : Fin 128 → Fin 256 → EReal := f2 (V c main_arg1 : S128x256.Idx → EReal)
def bA : Fin 256 → EReal := frow (V c main_v18 : S1x256.Idx → EReal)
/-- The input features and the graph numbers (kept as a column). -/
def xA : Fin 100000 → Fin 128 → EReal := f2 (V c main_arg0 : S100000x128.Idx → EReal)
def idsA : Fin 100000 → BitVec 32 := icol (V c main_v57 : S100000x1.Idx → BitVec 32)
/-- The fused scales and shifts of the two normalisations (rows). -/
def sc1 : Fin 256 → EReal := frow (V c main_v35 : S1x256.Idx → EReal)
def sh1 : Fin 256 → EReal := frow (V c main_v37 : S1x256.Idx → EReal)
def sc2 : Fin 256 → EReal := frow (V c main_v54 : S1x256.Idx → EReal)
def sh2 : Fin 256 → EReal := frow (V c main_v56 : S1x256.Idx → EReal)

/-- z = agg · w + b at (r, j). -/
def zK (r : Fin 100000) (j : Fin 256) : EReal := Cert.Spec.lin (aggA V c) (wA V c) (bA V c) r j
/-- h = max(z · scale₁ + shift₁, 0). -/
def hK (r : Fin 100000) (j : Fin 256) : EReal := max (zK V c r j * sc1 V c j + sh1 V c j) 0
/-- h' = max(h · scale₂ + shift₂, 0). -/
def h2K (r : Fin 100000) (j : Fin 256) : EReal := max (hK V c r j * sc2 V c j + sh2 V c j) 0

/-- Launch 0: per half, the column sums of z … -/
def G0sum : S2x1x256.Idx → EReal :=
  fun i : S2x1x256.Idx => ∑ n : Fin 50000, zK V c (rowOf (i 0) n) (i 2)
/-- … and of z². -/
def G0sq : S2x1x256.Idx → EReal :=
  fun i : S2x1x256.Idx => ∑ n : Fin 50000, zK V c (rowOf (i 0) n) (i 2) * zK V c (rowOf (i 0) n) (i 2)

/-- Launch 1: per half, the column sums of h … -/
def G1sum : S2x1x256.Idx → EReal :=
  fun i : S2x1x256.Idx => ∑ n : Fin 50000, hK V c (rowOf (i 0) n) (i 2)
/-- … and of h². -/
def G1sq : S2x1x256.Idx → EReal :=
  fun i : S2x1x256.Idx => ∑ n : Fin 50000, hK V c (rowOf (i 0) n) (i 2) * hK V c (rowOf (i 0) n) (i 2)

/-- Launch 2: per half, the per-graph sums of x … -/
def G2p0 : S2x512x128.Idx → EReal :=
  fun i : S2x512x128.Idx => ∑ n : Fin 50000, oneHot (idsA V c (rowOf (i 0) n)) (i 1) * xA V c (rowOf (i 0) n) (i 2)
/-- … and of h'. -/
def G2p1 : S2x512x256.Idx → EReal :=
  fun i : S2x512x256.Idx => ∑ n : Fin 50000, oneHot (idsA V c (rowOf (i 0) n)) (i 1) * h2K V c (rowOf (i 0) n) (i 2)

/-- Launch 3: the two heads on the pooled arrays, added. -/
def G3 : S512x128.Idx → EReal :=
  fun i : S512x128.Idx =>
    Cert.Spec.head (f2 (V c main_v59 : S512x128.Idx → EReal)) (f2 (V c main_arg7 : S128x128.Idx → EReal))
      (frow (V c main_v61 : S1x128.Idx → EReal)) (f2 (V c main_v60 : S512x256.Idx → EReal))
      (f2 (V c main_arg9 : S256x128.Idx → EReal)) (frow (V c main_v62 : S1x128.Idx → EReal)) (i 0) (i 1)

end Cert.KernelIdeal.KVals

end
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.LibRowIndex.lean ====
/-
  Where a scatter of rows lands, and what a lookup by position reads.

  A scatter of E update rows of width D into an array of N rows, each row sent to the row number its index word
  names (read as a signed integer, not clamped; a row number outside 0 … N − 1 drops the update), lands update
  entry (e, k) on array entry (n, k) only if the e-th index word, read as a signed integer, is n.
  A lookup of a vector of N entries by a column of E positions reads, at p, the vector at the p-th position read
  as a signed integer and clamped into 0 … N − 1; a position that is already a row number is its own clamp; and
  the wrap-around of negative positions (add N where the word is negative) leaves a non-negative word alone.
-/
import Idealize.ShloMosaic.Lib.ValueIdx
import Idealize.ShloMosaic.Lib.StableHlo.Predicate
import proofs.«429314_j22110491639897_3_alg».proof.Proof.LibRowGather

noncomputable section

namespace Cert.RowIndex

open Idealize.ShloMosaic Idealize.ShloMosaic.ValueIdx Cert.LibRowGather

/-- The dimension numbers of a scatter of rows: array [N, D], index column [E, 1], updates [E, D]; the update's
    axis 1 is the window, the array's axis 0 is the scattered one. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update entry that lands on array entry `i` was sent there by its row's index word: that word, read as a signed
    integer, is `i`'s row number. -/
theorem row_of_resultIdx {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N D E wf).resultIdx? j idx = some i) :
    (idx (ix2 (j 0) (0 : Fin 1))).toInt = ((i 0).val : ℤ) := by
  unfold ScatterDims.resultIdx? at h
  split at h
  · rename_i hall
    have hi := Option.some.inj h
    have h0 := hall 0
    -- axis 0 is inserted: it carries no window coordinate
    have hw0 : (rowScatterDims N D E wf).window j 0 = 0 := by
      unfold ScatterDims.window
      rw [dif_neg]
      intro hk
      simp [ScatterDims.sKept, Shape.kept, List.mem_filter] at hk
    -- axis 0 is the one the index word addresses: its start is that word read signed
    have hs0 : (rowScatterDims N D E wf).start j idx 0 = (idx (ix2 (j 0) (0 : Fin 1))).toInt := by
      unfold ScatterDims.start
      rw [dif_pos (show (0 : Fin 2) ∈ (rowScatterDims N D E wf).scatterDimsToOperandDims from List.mem_singleton.mpr rfl)]
      have hsi : (rowScatterDims N D E wf).siIdx j
          ⟨List.idxOf (0 : Fin 2) (rowScatterDims N D E wf).scatterDimsToOperandDims,
            List.idxOf_lt_length_iff.2 (List.mem_singleton.mpr rfl)⟩ = ix2 (j 0) (0 : Fin 1) := by
        funext c; refine Fin.ext ?_
        match c with
        | ⟨0, _⟩ => rfl
        | ⟨1, _⟩ => rfl
      rw [hsi]
      rfl
    have hv : (i 0).val = ((rowScatterDims N D E wf).start j idx 0 + (rowScatterDims N D E wf).window j 0).toNat := by
      rw [← hi]
    rw [hw0, hs0] at h0
    rw [hw0, hs0] at hv
    rw [hv]
    have := h0.1
    omega
  · exact absurd h (by simp)

/-- A word that reads, as a signed integer, a row number is clamped to that row. -/
theorem clampRow_of_toInt {N w : Nat} (hN : 0 < N) (v : BitVec w) (n : Fin N) (h : v.toInt = (n.val : ℤ)) :
    clampRow N hN v = n := by
  refine Fin.ext ?_
  show min v.toInt.toNat (N - 1) = n.val
  have hv : v.toInt.toNat = n.val := by rw [h]; exact Int.toNat_natCast _
  have := n.isLt
  rw [hv]
  omega

/-- jnp's wrap-around of a negative position leaves a non-negative word as it is. -/
theorem wrap_of_nonneg (v c : BitVec 32) (h : 0 ≤ v.toInt) :
    Scalar.select (IntOp.cmpi .slt v 0#32) (IntOp.addi v c) v = v := by
  have hs : v.slt 0#32 = false := by
    unfold BitVec.slt
    rw [BitVec.toInt_zero]
    exact decide_eq_false (by omega)
  show Scalar.select (BitVec.ofBool (v.slt 0#32)) (IntOp.addi v c) v = v
  rw [hs]
  exact select_zero _ _

/-- The lookup of a vector by a column of positions, read at `p`: the vector at the clamped position. -/
theorem take_apply {α : Type} {N E w : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (p : Fin E) :
    Host.gather d x idx (ix1 p) = x (ix1 (clampRow N hN (idx (ix2 p (0 : Fin 1))))) := by
  -- the rank-1 index at p, and row p of the column, written either way
  have h1 : ∀ {n : Nat} (q : Fin n), Shape.Idx.ofFin q = ix1 q := fun q => by
    funext a
    obtain rfl : a = 0 := Subsingleton.elim _ _
    exact Fin.ext rfl
  have h2 : StableHlo.Predicate.ixP p = ix2 p (0 : Fin 1) := by
    funext a
    match a with
    | ⟨0, _⟩ => rfl
    | ⟨1, _⟩ => rfl
  have hg := StableHlo.Predicate.gather_take d hcoll hob hsim hivd x idx p hN
  rw [h1, h1] at hg
  simp only [h2] at hg
  exact hg

end Cert.RowIndex

end
-- ==== Proof.LibSegmentSum.lean ====
/-
  A scatter-add of rows, read at one entry, on the extended reals.

  E update rows of width D are added into an array of N rows; update row e goes to the row number its index word
  names (read as a signed integer, not clamped; a row number outside 0 … N − 1 drops the row). Update entry (e, k)
  lands on array entry (n, k') exactly when the e-th index word reads n and k = k'. So the result at (n, k) is the
  array's entry there plus the sum, over the update rows whose index word reads n, of their entries in column k:
  a segment sum.
-/
import Idealize.ShloMosaic.PureOps.Ideal
import Idealize.ShloMosaic.PureOps.Contract
import Idealize.ShloMosaic.Lib.ValueIdx
import proofs.«429314_j22110491639897_3_alg».proof.Proof.LibRowIndex

noncomputable section

namespace Cert.LibSegmentSum

open Idealize.ShloMosaic Idealize.ShloMosaic.ValueIdx Cert.RowIndex

open scoped BigOperators

section Coordinates

variable {N D E w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- Axis 0 of the array is the scattered one: the window starts at the row's index word, read signed. -/
private theorem start_zero :
    (rowScatterDims N D E wf).start j idx 0 = (idx (ix2 (j 0) (0 : Fin 1))).toInt := by
  unfold ScatterDims.start
  rw [dif_pos (show (0 : Fin 2) ∈ (rowScatterDims N D E wf).scatterDimsToOperandDims from List.mem_singleton.mpr rfl)]
  have hsi : (rowScatterDims N D E wf).siIdx j
      ⟨List.idxOf (0 : Fin 2) (rowScatterDims N D E wf).scatterDimsToOperandDims,
        List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- Axis 0 of the array is inserted: it carries no window coordinate. -/
private theorem window_zero : (rowScatterDims N D E wf).window j 0 = 0 := by
  unfold ScatterDims.window
  rw [dif_neg]
  intro hk
  simp [ScatterDims.sKept, Shape.kept, List.mem_filter] at hk

/-- Axis 1 of the array is not addressed by the index word: the window starts at column 0. -/
private theorem start_one : (rowScatterDims N D E wf).start j idx 1 = 0 := by
  unfold ScatterDims.start
  rw [dif_neg]
  intro hk
  exact Nat.one_ne_zero (congrArg Fin.val (List.mem_singleton.mp hk))

/-- Axis 1 of the array is the window axis: its window coordinate is the update's column. -/
private theorem window_one : (rowScatterDims N D E wf).window j 1 = (j 1).val := by
  unfold ScatterDims.window
  have h1 : (1 : Fin 2) ∈ (rowScatterDims N D E wf).sKept := by
    show (1 : Fin 2) ∈ (List.finRange 2).filter (fun a => decide (a ∉ [(0 : Fin 2)]))
    decide
  rw [dif_pos h1]
  rfl

end Coordinates

/-- WHERE AN UPDATE ENTRY LANDS: entry (e, k) of the updates lands on entry (n, k') of the array exactly when the
    e-th index word, read as a signed integer, is n, and the columns agree. -/
theorem rowScatter_resultIdx_iff {N D E w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N D E wf).resultIdx? (ix2 e k) idx = some (ix2 n k')
      ↔ (idx (ix2 e (0 : Fin 1))).toInt = (n.val : ℤ) ∧ k = k' := by
  have hs0 := start_zero wf idx (ix2 e k)
  have hw0 := window_zero wf (ix2 e k)
  have hs1 := start_one wf idx (ix2 e k)
  have hw1 := window_one wf (ix2 e k)
  have he : (ix2 e k : (⟨2, ![E, D]⟩ : Shape).Idx) 0 = e := rfl
  have hk : (ix2 e k : (⟨2, ![E, D]⟩ : Shape).Idx) 1 = k := rfl
  rw [he] at hs0
  rw [hk] at hw1
  constructor
  · intro h
    unfold ScatterDims.resultIdx? at h
    split at h
    · rename_i hall
      have hi := Option.some.inj h
      have h0 := hall 0
      have e0 : ((rowScatterDims N D E wf).start (ix2 e k) idx 0 + (rowScatterDims N D E wf).window (ix2 e k) 0).toNat
          = n.val := by
        have := congrArg (fun f : (⟨2, ![N, D]⟩ : Shape).Idx => (f 0).val) hi
        exact this
      have e1 : ((rowScatterDims N D E wf).start (ix2 e k) idx 1 + (rowScatterDims N D E wf).window (ix2 e k) 1).toNat
          = k'.val := by
        have := congrArg (fun f : (⟨2, ![N, D]⟩ : Shape).Idx => (f 1).val) hi
        exact this
      rw [hs0, hw0] at h0 e0
      rw [hs1, hw1] at e1
      refine ⟨?_, Fin.ext ?_⟩
      · have := h0.1
        omega
      · omega
    · exact absurd h (by simp)
  · rintro ⟨hn, rfl⟩
    have hall : ∀ a : Fin 2, 0 ≤ (rowScatterDims N D E wf).start (ix2 e k) idx a + (rowScatterDims N D E wf).window (ix2 e k) a
        ∧ (rowScatterDims N D E wf).start (ix2 e k) idx a + (rowScatterDims N D E wf).window (ix2 e k) a
          < (⟨2, ![N, D]⟩ : Shape).size a := by
      intro a
      match a with
      | ⟨0, _⟩ =>
        show 0 ≤ (rowScatterDims N D E wf).start (ix2 e k) idx 0 + (rowScatterDims N D E wf).window (ix2 e k) 0
          ∧ (rowScatterDims N D E wf).start (ix2 e k) idx 0 + (rowScatterDims N D E wf).window (ix2 e k) 0 < (N : ℤ)
        rw [hs0, hw0, hn]
        have := n.isLt
        omega
      | ⟨1, _⟩ =>
        show 0 ≤ (rowScatterDims N D E wf).start (ix2 e k) idx 1 + (rowScatterDims N D E wf).window (ix2 e k) 1
          ∧ (rowScatterDims N D E wf).start (ix2 e k) idx 1 + (rowScatterDims N D E wf).window (ix2 e k) 1 < (D : ℤ)
        rw [hs1, hw1]
        have := k.isLt
        omega
    unfold ScatterDims.resultIdx?
    rw [dif_pos hall]
    congr 1
    funext a
    refine Fin.ext ?_
    match a with
    | ⟨0, _⟩ =>
      show ((rowScatterDims N D E wf).start (ix2 e k) idx 0 + (rowScatterDims N D E wf).window (ix2 e k) 0).toNat = n.val
      rw [hs0, hw0, hn]
      omega
    | ⟨1, _⟩ =>
      show ((rowScatterDims N D E wf).start (ix2 e k) idx 1 + (rowScatterDims N D E wf).window (ix2 e k) 1).toNat = k.val
      rw [hs1, hw1]
      omega

/-- THE SCATTER-ADD READ AT (n, k): the array's entry plus the sum, over the update rows whose index word reads n,
    of the update's entry in column k. -/
theorem scatterAdd_row_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w)
    (upd : FVec Ideal ⟨2, ![E, D]⟩ φ) (n : Fin N) (k : Fin D) :
    Host.scatterAdd (rowScatterDims N D E wf) x idx upd (ix2 n k)
      = x (ix2 n k) + ∑ e ∈ Finset.univ.filter (fun e : Fin E => (idx (ix2 e (0 : Fin 1))).toInt = (n.val : ℤ)),
          upd (ix2 e k) := by
  show x (ix2 n k) + ∑ j ∈ Finset.univ.filter
      (fun j => (rowScatterDims N D E wf).resultIdx? j idx = some (ix2 n k)), upd j = _
  congr 1
  symm
  refine Finset.sum_bij (fun e _ => (ix2 e k : (⟨2, ![E, D]⟩ : Shape).Idx)) ?_ ?_ ?_ ?_
  · intro e he
    rw [Finset.mem_filter] at he ⊢
    exact ⟨Finset.mem_univ _, (rowScatter_resultIdx_iff wf idx e k n k).mpr ⟨he.2, rfl⟩⟩
  · intro e₁ _ e₂ _ h
    have := congrFun h 0
    exact this
  · intro j hj
    rw [Finset.mem_filter] at hj
    have hj2 := hj.2
    rw [eq_ix2 j] at hj2
    have := (rowScatter_resultIdx_iff wf idx (j 0) (j 1) n k).mp hj2
    refine ⟨j 0, Finset.mem_filter.mpr ⟨Finset.mem_univ _, this.1⟩, ?_⟩
    · rw [← this.2]
      exact (eq_ix2 j).symm
  · intro e _
    rfl

end Cert.LibSegmentSum

end
-- ==== Proof.LibColumn.lean ====
/-
  Two layout readings between a vector [a] and a column [a, 1], the inverse directions of the keepdims forms:
  a column [a, 1] cast to a vector [a] (the reshape that drops a kept unit axis), and a vector [a] spread by
  `broadcast_in_dim` along `dims = [0]` into a column [a, 1] (the reshape that adds one, as jax lowers
  `keepdims=True` on the host).
-/
import Idealize.ShloMosaic.Lib.Pipeline.Value
import Idealize.ShloMosaic.Lib.ValueIdx

namespace Cert.LibColumn

open Idealize.ShloMosaic Idealize.ShloMosaic.ValueIdx

variable {α : Type}

/-- A column [a, 1] cast to a vector [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] broadcast along `dims = [0]` into a column [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

end Cert.LibColumn
-- ==== Proof.Agg.lean ====
/-
  The neighbourhood aggregation, as both programs spell it on the host, read at one entry.

  Every edge e has a source word and a destination word (rows 0 and 1 of the edge array). The source word is wrapped
  as jnp wraps a negative position (add N where the word is negative) and then, as every start index of a gather,
  clamped into the rows 0 … N − 1; the destination word is read as a signed integer and an edge whose destination is
  outside 0 … N − 1 is dropped. Entry (r, k) of the aggregated array is x(r, k) plus the sum, over the edges whose
  destination reads r, of x at the edge's clamped source row and column k. A finite sum of real numbers is real.
-/
import Idealize.ShloMosaic.PureOps.Ideal
import Idealize.ShloMosaic.PureOps.Ideal.Laws
import Idealize.ShloMosaic.PureOps.Contract
import Idealize.ShloMosaic.Lib.ValueIdx
import Idealize.ShloMosaic.Lib.ValueLayout
import Idealize.ShloMosaic.Lib.Pipeline.Value
import Mathlib.Data.EReal.Basic
import Mathlib.Algebra.BigOperators.Group.Finset.Basic
import proofs.«429314_j22110491639897_3_alg».proof.Proof.LibSegmentSum
import proofs.«429314_j22110491639897_3_alg».proof.Proof.LibColumn

noncomputable section

open scoped BigOperators
open Idealize.ShloMosaic Idealize.ShloMosaic.ValueIdx

namespace Cert.Agg

abbrev SX : Shape := ⟨2, ![100000, 128]⟩
abbrev SE2 : Shape := ⟨2, ![2, 1600000]⟩
abbrev SE1 : Shape := ⟨2, ![1, 1600000]⟩
abbrev SE : Shape := ⟨1, ![1600000]⟩
abbrev SEc : Shape := ⟨2, ![1600000, 1]⟩
abbrev SEx : Shape := ⟨2, ![1600000, 128]⟩
abbrev S0 : Shape := ⟨0, ![]⟩

/-- The source word of edge e, wrapped as jnp wraps a negative position. -/
def srcWord (ei : IVec SE2 32) (e : Fin 1600000) : BitVec 32 :=
  Scalar.select (IntOp.cmpi .slt (ei (ix2 (0 : Fin 2) e)) 0#32) (IntOp.addi (ei (ix2 (0 : Fin 2) e)) 100000#32) (ei (ix2 (0 : Fin 2) e))

/-- The destination word of edge e. -/
def dstWord (ei : IVec SE2 32) (e : Fin 1600000) : BitVec 32 := ei (ix2 (1 : Fin 2) e)

/-- Entry (r, k) of the aggregation: the node's own feature plus its in-neighbours' features. -/
def aggF (X : Fin 100000 → Fin 128 → EReal) (ei : IVec SE2 32) (r : Fin 100000) (k : Fin 128) : EReal :=
  X r k + ∑ e ∈ Finset.univ.filter (fun e : Fin 1600000 => (dstWord ei e).toInt = (r.val : ℤ)),
    X (Cert.LibRowGather.clampRow 100000 (by decide) (srcWord ei e)) k

/-- The aggregation as the programs spell it: the two rows of the edge array sliced out and flattened, the source row
    wrapped, the rows of x gathered at it, scatter-added at the destination row into a zero array, and x added. -/
def aggOps (x : FVec Ideal SX .f32) (ei : IVec SE2 32)
    (hs0 : SE2.Slices ![0, 0] SE1) (hs1 : SE2.Slices ![1, 0] SE1) (hc : SE1.ShapeCasts SE)
    (hb0 : S0.BroadcastsInDim SE (![] : Fin 0 → Fin SE.rank))
    (hb1 : SE.BroadcastsInDim SEc (![0] : Fin 1 → Fin SEc.rank))
    (hbx : S0.BroadcastsInDim SX (![] : Fin 0 → Fin SX.rank))
    (gd : GatherDims SX SEc SEx) (sd : ScatterDims SX SEc SEx) : FVec Ideal SX .f32 :=
  addf x (Host.scatterAdd sd
    (broadcastInDim SX ![] hbx (constant (F := Ideal) S0 .f32 0x00000000#32))
    (broadcastInDim SEc ![0] hb1 (shapeCast SE (extractStridedSlice SE1 ![1, 0] ei hs1) hc))
    (Host.gather gd x (broadcastInDim SEc ![0] hb1
      (select (cmpi .slt (shapeCast SE (extractStridedSlice SE1 ![0, 0] ei hs0) hc)
          (broadcastInDim SE ![] hb0 (constantI S0 32 0#32)))
        (addi (shapeCast SE (extractStridedSlice SE1 ![0, 0] ei hs0) hc)
          (broadcastInDim SE ![] hb0 (constantI S0 32 100000#32)))
        (shapeCast SE (extractStridedSlice SE1 ![0, 0] ei hs0) hc)))))

/-- Row a of the edge array, sliced out ([2, E] → [1, E]) and flattened ([1, E] → [E]), reads at e the edge array's
    entry (a, e). -/
private theorem row_apply (ei : IVec SE2 32) (o : Nat) (a : Fin 2) (ha : a.val = o)
    (hs : SE2.Slices ![o, 0] SE1) (hc : SE1.ShapeCasts SE) (e : Fin 1600000) :
    shapeCast SE (extractStridedSlice SE1 ![o, 0] ei hs) hc (ix1 e) = ei (ix2 a e) := by
  rw [shapeCast_1a_a_apply]
  exact slice2_axis0_apply o ei hs (0 : Fin 1) e a (by rw [ha]; rfl)

/-- The destination column, read at (e, 0): the destination word of edge e. -/
private theorem dstCol_apply (ei : IVec SE2 32) (hs1 : SE2.Slices ![1, 0] SE1) (hc : SE1.ShapeCasts SE)
    (hb1 : SE.BroadcastsInDim SEc (![0] : Fin 1 → Fin SEc.rank)) (e : Fin 1600000) :
    broadcastInDim SEc ![0] hb1 (shapeCast SE (extractStridedSlice SE1 ![1, 0] ei hs1) hc) (ix2 e (0 : Fin 1))
      = dstWord ei e := by
  rw [Cert.LibColumn.broadcastInDim_a_a1_apply]
  exact row_apply ei 1 (1 : Fin 2) rfl hs1 hc e

/-- The wrapped source column, read at (e, 0): the wrapped source word of edge e. A scalar constant spread over the
    edges reads the constant at every edge, and compare, add and select act entry by entry. -/
private theorem srcCol_apply (ei : IVec SE2 32) (hs0 : SE2.Slices ![0, 0] SE1) (hc : SE1.ShapeCasts SE)
    (hb0 : S0.BroadcastsInDim SE (![] : Fin 0 → Fin SE.rank))
    (hb1 : SE.BroadcastsInDim SEc (![0] : Fin 1 → Fin SEc.rank)) (e : Fin 1600000) :
    broadcastInDim SEc ![0] hb1
      (select (cmpi .slt (shapeCast SE (extractStridedSlice SE1 ![0, 0] ei hs0) hc)
          (broadcastInDim SE ![] hb0 (constantI S0 32 0#32)))
        (addi (shapeCast SE (extractStridedSlice SE1 ![0, 0] ei hs0) hc)
          (broadcastInDim SE ![] hb0 (constantI S0 32 100000#32)))
        (shapeCast SE (extractStridedSlice SE1 ![0, 0] ei hs0) hc)) (ix2 e (0 : Fin 1))
      = srcWord ei e := by
  rw [Cert.LibColumn.broadcastInDim_a_a1_apply]
  have h := row_apply ei 0 (0 : Fin 2) rfl hs0 hc e
  show Scalar.select (IntOp.cmpi .slt (shapeCast SE (extractStridedSlice SE1 ![0, 0] ei hs0) hc (ix1 e)) 0#32)
      (IntOp.addi (shapeCast SE (extractStridedSlice SE1 ![0, 0] ei hs0) hc (ix1 e)) 100000#32)
      (shapeCast SE (extractStridedSlice SE1 ![0, 0] ei hs0) hc (ix1 e)) = _
  rw [h]
  rfl

/-- The zero array, read anywhere: the extended real 0. -/
private theorem zeros_apply (hbx : S0.BroadcastsInDim SX (![] : Fin 0 → Fin SX.rank)) (j : SX.Idx) :
    broadcastInDim SX ![] hbx (constant (F := Ideal) S0 .f32 0x00000000#32) j = 0 := by
  show Ideal.ofBits .f32 0x00000000#32 = 0
  exact Ideal.ofBits_zero_f32

/-- THE READING: the spelled aggregation at (r, k) is the node's feature plus its in-neighbours' features, for the
    dimension numbers of a gather of rows and a scatter of rows. -/
theorem aggOps_apply (x : FVec Ideal SX .f32) (ei : IVec SE2 32)
    (hs0 : SE2.Slices ![0, 0] SE1) (hs1 : SE2.Slices ![1, 0] SE1) (hc : SE1.ShapeCasts SE)
    (hb0 : S0.BroadcastsInDim SE (![] : Fin 0 → Fin SE.rank))
    (hb1 : SE.BroadcastsInDim SEc (![0] : Fin 1 → Fin SEc.rank))
    (hbx : S0.BroadcastsInDim SX (![] : Fin 0 → Fin SX.rank))
    (gwf : GatherDims.WF SX SEc SEx [1] [0] [] [0] [] 1 ![1, 128])
    (swf : ScatterDims.WF SX SEc SEx [1] [0] [0] 1) (r : Fin 100000) (k : Fin 128) :
    aggOps x ei hs0 hs1 hc hb0 hb1 hbx (Cert.LibRowGather.rowDims 100000 128 1600000 gwf)
        (Cert.RowIndex.rowScatterDims 100000 128 1600000 swf) (ix2 r k)
      = aggF (fun r k => x (ix2 r k)) ei r k := by
  unfold aggOps aggF
  show x (ix2 r k) + Host.scatterAdd _ _ _ _ (ix2 r k) = _
  rw [Cert.LibSegmentSum.scatterAdd_row_apply, zeros_apply, zero_add]
  refine congrArg (fun t => x (ix2 r k) + t) ?_
  refine Finset.sum_congr (Finset.filter_congr fun e _ => ?_) fun e _ => ?_
  · rw [dstCol_apply]
  · rw [Cert.LibRowGather.gather_row_apply (by decide), srcCol_apply]

/-- Real features aggregate to real numbers. -/
theorem aggF_real (X : Fin 100000 → Fin 128 → EReal) (ei : IVec SE2 32)
    (hX : ∀ r k, ∃ a : ℝ, X r k = (a : EReal)) (r : Fin 100000) (k : Fin 128) :
    ∃ a : ℝ, aggF X ei r k = (a : EReal) := by
  unfold aggF
  obtain ⟨a, ha⟩ := hX r k
  have hsum : ∀ s : Finset (Fin 1600000),
      ∃ b : ℝ, ∑ e ∈ s, X (Cert.LibRowGather.clampRow 100000 (by decide) (srcWord ei e)) k = (b : EReal) := by
    intro s
    refine Finset.sum_induction _ (fun v : EReal => ∃ b : ℝ, v = (b : EReal)) ?_ ⟨0, rfl⟩ fun e _ => hX _ k
    rintro _ _ ⟨b, rfl⟩ ⟨c, rfl⟩
    exact ⟨b + c, (EReal.coe_add b c).symm⟩
  obtain ⟨b, hb⟩ := hsum _
  exact ⟨a + b, by rw [ha, hb, EReal.coe_add]⟩

end Cert.Agg

end
-- ==== Proof.KArgs.lean ====
/-
  The kernel program's thirteen arguments at launch, read as functions of plain coordinates, and the layers of the
  mathematics over them: the linear layer's output Z, the first normalised layer H1 and the second H2 (fused form).
-/
import proofs.«429314_j22110491639897_3_alg».proof.KernelIdeal
import proofs.«429314_j22110491639897_3_alg».proof.Proof.Spec
import proofs.«429314_j22110491639897_3_alg».proof.Proof.Read
import proofs.«429314_j22110491639897_3_alg».proof.Proof.Agg

noncomputable section

open Idealize.ShloMosaic Idealize.ShloMosaic.TcCoe Idealize.ShloMosaic.ValueIdx Idealize.SL.Sem

namespace Cert.KernelIdeal.KArgs

open Cert.KernelIdeal Cert.Read

variable (m : (ℓ : Loc nD τ sig) → Buf (Elt Ideal) ℓ) (c : Dev nD)

/-- The row count and the variance's small constant, as the programs spell them. -/
abbrev nn : EReal := Ideal.ofBits .f32 0x47C35000#32
abbrev eps : EReal := Ideal.ofBits .f32 0x3727C5AC#32

def X : Fin 100000 → Fin 128 → EReal := f2 (m ((c : Thread nD τ).loc main_arg0) : S100000x128.Idx → EReal)
def EI : IVec S2x1600000 32 := (m ((c : Thread nD τ).loc main_arg11) : S2x1600000.Idx → BitVec 32)
def Wm : Fin 128 → Fin 256 → EReal := f2 (m ((c : Thread nD τ).loc main_arg1) : S128x256.Idx → EReal)
def bv : Fin 256 → EReal := f1 (m ((c : Thread nD τ).loc main_arg2) : S256.Idx → EReal)
def g1 : Fin 256 → EReal := f1 (m ((c : Thread nD τ).loc main_arg3) : S256.Idx → EReal)
def b1 : Fin 256 → EReal := f1 (m ((c : Thread nD τ).loc main_arg4) : S256.Idx → EReal)
def g2 : Fin 256 → EReal := f1 (m ((c : Thread nD τ).loc main_arg5) : S256.Idx → EReal)
def b2 : Fin 256 → EReal := f1 (m ((c : Thread nD τ).loc main_arg6) : S256.Idx → EReal)
def W0 : Fin 128 → Fin 128 → EReal := f2 (m ((c : Thread nD τ).loc main_arg7) : S128x128.Idx → EReal)
def c0 : Fin 128 → EReal := f1 (m ((c : Thread nD τ).loc main_arg8) : S128.Idx → EReal)
def W1 : Fin 256 → Fin 128 → EReal := f2 (m ((c : Thread nD τ).loc main_arg9) : S256x128.Idx → EReal)
def c1 : Fin 128 → EReal := f1 (m ((c : Thread nD τ).loc main_arg10) : S128.Idx → EReal)
def ids : Fin 100000 → BitVec 32 := i1 (m ((c : Thread nD τ).loc main_arg12) : S100000.Idx → BitVec 32)

/-- The aggregated features. -/
def A : Fin 100000 → Fin 128 → EReal := Cert.Agg.aggF (X m c) (EI m c)
/-- The linear layer's output. -/
def Z : Fin 100000 → Fin 256 → EReal := Cert.Spec.lin (A m c) (Wm m c) (bv m c)
/-- The first normalised layer (fused form). -/
def H1 : Fin 100000 → Fin 256 → EReal := Cert.Spec.bnK nn eps (g1 m c) (b1 m c) (Z m c)
/-- The second normalised layer (fused form). -/
def H2 : Fin 100000 → Fin 256 → EReal := Cert.Spec.bnK nn eps (g2 m c) (b2 m c) (H1 m c)

end Cert.KernelIdeal.KArgs

end
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KStage1.lean ====
/-
  The buffer contents at the first launch's entry (after the first stretch of host operations), read: the aggregated
  features are the node's own plus its in-neighbours' (the bf16 and f32 format changes are the identity on the
  extended reals), the weights are the argument, the bias row is the bias vector; so the linear layer's output there
  is Z.
-/
import proofs.«429314_j22110491639897_3_alg».proof.Proof.Gen.KernelIdeal.Frame
import proofs.«429314_j22110491639897_3_alg».proof.Proof.KVals
import proofs.«429314_j22110491639897_3_alg».proof.Proof.KArgs
import proofs.«429314_j22110491639897_3_alg».proof.Proof.Agg
import proofs.«429314_j22110491639897_3_alg».proof.Proof.LibKeepdims
import proofs.«429314_j22110491639897_3_alg».proof.Proof.LibColumn
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KS1

open Cert.KernelIdeal Cert.KernelIdeal.Gen Cert.KernelIdeal.KVals Cert.KernelIdeal.KArgs Cert.Read

variable (m : (ℓ : Loc nD τ sig) → Buf (Elt Ideal) ℓ) (ρ : Dev nD → PrngReg) (c : Dev nD)

/-- The aggregation as the first stretch of host operations spells it — the features cut to bf16 before the rows are
    gathered, the gathered rows widened back to f32 before they are scatter-added, the sum cut to bf16 at the end — is,
    on the extended reals where the three format changes are the identity, the spelled aggregation itself, the
    program's gather and scatter dimension numbers being those of a gather of rows and a scatter of rows. -/
theorem agg_term (x : FVec Ideal S100000x128 .f32) (ei : IVec S2x1600000 32)
    (hs0 : S2x1600000.Slices ![0, 0] S1x1600000) (hs1 : S2x1600000.Slices ![1, 0] S1x1600000)
    (hc : S1x1600000.ShapeCasts S1600000)
    (hb0 : S_.BroadcastsInDim S1600000 (![] : Fin 0 → Fin S1600000.rank))
    (hb1 : S1600000.BroadcastsInDim S1600000x1 (![0] : Fin 1 → Fin S1600000x1.rank))
    (hbx : S_.BroadcastsInDim S100000x128 (![] : Fin 0 → Fin S100000x128.rank))
    (hlt : FTy.bits .bf16 < FTy.bits .f32)
    (gwf : GatherDims.WF S100000x128 S1600000x1 S1600000x128 [1] [0] [] [0] [] 1 ![1, 128])
    (swf : ScatterDims.WF S100000x128 S1600000x1 S1600000x128 [1] [0] [0] 1) :
    (truncf .bf16 (addf x (Host.scatterAdd scatter_S100000x128_S1600000x1_S1600000x128_1_0_0_1
        (broadcastInDim S100000x128 ![] hbx (constant (F := Ideal) S_ .f32 0x00000000#32))
        (broadcastInDim S1600000x1 ![0] hb1 (shapeCast S1600000 (extractStridedSlice S1x1600000 ![1, 0] ei hs1) hc))
        (extf .f32 (Host.gather gather_S100000x128_S1600000x1_S1600000x128_1_0_n_n_0_1_1128 (truncf .bf16 x hlt)
          (broadcastInDim S1600000x1 ![0] hb1
            (select (cmpi .slt (shapeCast S1600000 (extractStridedSlice S1x1600000 ![0, 0] ei hs0) hc)
                (broadcastInDim S1600000 ![] hb0 (constantI S_ 32 0#32)))
              (addi (shapeCast S1600000 (extractStridedSlice S1x1600000 ![0, 0] ei hs0) hc)
                (broadcastInDim S1600000 ![] hb0 (constantI S_ 32 100000#32)))
              (shapeCast S1600000 (extractStridedSlice S1x1600000 ![0, 0] ei hs0) hc)))) hlt))) hlt : S100000x128.Idx → EReal)
      = Cert.Agg.aggOps x ei hs0 hs1 hc hb0 hb1 hbx (Cert.LibRowGather.rowDims 100000 128 1600000 gwf)
          (Cert.RowIndex.rowScatterDims 100000 128 1600000 swf) := rfl

/-- The weights' buffer at the first launch's entry is the argument: no host operation of the first stretch writes it. -/
theorem V1_arg1 : (V1 m ρ c main_arg1 : S128x256.Idx → EReal)
    = (m ((c : Thread nD τ).loc main_arg1) : S128x256.Idx → EReal) := by
  show StableHlo.after hostOps0 (W0 m ρ c) (Proc.devRef .tc main_arg1) = _
  dsimp only [hostOps0]
  after_results_simp

/-- The bias row's buffer at the first launch's entry is the bias vector reshaped [256] → [1, 256]. -/
theorem V1_v18 : (V1 m ρ c main_v18 : S1x256.Idx → EReal)
    = shapeCast S1x256 (m ((c : Thread nD τ).loc main_arg2) : S256.Idx → EReal) Gen.shapeCasts_S256_S1x256 := by
  show StableHlo.after hostOps0 (W0 m ρ c) (Proc.devRef .tc main_v18) = _
  dsimp only [hostOps0]
  after_results_simp
  rfl

set_option maxHeartbeats 1000000 in
/-- The aggregated features' buffer at the first launch's entry is the spelled aggregation of the feature and edge
    arguments. -/
theorem V1_v17 : (V1 m ρ c main_v17 : S100000x128.Idx → EReal)
    = Cert.Agg.aggOps (m ((c : Thread nD τ).loc main_arg0) : S100000x128.Idx → EReal)
        (m ((c : Thread nD τ).loc main_arg11) : S2x1600000.Idx → BitVec 32)
        Gen.slices_S2x1600000_S1x1600000_0_0 Gen.slices_S2x1600000_S1x1600000_1_0
        Gen.shapeCasts_S1x1600000_S1600000 Gen.bcast_S_S1600000 Gen.bcast_S1600000_S1600000x1_0
        Gen.bcast_S_S100000x128
        (Cert.LibRowGather.rowDims 100000 128 1600000 Gen.gather_S100000x128_S1600000x1_S1600000x128_1_0_n_n_0_1_1128_wf)
        (Cert.RowIndex.rowScatterDims 100000 128 1600000 Gen.scatter_S100000x128_S1600000x1_S1600000x128_1_0_0_1_wf) := by
  show StableHlo.after hostOps0 (W0 m ρ c) (Proc.devRef .tc main_v17) = _
  dsimp only [hostOps0]
  after_results_simp
  exact agg_term _ _ _ _ _ _ _ _ _ _ _

/-- The aggregated features there are A of the arguments: the node's own feature plus its in-neighbours'. -/
theorem aggA_V1 : aggA (V1 m ρ) c = A m c := by
  funext r k
  show (V1 m ρ c main_v17 : S100000x128.Idx → EReal) (ix2 r k) = _
  rw [V1_v17]
  exact Cert.Agg.aggOps_apply _ _ _ _ _ _ _ _ _ _ r k

/-- The weights there are the weight argument. -/
theorem wA_V1 : wA (V1 m ρ) c = Wm m c := by
  funext r k
  show (V1 m ρ c main_arg1 : S128x256.Idx → EReal) (ix2 r k) = _
  rw [V1_arg1]
  rfl

/-- The bias row there, read at column j, is the bias vector at j. -/
theorem bA_V1 : bA (V1 m ρ) c = bv m c := by
  funext j
  show (V1 m ρ c main_v18 : S1x256.Idx → EReal) (ix2 (0 : Fin 1) j) = _
  rw [V1_v18]
  exact shapeCast_a_1a_apply _ _ (0 : Fin 1) j

/-- The linear layer's output over the first launch's entry contents is Z of the arguments. -/
theorem zK_V1 : zK (V1 m ρ) c = Z m c := by
  unfold zK Z
  rw [aggA_V1, wA_V1, bA_V1]

end Cert.KernelIdeal.KS1

end
-- ==== Proof.LibTileSum.lean ====
/-
  A sum over all positions of a tiled range, taken tile by tile.
-/
import Mathlib.Algebra.BigOperators.Fin
import Mathlib.Logic.Equiv.Fin.Basic

namespace Cert.LibTileSum

/-- Position `r` of tile `i`, of `a` tiles of `b` positions each, among all `a * b` positions. -/
def pos {a b : ℕ} (i : Fin a) (r : Fin b) : Fin (a * b) :=
  ⟨b * i.val + r.val, by
    have hi := i.isLt; have hr := r.isLt
    have h1 : b * i.val + b ≤ b * a := by
      have : b * (i.val + 1) ≤ b * a := Nat.mul_le_mul_left _ hi
      rwa [Nat.mul_succ] at this
    rw [Nat.mul_comm a b]; omega⟩

theorem pos_val {a b : ℕ} (i : Fin a) (r : Fin b) : (pos i r).val = b * i.val + r.val := rfl

/-- Summing tile by tile, and within a tile position by position, is summing over all positions. -/
theorem sum_tiles {M : Type*} [AddCommMonoid M] {a b : ℕ} (f : Fin (a * b) → M) :
    ∑ i : Fin a, ∑ r : Fin b, f (pos i r) = ∑ n : Fin (a * b), f n := by
  rw [← Finset.sum_product' (f := fun i r => f (pos i r)), Finset.univ_product_univ]
  refine Fintype.sum_equiv (finProdFinEquiv (m := a) (n := b)) _ _ fun p => ?_
  congr 1
  apply Fin.ext
  simp [pos_val, finProdFinEquiv, Nat.add_comm]

end Cert.LibTileSum
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.LibIdxSum.lean ====
/-
  Three re-indexings of a sum over an index type by its one free coordinate: a sum over the positions of a column
  [R, 1] or of a vector [R] is the sum over the R rows, and a sum over the positions of a row [1, C] is the sum over
  the C columns. Each index type is in bijection with its free coordinate's range; the unit axis contributes the one
  coordinate 0.
-/
import Idealize.ShloMosaic.Lib.ValueIdx
import Mathlib.Algebra.BigOperators.Group.Finset.Basic
import Mathlib.Algebra.BigOperators.Fin

namespace Cert.LibIdxSum

open Idealize.ShloMosaic Idealize.ShloMosaic.ValueIdx
open scoped BigOperators

variable {M : Type*} [AddCommMonoid M]

/-- A sum over the positions of a column [R, 1] is the sum over its rows, each at column 0. -/
theorem sum_col {R : ℕ} (f : (⟨2, ![R, 1]⟩ : Shape).Idx → M) :
    ∑ y : (⟨2, ![R, 1]⟩ : Shape).Idx, f y = ∑ n : Fin R, f (ix2 n (0 : Fin 1)) := by
  rw [sum_idx2]
  exact Finset.sum_congr rfl fun n _ => Fin.sum_univ_one fun b : Fin 1 => f (ix2 n b)

/-- A sum over the positions of a row [1, C] is the sum over its columns, each at row 0. -/
theorem sum_row {C : ℕ} (f : (⟨2, ![1, C]⟩ : Shape).Idx → M) :
    ∑ y : (⟨2, ![1, C]⟩ : Shape).Idx, f y = ∑ q : Fin C, f (ix2 (0 : Fin 1) q) := by
  rw [sum_idx2]
  exact Fin.sum_univ_one fun a : Fin 1 => ∑ q : Fin C, f (ix2 a q)

/-- A rank-1 index set is its coordinate's range. -/
def idxEquiv1 {R : ℕ} : Fin R ≃ (⟨1, ![R]⟩ : Shape).Idx where
  toFun n := ix1 n
  invFun y := y 0
  left_inv _ := rfl
  right_inv y := (eq_ix1 y).symm

/-- A sum over the positions of a vector [R] is the sum over its coordinate. -/
theorem sum_vec {R : ℕ} (f : (⟨1, ![R]⟩ : Shape).Idx → M) :
    ∑ y : (⟨1, ![R]⟩ : Shape).Idx, f y = ∑ n : Fin R, f (ix1 n) :=
  (Fintype.sum_equiv idxEquiv1 (fun n => f (ix1 n)) f fun _ => rfl).symm

end Cert.LibIdxSum
-- ==== Proof.Region0.lean ====
/-
  Launch 0 (the first statistics pass), read as values: on each core the grid walks that core's ten tiles of 5000 rows;
  the first tile zeroes the two [1, 1, 256] accumulators and every tile adds its column sums of z and of z², z being
  the tile's rows of the aggregated features times the weights plus the bias; the accumulator is written back once per
  core, after its last tile. So the two result arrays [2, 1, 256] hold, per core, the column sums over that core's
  50000 rows.
-/
import proofs.«429314_j22110491639897_3_alg».proof.Proof.Gen.KernelIdeal.Frame
import proofs.«429314_j22110491639897_3_alg».proof.Proof.KVals
import proofs.«429314_j22110491639897_3_alg».proof.Proof.LibTileSum
import proofs.«429314_j22110491639897_3_alg».proof.Proof.LibPlainMatmul
import proofs.«429314_j22110491639897_3_alg».proof.Proof.LibIdxSum
import proofs.«429314_j22110491639897_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.R0

open Cert.KernelIdeal Cert.KernelIdeal.Gen Cert.KernelIdeal.KVals Cert.Read

/-! ## What each case of the body leaves in the two accumulators

The body loads its three input blocks whole and stores each accumulator whole, so what a case leaves in an
accumulator is the last stored value: the accumulator's previous contents (in the first-tile case the zeros just
stored) plus the tile's column sums. -/

section Pieces

variable {F : FTy → Type} [FloatOps F]

/-- The zero offsets of a whole-buffer access, at rank 3 and at rank 2. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A later tile leaves, in the first accumulator holding `xo3`, `xo3` plus the tile's column sums of z. -/
theorem out_B_3 (c : Dev nD) (i : grid0.Coords) (a2 : Memref sig .tc .vmem S5000x128 .bf16) (h2 : a2.IsWhole)
    (a3 : Memref sig .tc .vmem S128x256 .f32) (h3 : a3.IsWhole) (a4 : Memref sig .tc .vmem S1x256 .f32) (h4 : a4.IsWhole)
    (a5 : Memref sig .tc .vmem S1x1x256 .f32) (h5 : a5.IsWhole) (a6 : Memref sig .tc .vmem S1x1x256 .f32) (h6 : a6.IsWhole)
    (hc : ¬cond0_0 i) (x0 : Vec F S5000x128 .bf16) (x1 : Vec F S128x256 .f32) (x2 : Vec F S1x256 .f32)
    (xo3 xo4 : Vec F S1x1x256 .f32) :
    out0_B_3 c i a2 h2 a3 h3 a4 h4 a5 h5 a6 h6 hc x0 x1 x2 xo3 xo4 = k0_pay4 x0 x1 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread, View.ld_unit_zero (S := S5000x128) hz2,
    View.ld_unit_zero (S := S128x256) hz2, View.ld_unit_zero (S := S1x256) hz2, View.ld_unit_zero (S := S1x1x256) hz3]

/-- A later tile leaves, in the second accumulator holding `xo4`, `xo4` plus the tile's column sums of z². -/
theorem out_B_4 (c : Dev nD) (i : grid0.Coords) (a2 : Memref sig .tc .vmem S5000x128 .bf16) (h2 : a2.IsWhole)
    (a3 : Memref sig .tc .vmem S128x256 .f32) (h3 : a3.IsWhole) (a4 : Memref sig .tc .vmem S1x256 .f32) (h4 : a4.IsWhole)
    (a5 : Memref sig .tc .vmem S1x1x256 .f32) (h5 : a5.IsWhole) (a6 : Memref sig .tc .vmem S1x1x256 .f32) (h6 : a6.IsWhole)
    (hc : ¬cond0_0 i) (x0 : Vec F S5000x128 .bf16) (x1 : Vec F S128x256 .f32) (x2 : Vec F S1x256 .f32)
    (xo3 xo4 : Vec F S1x1x256 .f32) :
    out0_B_4 c i a2 h2 a3 h3 a4 h4 a5 h5 a6 h6 hc x0 x1 x2 xo3 xo4 = k0_pay5 x0 x1 x2 xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h6.read_unread, View.ld_unit_zero (S := S5000x128) hz2,
    View.ld_unit_zero (S := S128x256) hz2, View.ld_unit_zero (S := S1x256) hz2, View.ld_unit_zero (S := S1x1x256) hz3]

/-- The first tile of a half stores zeros, reads them back, and leaves zeros plus the tile's column sums of z. -/
theorem out_A_3 (c : Dev nD) (i : grid0.Coords) (a2 : Memref sig .tc .vmem S5000x128 .bf16) (h2 : a2.IsWhole)
    (a3 : Memref sig .tc .vmem S128x256 .f32) (h3 : a3.IsWhole) (a4 : Memref sig .tc .vmem S1x256 .f32) (h4 : a4.IsWhole)
    (a5 : Memref sig .tc .vmem S1x1x256 .f32) (h5 : a5.IsWhole) (a6 : Memref sig .tc .vmem S1x1x256 .f32) (h6 : a6.IsWhole)
    (hc : cond0_0 i) (x0 : Vec F S5000x128 .bf16) (x1 : Vec F S128x256 .f32) (x2 : Vec F S1x256 .f32) :
    out0_A_3 c i a2 h2 a3 h3 a4 h4 a5 h5 a6 h6 hc x0 x1 x2 = k0_pay4 x0 x1 x2 (k0_pay1 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, View.ld_unit_zero (S := S5000x128) hz2,
    View.ld_unit_zero (S := S128x256) hz2, View.ld_unit_zero (S := S1x256) hz2, View.ld_unit_zero (S := S1x1x256) hz3]

/-- The same for the second accumulator and the column sums of z². -/
theorem out_A_4 (c : Dev nD) (i : grid0.Coords) (a2 : Memref sig .tc .vmem S5000x128 .bf16) (h2 : a2.IsWhole)
    (a3 : Memref sig .tc .vmem S128x256 .f32) (h3 : a3.IsWhole) (a4 : Memref sig .tc .vmem S1x256 .f32) (h4 : a4.IsWhole)
    (a5 : Memref sig .tc .vmem S1x1x256 .f32) (h5 : a5.IsWhole) (a6 : Memref sig .tc .vmem S1x1x256 .f32) (h6 : a6.IsWhole)
    (hc : cond0_0 i) (x0 : Vec F S5000x128 .bf16) (x1 : Vec F S128x256 .f32) (x2 : Vec F S1x256 .f32) :
    out0_A_4 c i a2 h2 a3 h3 a4 h4 a5 h5 a6 h6 hc x0 x1 x2 = k0_pay5 x0 x1 x2 (k0_pay2 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, View.ld_unit_zero (S := S5000x128) hz2,
    View.ld_unit_zero (S := S128x256) hz2, View.ld_unit_zero (S := S1x256) hz2, View.ld_unit_zero (S := S1x1x256) hz3]

end Pieces

/-! ## The body's arithmetic read entry by entry, on the extended reals -/

section Payloads

/-- The body's matrix product has the dimension numbers of a plain product of a 5000×128 by a 128×256 matrix. -/
theorem dot_eq : dot_S5000x128_S128x256_S5000x256_1_0_0_1_n_n = DotDims.plain 5000 128 256 := rfl

/-- Entry (r, j) of the tile's product into the zero accumulator: ∑ₖ l(r, k) · w(k, j). -/
theorem mm_apply (l : FVec Ideal S5000x128 .bf16) (w : FVec Ideal S128x256 .bf16) (r : Fin 5000) (j : Fin 256) :
    matmul dot_S5000x128_S128x256_S5000x256_1_0_0_1_n_n none l w (constant (F := Ideal) S5000x256 .f32 0x00000000#32) (ix2 r j)
      = ∑ k : Fin 128, l (ix2 r k) * w (ix2 k j) := by
  rw [dot_eq]
  exact Cert.LibPlainMatmul.matmul_zero_apply 5000 128 256 none l w r j

/-- Entry (r, j) of z on one tile: row r of the tile times column j of the weights, plus the bias at j. -/
theorem pay3_apply (x0 : Vec Ideal S5000x128 .bf16) (x1 : Vec Ideal S128x256 .f32) (x2 : Vec Ideal S1x256 .f32)
    (r : Fin 5000) (j : Fin 256) :
    k0_pay3 x0 x1 x2 (ix2 r j) = (∑ k : Fin 128, x0 (ix2 r k) * x1 (ix2 k j)) + x2 (ix2 (0 : Fin 1) j) := by
  unfold k0_pay3
  refine (addf_apply _ _ _).trans ?_
  refine congrArg₂ (· + ·) ?_ ?_
  · refine (mm_apply _ _ r j).trans ?_
    refine Finset.sum_congr rfl fun k _ => ?_
    rw [shapeCast_self]
    rfl
  · refine (broadcastTo_1b_ab_apply _ _ r j).trans ?_
    rw [shapeCast_self]

/-- A sum over the rows of a 5000×256 tile, at column j. -/
theorem colsum_apply (src : FVec Ideal S5000x256 .f32) (h : S5000x256.Reduces [0] S256) (hφ : FKind.Formats .f32)
    (hacc : (0x00000000#32 : BitVec 32) = FKind.add.neutral .f32 hφ) (j : Fin 256) :
    multiReduction .add [0] S256 src 0x00000000#32 h hφ hacc (ix1 j) = ∑ r : Fin 5000, src (ix2 r j) := by
  refine (Ideal.multiReduction_add_single src 0x00000000#32 h hφ hacc (ix1 j)).trans ?_
  refine Finset.sum_congr rfl fun r _ => congrArg src ?_
  funext d
  refine Fin.ext ?_
  match d with
  | ⟨0, _⟩ => rfl
  | ⟨1, _⟩ => rfl

/-- The first accumulator's new value at column j: its old value plus the tile's column sum of z. -/
theorem pay4_apply (x0 : Vec Ideal S5000x128 .bf16) (x1 : Vec Ideal S128x256 .f32) (x2 : Vec Ideal S1x256 .f32)
    (xo : Vec Ideal S1x1x256 .f32) (u v : Fin 1) (j : Fin 256) :
    k0_pay4 x0 x1 x2 xo (ix3 u v j) = xo (ix3 u v j) + ∑ r : Fin 5000, k0_pay3 x0 x1 x2 (ix2 r j) := by
  unfold k0_pay4
  refine (addf_apply _ _ _).trans ?_
  refine congrArg₂ (· + ·) ?_ ?_
  · rw [shapeCast_self]
  · refine (shapeCast_ab_1ab_apply _ _ u v j).trans ?_
    refine (shapeCast_a_1a_apply _ _ v j).trans ?_
    exact colsum_apply (k0_pay3 x0 x1 x2) _ _ _ j

/-- The second accumulator's new value at column j: its old value plus the tile's column sum of z². -/
theorem pay5_apply (x0 : Vec Ideal S5000x128 .bf16) (x1 : Vec Ideal S128x256 .f32) (x2 : Vec Ideal S1x256 .f32)
    (xo : Vec Ideal S1x1x256 .f32) (u v : Fin 1) (j : Fin 256) :
    k0_pay5 x0 x1 x2 xo (ix3 u v j)
      = xo (ix3 u v j) + ∑ r : Fin 5000, k0_pay3 x0 x1 x2 (ix2 r j) * k0_pay3 x0 x1 x2 (ix2 r j) := by
  unfold k0_pay5
  refine (addf_apply _ _ _).trans ?_
  refine congrArg₂ (· + ·) ?_ ?_
  · rw [shapeCast_self]
  · refine (shapeCast_ab_1ab_apply _ _ u v j).trans ?_
    refine (shapeCast_a_1a_apply _ _ v j).trans ?_
    exact colsum_apply (mulf (k0_pay3 x0 x1 x2) (k0_pay3 x0 x1 x2)) _ _ _ j

/-- The zeros the first tile stores are the extended real 0. -/
theorem pay1_apply (y : S1x1x256.Idx) : (k0_pay1 (F := Ideal)) y = 0 := Ideal.ofBits_zero_f32
theorem pay2_apply (y : S1x1x256.Idx) : (k0_pay2 (F := Ideal)) y = 0 := Ideal.ofBits_zero_f32

end Payloads

/-! ## The input blocks as rows of the arrays

At grid point t (of 20: point 10·core + i is tile i of half `core`) the first window's block is rows
5000·t … 5000·t + 4999 of the aggregated features; the weights' and the bias's windows hold their whole arrays. -/

section Blocks

variable (V : (c : Dev nD) → (b : Ref sig .tc) → Buf (Elt Ideal) ((c : Thread nD τ).loc b)) (c : Dev nD)

/-- The three input blocks at a point: 5000×128 rows of features, the 128×256 weights, the 1×256 bias row. -/
abbrev blk0 (t : Fin cfg0.N) : Vec Ideal S5000x128 .bf16 := iblk0 V c 0 t
abbrev blk1 (t : Fin cfg0.N) : Vec Ideal S128x256 .f32 := iblk0 V c 1 t
abbrev blk2 (t : Fin cfg0.N) : Vec Ideal S1x256 .f32 := iblk0 V c 2 t

/-- The block indices of the three input windows at a point. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row r of the tile at point t is row 5000·t + r of the aggregated features. -/
theorem blk0_apply (t : Fin cfg0.N) (r : Fin 5000) (k : Fin 128) (h : 5000 * t.val + r.val < 100000) :
    blk0 V c t (ix2 r k) = (V c main_v17 : S100000x128.Idx → EReal) (ix2 ⟨5000 * t.val + r.val, h⟩ k) := by
  obtain ⟨e0, e1, -⟩ := idx_in t
  show V c main_v17 (((cfg0.win 0).blk t).view.emb (ix2 r k)) = _
  congr 1
  funext a
  apply Fin.ext
  match a with
  | ⟨0, _⟩ => show win0_0.index t (0 : Fin 2) * 5000 + 1 * r.val = 5000 * t.val + r.val; omega
  | ⟨1, _⟩ => show win0_0.index t (1 : Fin 2) * 128 + 1 * k.val = k.val; omega

/-- The weights' block is the weights. -/
theorem blk1_apply (t : Fin cfg0.N) (k : Fin 128) (j : Fin 256) :
    blk1 V c t (ix2 k j) = (V c main_arg1 : S128x256.Idx → EReal) (ix2 k j) := by
  obtain ⟨-, -, e0, e1, -⟩ := idx_in t
  show V c main_arg1 (((cfg0.win 1).blk t).view.emb (ix2 k j)) = _
  congr 1
  funext a
  apply Fin.ext
  match a with
  | ⟨0, _⟩ => show win0_1.index t (0 : Fin 2) * 128 + 1 * k.val = k.val; omega
  | ⟨1, _⟩ => show win0_1.index t (1 : Fin 2) * 256 + 1 * j.val = j.val; omega

/-- The bias's block is the bias row. -/
theorem blk2_apply (t : Fin cfg0.N) (j : Fin 256) :
    blk2 V c t (ix2 (0 : Fin 1) j) = (V c main_v18 : S1x256.Idx → EReal) (ix2 (0 : Fin 1) j) := by
  obtain ⟨-, -, -, -, e0, e1⟩ := idx_in t
  show V c main_v18 (((cfg0.win 2).blk t).view.emb (ix2 (0 : Fin 1) j)) = _
  congr 1
  funext a
  apply Fin.ext
  match a with
  | ⟨0, _⟩ => show win0_2.index t (0 : Fin 2) * 1 + 1 * 0 = 0; omega
  | ⟨1, _⟩ => show win0_2.index t (1 : Fin 2) * 256 + 1 * j.val = j.val; omega

/-- So z computed on the tile at point t, at its row r, is z of row 5000·t + r. -/
theorem z_tile (t : Fin cfg0.N) (r : Fin 5000) (j : Fin 256) (h : 5000 * t.val + r.val < 100000) :
    k0_pay3 (blk0 V c t) (blk1 V c t) (blk2 V c t) (ix2 r j) = zK V c ⟨5000 * t.val + r.val, h⟩ j := by
  refine (pay3_apply (blk0 V c t) (blk1 V c t) (blk2 V c t) r j).trans ?_
  unfold zK Cert.Spec.lin aggA wA bA f2 frow
  exact congrArg₂ (· + ·)
    (Finset.sum_congr rfl fun k _ => congrArg₂ (· * ·) (blk0_apply V c t r k h) (blk1_apply V c t k j))
    (blk2_apply V c t j)

end Blocks

/-! ## The running accumulators

Counting rows in natural numbers, tile n (of 20) is rows 5000·n … 5000·n + 4999. At a point that starts a half the
accumulators are the tile's column sums; at every other point they grow by the tile's column sums. So after point n
they hold the column sums over the tiles of n's half up to n. -/

section Accumulate

variable (V : (c : Dev nD) → (b : Ref sig .tc) → Buf (Elt Ideal) ((c : Thread nD τ).loc b)) (c : Dev nD)

/-- z at row n counted as a natural number (0 past the array, which is never read). -/
def zN (n : ℕ) (j : Fin 256) : EReal := if h : n < 100000 then zK V c ⟨n, h⟩ j else 0

theorem zN_of_lt (n : ℕ) (h : n < 100000) (j : Fin 256) : zN V c n j = zK V c ⟨n, h⟩ j := dif_pos h

/-- Tile n's column sums of z and of z². -/
def T3 (n : ℕ) (j : Fin 256) : EReal := ∑ r : Fin 5000, zN V c (5000 * n + r.val) j
def T4 (n : ℕ) (j : Fin 256) : EReal := ∑ r : Fin 5000, zN V c (5000 * n + r.val) j * zN V c (5000 * n + r.val) j

/-- The column sums the body takes on the tile at point t are tile t's column sums of z … -/
theorem tile3 (t : Fin cfg0.N) (j : Fin 256) :
    ∑ r : Fin 5000, k0_pay3 (blk0 V c t) (blk1 V c t) (blk2 V c t) (ix2 r j) = T3 V c t.val j := by
  have hN : t.val < 20 := lt_of_lt_of_eq t.isLt (show cfg0.N = 20 from N_0)
  refine Finset.sum_congr rfl fun r _ => ?_
  have h : 5000 * t.val + r.val < 100000 := by have := r.isLt; omega
  rw [zN_of_lt V c _ h]
  exact z_tile V c t r j h

/-- … and of z². -/
theorem tile4 (t : Fin cfg0.N) (j : Fin 256) :
    ∑ r : Fin 5000, k0_pay3 (blk0 V c t) (blk1 V c t) (blk2 V c t) (ix2 r j) * k0_pay3 (blk0 V c t) (blk1 V c t) (blk2 V c t) (ix2 r j)
      = T4 V c t.val j := by
  have hN : t.val < 20 := lt_of_lt_of_eq t.isLt (show cfg0.N = 20 from N_0)
  refine Finset.sum_congr rfl fun r _ => ?_
  have h : 5000 * t.val + r.val < 100000 := by have := r.isLt; omega
  rw [zN_of_lt V c _ h]
  exact congrArg₂ (· * ·) (z_tile V c t r j h) (z_tile V c t r j h)

/-- At a point that starts a half the accumulator is reset: it leaves the tile's column sums. -/
theorem step3_A (t : Fin cfg0.N) (h0 : t.val % 10 = 0) (u v : Fin 1) (j : Fin 256) :
    (outsAt0 V c t.val t.isLt).1 (ix3 u v j) = T3 V c t.val j := by
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (blk0 V c t) (blk1 V c t) (blk2 V c t)) (ix3 u v j)).trans ?_
  refine (pay4_apply (blk0 V c t) (blk1 V c t) (blk2 V c t) (k0_pay1 (F := Ideal)) u v j).trans ?_
  rw [pay1_apply, zero_add]
  exact tile3 V c t j

/-- At any other point it adds the tile's column sums to what the point before left. -/
theorem step3_B (t : Fin cfg0.N) (h0 : ¬t.val % 10 = 0) (u v : Fin 1) (j : Fin 256) :
    (outsAt0 V c t.val t.isLt).1 (ix3 u v j)
      = (outsAt0 V c (t.val - 1) (Nat.lt_of_le_of_lt (Nat.sub_le _ _) t.isLt)).1 (ix3 u v j) + T3 V c t.val j := by
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (blk0 V c t) (blk1 V c t) (blk2 V c t) (outsAt0 V c (t.val - 1) (Nat.lt_of_le_of_lt (Nat.sub_le _ _) t.isLt)).1
    (outsAt0 V c (t.val - 1) (Nat.lt_of_le_of_lt (Nat.sub_le _ _) t.isLt)).2) (ix3 u v j)).trans ?_
  refine (pay4_apply (blk0 V c t) (blk1 V c t) (blk2 V c t) (outsAt0 V c (t.val - 1) (Nat.lt_of_le_of_lt (Nat.sub_le _ _) t.isLt)).1 u v j).trans ?_
  rw [tile3 V c t j]

/-- After point n the accumulator holds the sums of the tiles of n's half up to n: points n − n mod 10, …, n. -/
theorem acc3_eq : ∀ (n : ℕ) (h : n < cfg0.N) (u v : Fin 1) (j : Fin 256),
    (outsAt0 V c n h).1 (ix3 u v j) = ∑ i ∈ Finset.range (n % 10 + 1), T3 V c (n - n % 10 + i) j := by
  intro n
  induction n with
  | zero =>
    intro h u v j
    refine (step3_A V c ⟨0, h⟩ rfl u v j).trans ?_
    show T3 V c 0 j = ∑ i ∈ Finset.range 1, T3 V c (0 + i) j
    rw [Finset.sum_range_one]
  | succ n ih =>
    intro h u v j
    by_cases h0 : (n + 1) % 10 = 0
    · refine (step3_A V c ⟨n + 1, h⟩ h0 u v j).trans ?_
      show T3 V c (n + 1) j = _
      rw [h0, Nat.zero_add, Finset.sum_range_one, Nat.sub_zero, Nat.add_zero]
    · refine (step3_B V c ⟨n + 1, h⟩ h0 u v j).trans ?_
      show (outsAt0 V c n (Nat.lt_of_succ_lt h)).1 (ix3 u v j) + T3 V c (n + 1) j = _
      rw [ih (Nat.lt_of_succ_lt h) u v j]
      have e1 : (n + 1) % 10 = n % 10 + 1 := by omega
      have e2 : n + 1 - (n % 10 + 1) = n - n % 10 := by omega
      have e3 : n - n % 10 + (n % 10 + 1) = n + 1 := by omega
      rw [e1, e2, Finset.sum_range_succ _ (n % 10 + 1), e3]

/-- At a point that starts a half the accumulator is reset: it leaves the tile's column sums. -/
theorem step4_A (t : Fin cfg0.N) (h0 : t.val % 10 = 0) (u v : Fin 1) (j : Fin 256) :
    (outsAt0 V c t.val t.isLt).2 (ix3 u v j) = T4 V c t.val j := by
  rw [outsAt0_A V c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
    (blk0 V c t) (blk1 V c t) (blk2 V c t)) (ix3 u v j)).trans ?_
  refine (pay5_apply (blk0 V c t) (blk1 V c t) (blk2 V c t) (k0_pay2 (F := Ideal)) u v j).trans ?_
  rw [pay2_apply, zero_add]
  exact tile4 V c t j

/-- At any other point it adds the tile's column sums to what the point before left. -/
theorem step4_B (t : Fin cfg0.N) (h0 : ¬t.val % 10 = 0) (u v : Fin 1) (j : Fin 256) :
    (outsAt0 V c t.val t.isLt).2 (ix3 u v j)
      = (outsAt0 V c (t.val - 1) (Nat.lt_of_le_of_lt (Nat.sub_le _ _) t.isLt)).2 (ix3 u v j) + T4 V c t.val j := by
  rw [outsAt0_B V c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (blk0 V c t) (blk1 V c t) (blk2 V c t) (outsAt0 V c (t.val - 1) (Nat.lt_of_le_of_lt (Nat.sub_le _ _) t.isLt)).1
    (outsAt0 V c (t.val - 1) (Nat.lt_of_le_of_lt (Nat.sub_le _ _) t.isLt)).2) (ix3 u v j)).trans ?_
  refine (pay5_apply (blk0 V c t) (blk1 V c t) (blk2 V c t) (outsAt0 V c (t.val - 1) (Nat.lt_of_le_of_lt (Nat.sub_le _ _) t.isLt)).2 u v j).trans ?_
  rw [tile4 V c t j]

/-- After point n the accumulator holds the sums of the tiles of n's half up to n: points n − n mod 10, …, n. -/
theorem acc4_eq : ∀ (n : ℕ) (h : n < cfg0.N) (u v : Fin 1) (j : Fin 256),
    (outsAt0 V c n h).2 (ix3 u v j) = ∑ i ∈ Finset.range (n % 10 + 1), T4 V c (n - n % 10 + i) j := by
  intro n
  induction n with
  | zero =>
    intro h u v j
    refine (step4_A V c ⟨0, h⟩ rfl u v j).trans ?_
    show T4 V c 0 j = ∑ i ∈ Finset.range 1, T4 V c (0 + i) j
    rw [Finset.sum_range_one]
  | succ n ih =>
    intro h u v j
    by_cases h0 : (n + 1) % 10 = 0
    · refine (step4_A V c ⟨n + 1, h⟩ h0 u v j).trans ?_
      show T4 V c (n + 1) j = _
      rw [h0, Nat.zero_add, Finset.sum_range_one, Nat.sub_zero, Nat.add_zero]
    · refine (step4_B V c ⟨n + 1, h⟩ h0 u v j).trans ?_
      show (outsAt0 V c n (Nat.lt_of_succ_lt h)).2 (ix3 u v j) + T4 V c (n + 1) j = _
      rw [ih (Nat.lt_of_succ_lt h) u v j]
      have e1 : (n + 1) % 10 = n % 10 + 1 := by omega
      have e2 : n + 1 - (n % 10 + 1) = n - n % 10 := by omega
      have e3 : n - n % 10 + (n % 10 + 1) = n + 1 := by omega
      rw [e1, e2, Finset.sum_range_succ _ (n % 10 + 1), e3]

end Accumulate

/-! ## From the accumulators to the result arrays

A half's ten tiles of 5000 rows are its 50000 rows, so after a half's last point the accumulators hold the column
sums over the half's rows. That point writes the block back to the half's place in the [2, 1, 256] result array, and
the two halves' blocks are the whole array. -/

section Result
variable (V : (c : Dev nD) → (b : Ref sig .tc) → Buf (Elt Ideal) ((c : Thread nD τ).loc b)) (c : Dev nD)

/-- Ten tiles of 5000 rows, summed tile by tile, are the half's 50000 rows. -/
theorem sum_half {M : Type*} [AddCommMonoid M] (g : ℕ → M) (q : ℕ) :
    ∑ i ∈ Finset.range 10, ∑ r : Fin 5000, g (5000 * (10 * q + i) + r.val) = ∑ n : Fin 50000, g (50000 * q + n.val) := by
  rw [Finset.sum_range]
  have h := Cert.LibTileSum.sum_tiles (a := 10) (b := 5000) (fun n : Fin (10 * 5000) => g (50000 * q + n.val))
  refine Eq.trans (Finset.sum_congr rfl fun i _ => Finset.sum_congr rfl fun r _ => ?_) h
  show g (5000 * (10 * q + i.val) + r.val) = g (50000 * q + (5000 * i.val + r.val))
  rw [show 5000 * (10 * q + i.val) + r.val = 50000 * q + (5000 * i.val + r.val) by omega]

/-- The ten tile sums of half q, joined: the column sums of z over the half's 50000 rows … -/
theorem half3 (q : Fin 2) (j : Fin 256) :
    ∑ i ∈ Finset.range 10, T3 V c (10 * q.val + i) j = ∑ n : Fin 50000, zK V c (rowOf q n) j := by
  have hq : q.val < 2 := q.isLt
  refine (sum_half (fun n => zN V c n j) q.val).trans ?_
  refine Finset.sum_congr rfl fun n _ => ?_
  have hn : 50000 * q.val + n.val < 100000 := by have := n.isLt; omega
  exact zN_of_lt V c _ hn j

/-- … and of z². -/
theorem half4 (q : Fin 2) (j : Fin 256) :
    ∑ i ∈ Finset.range 10, T4 V c (10 * q.val + i) j
      = ∑ n : Fin 50000, zK V c (rowOf q n) j * zK V c (rowOf q n) j := by
  have hq : q.val < 2 := q.isLt
  refine (sum_half (fun n => zN V c n j * zN V c n j) q.val).trans ?_
  refine Finset.sum_congr rfl fun n _ => ?_
  have hn : 50000 * q.val + n.val < 100000 := by have := n.isLt; omega
  show zN V c (50000 * q.val + n.val) j * zN V c (50000 * q.val + n.val) j = _
  rw [zN_of_lt V c _ hn j]
  rfl

/-- The block indices of the two result windows at a point: the half, and zero on the other axes. -/
theorem idx_out : ∀ t : Fin cfg0.N, win0_3.index t (0 : Fin 3) = t.val / 10 ∧ win0_3.index t (1 : Fin 3) = 0
    ∧ win0_3.index t (2 : Fin 3) = 0 ∧ win0_4.index t (0 : Fin 3) = t.val / 10 ∧ win0_4.index t (1 : Fin 3) = 0
    ∧ win0_4.index t (2 : Fin 3) = 0 :=
  (by decide +kernel : ∀ t : Fin grid0.N, _)

/-- An index of the result array lies in point t's block iff each coordinate lies in the block's range. -/
theorem mem_blk3 (t : Fin cfg0.N) (i : S2x1x256.Idx) :
    i ∈ ((cfg0.win 3).blk t).view.set ↔ ∀ a : Fin 3, win0_3.index t a * S1x1x256.size a ≤ (i a).val
      ∧ (i a).val < win0_3.index t a * S1x1x256.size a + S1x1x256.size a := by
  show i ∈ ((View.whole main_v19_0).slice (win0_3.rect t)).set ↔ _
  rw [View.set_slice_whole, Rect.mem_set_unit]
  exact Iff.rfl

/-- The whole-array function at the place of a block's entry: the block of point t is half t / 10. -/
theorem G0sum_emb (t : Fin cfg0.N) (u v : Fin 1) (j : Fin 256) (q : Fin 2) (hq : q.val = t.val / 10) :
    G0sum V c (((cfg0.win 3).blk t).view.emb (ix3 u v j)) = ∑ n : Fin 50000, zK V c (rowOf q n) j := by
  obtain ⟨e0, e1, e2, -⟩ := idx_out t
  have hu : u.val = 0 := by omega
  have hv : v.val = 0 := by omega
  have hi : ((cfg0.win 3).blk t).view.emb (ix3 u v j) = (ix3 q (0 : Fin 1) j : S2x1x256.Idx) := by
    funext a
    apply Fin.ext
    match a with
    | ⟨0, _⟩ => show win0_3.index t (0 : Fin 3) * 1 + 1 * u.val = q.val; omega
    | ⟨1, _⟩ => show win0_3.index t (1 : Fin 3) * 1 + 1 * v.val = 0; omega
    | ⟨2, _⟩ => show win0_3.index t (2 : Fin 3) * 256 + 1 * j.val = j.val; omega
  exact (congrArg (G0sum V c) hi).trans rfl

/-- What a point writes back is the block of any whole-array function its accumulator agrees with entry by entry. -/
theorem flushed3_of (G : S2x1x256.Idx → EReal) (t : Fin cfg0.N)
    (hG : ∀ (u v : Fin 1) (j : Fin 256),
      (outsAt0 V c t.val t.isLt).1 (ix3 u v j) = G (((cfg0.win 3).blk t).view.emb (ix3 u v j))) :
    (dat0 (F := Ideal) V c).flushed 3 t = ((cfg0.win 3).blk t).view.read (Elt Ideal) G := by
  show (cfg0.win 3).cut (grid0.coords t) ((dat0 V c).after 3 t) = _
  rw [after0_3]
  funext y
  obtain ⟨u, v, j, rfl⟩ : ∃ (u v : Fin 1) (j : Fin 256), (y : S1x1x256.Idx) = ix3 u v j := ⟨y 0, y 1, y 2, eq_ix3 y⟩
  exact hG u v j

/-- What a half's last point writes back is that half's block of the whole-array function. -/
theorem flushed3_eq (t : Fin cfg0.N) (hf : (cfg0.win 3).flush t = true) :
    (dat0 (F := Ideal) V c).flushed 3 t = ((cfg0.win 3).blk t).view.read (Elt Ideal) (G0sum V c) := by
  have h9 : t.val % 10 = 9 := (flush0_3 t).mp hf
  have hN : t.val < 20 := lt_of_lt_of_eq t.isLt (show cfg0.N = 20 from N_0)
  have hq : t.val / 10 < 2 := by omega
  have e10 : t.val % 10 + 1 = 10 := by omega
  refine flushed3_of V c (G0sum V c) t fun u v j => ?_
  rw [acc3_eq V c t.val t.isLt u v j, G0sum_emb V c t u v j ⟨t.val / 10, hq⟩ rfl, e10,
    show t.val - t.val % 10 = 10 * (⟨t.val / 10, hq⟩ : Fin 2).val from (by show t.val - t.val % 10 = 10 * (t.val / 10); omega)]
  exact half3 V c ⟨t.val / 10, hq⟩ j

/-- The two flushing points' blocks cover the result array: half q is written back at point 10·q + 9. -/
theorem cover3 (i : S2x1x256.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 256 := (i 2).isLt
  have hN : cfg0.N = 20 := N_0
  obtain ⟨t, ht⟩ : ∃ t : Fin cfg0.N, t.val = 10 * (i 0).val + 9 := ⟨⟨10 * (i 0).val + 9, by rw [hN]; omega⟩, rfl⟩
  obtain ⟨e0, e1, e2, -⟩ := idx_out t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 256 ≤ (i 2).val ∧ (i 2).val < win0_3.index t (2 : Fin 3) * 256 + 256; omega

/-- An index of the result array lies in point t's block iff each coordinate lies in the block's range. -/
theorem mem_blk4 (t : Fin cfg0.N) (i : S2x1x256.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_v19_1).slice (win0_4.rect t)).set ↔ _
  rw [View.set_slice_whole, Rect.mem_set_unit]
  exact Iff.rfl

/-- The whole-array function at the place of a block's entry: the block of point t is half t / 10. -/
theorem G0sq_emb (t : Fin cfg0.N) (u v : Fin 1) (j : Fin 256) (q : Fin 2) (hq : q.val = t.val / 10) :
    G0sq V c (((cfg0.win 4).blk t).view.emb (ix3 u v j)) = ∑ n : Fin 50000, zK V c (rowOf q n) j * zK V c (rowOf q n) j := by
  obtain ⟨-, -, -, e0, e1, e2⟩ := idx_out t
  have hu : u.val = 0 := by omega
  have hv : v.val = 0 := by omega
  have hi : ((cfg0.win 4).blk t).view.emb (ix3 u v j) = (ix3 q (0 : Fin 1) j : S2x1x256.Idx) := by
    funext a
    apply Fin.ext
    match a with
    | ⟨0, _⟩ => show win0_4.index t (0 : Fin 3) * 1 + 1 * u.val = q.val; omega
    | ⟨1, _⟩ => show win0_4.index t (1 : Fin 3) * 1 + 1 * v.val = 0; omega
    | ⟨2, _⟩ => show win0_4.index t (2 : Fin 3) * 256 + 1 * j.val = j.val; omega
  exact (congrArg (G0sq V c) hi).trans rfl

/-- What a point writes back is the block of any whole-array function its accumulator agrees with entry by entry. -/
theorem flushed4_of (G : S2x1x256.Idx → EReal) (t : Fin cfg0.N)
    (hG : ∀ (u v : Fin 1) (j : Fin 256),
      (outsAt0 V c t.val t.isLt).2 (ix3 u v j) = G (((cfg0.win 4).blk t).view.emb (ix3 u v j))) :
    (dat0 (F := Ideal) V c).flushed 4 t = ((cfg0.win 4).blk t).view.read (Elt Ideal) G := by
  show (cfg0.win 4).cut (grid0.coords t) ((dat0 V c).after 4 t) = _
  rw [after0_4]
  funext y
  obtain ⟨u, v, j, rfl⟩ : ∃ (u v : Fin 1) (j : Fin 256), (y : S1x1x256.Idx) = ix3 u v j := ⟨y 0, y 1, y 2, eq_ix3 y⟩
  exact hG u v j

/-- What a half's last point writes back is that half's block of the whole-array function. -/
theorem flushed4_eq (t : Fin cfg0.N) (hf : (cfg0.win 4).flush t = true) :
    (dat0 (F := Ideal) V c).flushed 4 t = ((cfg0.win 4).blk t).view.read (Elt Ideal) (G0sq V c) := by
  have h9 : t.val % 10 = 9 := (flush0_4 t).mp hf
  have hN : t.val < 20 := lt_of_lt_of_eq t.isLt (show cfg0.N = 20 from N_0)
  have hq : t.val / 10 < 2 := by omega
  have e10 : t.val % 10 + 1 = 10 := by omega
  refine flushed4_of V c (G0sq V c) t fun u v j => ?_
  rw [acc4_eq V c t.val t.isLt u v j, G0sq_emb V c t u v j ⟨t.val / 10, hq⟩ rfl, e10,
    show t.val - t.val % 10 = 10 * (⟨t.val / 10, hq⟩ : Fin 2).val from (by show t.val - t.val % 10 = 10 * (t.val / 10); omega)]
  exact half4 V c ⟨t.val / 10, hq⟩ j

/-- The two flushing points' blocks cover the result array: half q is written back at point 10·q + 9. -/
theorem cover4 (i : S2x1x256.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 256 := (i 2).isLt
  have hN : cfg0.N = 20 := N_0
  obtain ⟨t, ht⟩ : ∃ t : Fin cfg0.N, t.val = 10 * (i 0).val + 9 := ⟨⟨10 * (i 0).val + 9, by rw [hN]; omega⟩, rfl⟩
  obtain ⟨-, -, -, e0, e1, e2⟩ := idx_out t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 256 ≤ (i 2).val ∧ (i 2).val < win0_4.index t (2 : Fin 3) * 256 + 256; omega

end Result

variable (V : (c : Dev nD) → (b : Ref sig .tc) → Buf (Elt Ideal) ((c : Thread nD τ).loc b)) (c : Dev nD)

/-- Result array 3 (`main_v19_0`) after the launch: per half, the column sums of z. -/
theorem arr3_eq : (dat0 (F := Ideal) V c).arrAt 3 cfg0.N = G0sum V c :=
  (dat0 (F := Ideal) V c).arrAt_eq_of_cover 3 (G0sum V c) (flushed3_eq V c) cover3

/-- Result array 4 (`main_v19_1`) after the launch: per half, the column sums of z². -/
theorem arr4_eq : (dat0 (F := Ideal) V c).arrAt 4 cfg0.N = G0sq V c :=
  (dat0 (F := Ideal) V c).arrAt_eq_of_cover 4 (G0sq V c) (flushed4_eq V c) cover4

end Cert.KernelIdeal.R0

end
-- ==== Proof.Consts.lean ====
/-
  The three float literals the programs spell, as the extended reals they denote: +0.0 is 0, 100000.0 is the real
  100000 (the number of nodes), and the f32 nearest to 1e-5 is a positive real (its exact value is never needed).
-/
import Idealize.ShloMosaic.PureOps.Ideal

noncomputable section

namespace Cert.Consts

open Idealize.ShloMosaic

/-- +0.0 denotes 0. -/
theorem ofBits_zero : Ideal.ofBits .f32 0x00000000#32 = 0 := by
  simp [Ideal.ofBits, Ideal.ieee]

/-- 100000.0 denotes the real 100000. -/
theorem ofBits_n : Ideal.ofBits .f32 0x47C35000#32 = ((100000 : ℝ) : EReal) := by
  simp [Ideal.ofBits, Ideal.ieee, -EReal.coe_mul]; norm_num

/-- The f32 nearest to 1e-5 denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Consts

end
-- ==== Proof.KStage2.lean ====
/-
  The buffer contents at the second launch's entry (after the first launch and the second stretch of host
  operations), read: the linear layer's operands are unchanged, and the fused scale and shift rows are those of the
  first normalisation over Z — the two halves' column sums added are the column sums over all 100000 rows.
-/
import proofs.«429314_j22110491639897_3_alg».proof.Proof.Gen.KernelIdeal.Frame
import proofs.«429314_j22110491639897_3_alg».proof.Proof.KVals
import proofs.«429314_j22110491639897_3_alg».proof.Proof.KArgs
import proofs.«429314_j22110491639897_3_alg».proof.Proof.KStage1
import proofs.«429314_j22110491639897_3_alg».proof.Proof.Region0
import proofs.«429314_j22110491639897_3_alg».proof.Proof.LibTileSum
import proofs.«429314_j22110491639897_3_alg».proof.Proof.LibIdxSum
import proofs.«429314_j22110491639897_3_alg».proof.Proof.LibKeepdims
import proofs.«429314_j22110491639897_3_alg».proof.Proof.LibColumn
import proofs.«429314_j22110491639897_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KS2

open Cert.KernelIdeal Cert.KernelIdeal.Gen Cert.KernelIdeal.KVals Cert.KernelIdeal.KArgs Cert.Read

/-! ## The host operations between the two launches, read at a column

Generic in the two result arrays of the first launch and in the scale and shift vectors: the rows of means, of means of
squares, of clamped variances, of fused scales and of fused shifts, each as the host operations spell it, and what each
holds in column j when half k of the two arrays holds the column sums of Z and of Z² over that half's rows. -/

/-- The two halves' rows together are all the rows. -/
theorem sum_halves {M : Type*} [AddCommMonoid M] (f : Fin 100000 → M) :
    ∑ k : Fin 2, ∑ n : Fin 50000, f (rowOf k n) = ∑ r : Fin 100000, f r :=
  Cert.LibTileSum.sum_tiles (a := 2) (b := 50000) f

/-- A host sum over the two halves of an array [2, 1, 256] whose half k holds, in column j, the sum of f over that
    half's rows: the initial value plus the sum of f over all the rows. -/
theorem reduce_halves (x : S2x1x256.Idx → EReal) (h' : S2x1x256.ReducesTo [0] S1x256) (init : EReal) (j : Fin 256)
    (f : Fin 100000 → EReal) (hx : ∀ k : Fin 2, x (ix3 k (0 : Fin 1) j) = ∑ n : Fin 50000, f (rowOf k n)) :
    Ideal.hostReduceAdd h' x init (ix2 (0 : Fin 1) j) = init + ∑ r : Fin 100000, f r := by
  have h : S2x1x256.Reduces [0] S1x256 := by decide
  rw [Ideal.hostReduceAdd_single h' h x init]
  refine congrArg (init + ·) ?_
  rw [← sum_halves f]
  show ∑ k : Fin 2, x (h.lift (ix2 (0 : Fin 1) j) k) = _
  refine Finset.sum_congr rfl fun k _ => ?_
  rw [← hx k]
  refine congrArg x ?_
  funext a
  refine Fin.ext ?_
  match a with
  | ⟨0, _⟩ => rfl
  | ⟨1, _⟩ => rfl
  | ⟨2, _⟩ => rfl

section Reads

variable (x0 x1 : FVec Ideal S2x1x256 .f32) (gv bv' : FVec Ideal S256 .f32) (Zf : Fin 100000 → Fin 256 → EReal)
  (hr : S2x1x256.ReducesTo [0] S1x256) (hs : 0 < S_.numel) (hb : S_.BroadcastsInDim S1x256 (![] : Fin 0 → Fin S1x256.rank))
  (hc : S256.ShapeCasts S1x256)

/-- The row of column means: the two halves' sums added from 0, over the row count. -/
def meanRow : FVec Ideal S1x256 .f32 :=
  Host.divf (Host.reduceAdd x0 (constant (F := Ideal) S_ .f32 0x00000000#32) hr hs)
    (broadcastInDim S1x256 ![] hb (constant (F := Ideal) S_ .f32 0x47C35000#32))

/-- The row of column means of squares. -/
def sqRow : FVec Ideal S1x256 .f32 :=
  Host.divf (Host.reduceAdd x1 (constant (F := Ideal) S_ .f32 0x00000000#32) hr hs)
    (broadcastInDim S1x256 ![] hb (constant (F := Ideal) S_ .f32 0x47C35000#32))

/-- The row of variances: mean of squares minus squared mean, clamped at 0. -/
def varRow : FVec Ideal S1x256 .f32 :=
  maximumf (subf (sqRow x1 hr hs hb) (mulf (meanRow x0 hr hs hb) (meanRow x0 hr hs hb)))
    (broadcastInDim S1x256 ![] hb (constant (F := Ideal) S_ .f32 0x00000000#32))

/-- The row of fused scales γ · 1/√(variance + ε). -/
def scaleRow : FVec Ideal S1x256 .f32 :=
  mulf (fun i => shapeCast S1x256 gv hc i)
    (Host.rsqrt (addf (varRow x0 x1 hr hs hb) (broadcastInDim S1x256 ![] hb (constant (F := Ideal) S_ .f32 0x3727C5AC#32))))

/-- The row of fused shifts β − mean · scale. -/
def shiftRow : FVec Ideal S1x256 .f32 :=
  subf (fun i => shapeCast S1x256 bv' hc i) (mulf (meanRow x0 hr hs hb) (scaleRow x0 x1 gv hr hs hb hc))

variable (h0 : ∀ (k : Fin 2) (j : Fin 256), x0 (ix3 k (0 : Fin 1) j) = ∑ n : Fin 50000, Zf (rowOf k n) j)
  (h1 : ∀ (k : Fin 2) (j : Fin 256), x1 (ix3 k (0 : Fin 1) j) = ∑ n : Fin 50000, Zf (rowOf k n) j * Zf (rowOf k n) j)

include h0 in
theorem meanRow_apply (j : Fin 256) : meanRow x0 hr hs hb (ix2 (0 : Fin 1) j) = Cert.Spec.mean nn Zf j := by
  unfold meanRow Cert.Spec.mean
  rw [hostDivf_apply, hostReduceAdd_apply, broadcastInDim_scalar_apply, constant_apply, constant_apply,
    reduce_halves x0 hr _ j (fun r => Zf r j) (fun k => h0 k j), Cert.Consts.ofBits_zero, zero_add]

include h1 in
theorem sqRow_apply (j : Fin 256) :
    sqRow x1 hr hs hb (ix2 (0 : Fin 1) j) = Ideal.div (∑ r : Fin 100000, Zf r j * Zf r j) nn := by
  unfold sqRow
  rw [hostDivf_apply, hostReduceAdd_apply, broadcastInDim_scalar_apply, constant_apply, constant_apply,
    reduce_halves x1 hr _ j (fun r => Zf r j * Zf r j) (fun k => h1 k j), Cert.Consts.ofBits_zero, zero_add]

include h0 h1 in
theorem varRow_apply (j : Fin 256) : varRow x0 x1 hr hs hb (ix2 (0 : Fin 1) j) = Cert.Spec.varK nn Zf j := by
  unfold varRow Cert.Spec.varK
  rw [maximumf_apply, subf_apply, mulf_apply, sqRow_apply x1 Zf hr hs hb h1, meanRow_apply x0 Zf hr hs hb h0,
    broadcastInDim_scalar_apply, constant_apply, Cert.Consts.ofBits_zero]

include h0 h1 in
theorem scaleRow_apply (j : Fin 256) :
    scaleRow x0 x1 gv hr hs hb hc (ix2 (0 : Fin 1) j) = Cert.Spec.scaleK nn eps (f1 gv) Zf j := by
  unfold scaleRow Cert.Spec.scaleK f1
  rw [mulf_apply, shapeCast_a_1a_apply gv hc (0 : Fin 1) j]
  show gv (ix1 j) * Ideal.rsqrt ((addf (varRow x0 x1 hr hs hb) _) (ix2 (0 : Fin 1) j)) = _
  rw [addf_apply, varRow_apply x0 x1 Zf hr hs hb h0 h1, broadcastInDim_scalar_apply, constant_apply]

include h0 h1 in
theorem shiftRow_apply (j : Fin 256) :
    shiftRow x0 x1 gv bv' hr hs hb hc (ix2 (0 : Fin 1) j) = Cert.Spec.shiftK nn eps (f1 gv) (f1 bv') Zf j := by
  unfold shiftRow Cert.Spec.shiftK
  rw [subf_apply, mulf_apply, shapeCast_a_1a_apply bv' hc (0 : Fin 1) j, meanRow_apply x0 Zf hr hs hb h0,
    scaleRow_apply x0 x1 gv Zf hr hs hb hc h0 h1]
  rfl

end Reads

variable (m : (ℓ : Loc nD τ sig) → Buf (Elt Ideal) ℓ) (ρ : Dev nD → PrngReg) (c : Dev nD)

/-! ## The linear layer's operands: unchanged since the first launch's entry

The host operations between the launches write none of the three; the first launch reads each through an input window,
which it never writes back. -/

theorem W3_v17 : W3 m ρ c (Proc.devRef .tc main_v17) = W1 m ρ c (Proc.devRef .tc main_v17) :=
  calc W3 m ρ c (Proc.devRef .tc main_v17)
    _ = W2 m ρ c (Proc.devRef .tc main_v17) := StableHlo.after_of_forall_not_mem (b := Proc.devRef .tc main_v17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v17) := (W2_arr m ρ c 0).trans (((dat0 (V1 m ρ) c).arrAt_in 0 rfl _).trans (A_eq0 (V1 m ρ) c 0))

theorem W3_arg1 : W3 m ρ c (Proc.devRef .tc main_arg1) = W1 m ρ c (Proc.devRef .tc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))

theorem W3_v18 : W3 m ρ c (Proc.devRef .tc main_v18) = W1 m ρ c (Proc.devRef .tc main_v18) :=
  calc W3 m ρ c (Proc.devRef .tc main_v18)
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v18) := (W2_arr m ρ c 2).trans (((dat0 (V1 m ρ) c).arrAt_in 2 rfl _).trans (A_eq0 (V1 m ρ) c 2))

/-- The linear layer's output over the second launch's entry contents is still Z. -/
theorem zK_V3 : zK (V3 m ρ) c = Z m c := by
  rw [← KS1.zK_V1 m ρ c]
  unfold zK aggA wA bA
  rw [show (V3 m ρ c main_v17) = V1 m ρ c main_v17 from W3_v17 m ρ c,
      show (V3 m ρ c main_arg1) = V1 m ρ c main_arg1 from W3_arg1 m ρ c,
      show (V3 m ρ c main_v18) = V1 m ρ c main_v18 from W3_v18 m ρ c]

/-! ## What the host operations between the launches read

The first launch's two result arrays hold, per half, the column sums of Z and of Z²; the scale and shift vectors are the
arguments, which nothing has written. -/

/-- The first result array at the first launch's exit: per half, the column sums of Z. -/
theorem W2_sum (k : Fin 2) (j : Fin 256) :
    (W2 m ρ c (Proc.devRef .tc main_v19_0) : S2x1x256.Idx → EReal) (ix3 k (0 : Fin 1) j)
      = ∑ n : Fin 50000, Z m c (rowOf k n) j := by
  have e : (W2 m ρ c (Proc.devRef .tc main_v19_0) : S2x1x256.Idx → EReal) = G0sum (V1 m ρ) c :=
    (W2_arr m ρ c 3).trans (R0.arr3_eq (V1 m ρ) c)
  rw [e, ← KS1.zK_V1 m ρ c]
  rfl

/-- The second result array at the first launch's exit: per half, the column sums of Z². -/
theorem W2_sq (k : Fin 2) (j : Fin 256) :
    (W2 m ρ c (Proc.devRef .tc main_v19_1) : S2x1x256.Idx → EReal) (ix3 k (0 : Fin 1) j)
      = ∑ n : Fin 50000, Z m c (rowOf k n) j * Z m c (rowOf k n) j := by
  have e : (W2 m ρ c (Proc.devRef .tc main_v19_1) : S2x1x256.Idx → EReal) = G0sq (V1 m ρ) c :=
    (W2_arr m ρ c 4).trans (R0.arr4_eq (V1 m ρ) c)
  rw [e, ← KS1.zK_V1 m ρ c]
  rfl

/-- The scale vector at the first launch's exit is the argument. -/
theorem W2_arg3 : (W2 m ρ c (Proc.devRef .tc main_arg3) : S256.Idx → EReal)
    = (m ((c : Thread nD τ).loc main_arg3) : S256.Idx → EReal) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The shift vector at the first launch's exit is the argument. -/
theorem W2_arg4 : (W2 m ρ c (Proc.devRef .tc main_arg4) : S256.Idx → EReal)
    = (m ((c : Thread nD τ).loc main_arg4) : S256.Idx → EReal) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

set_option maxHeartbeats 2000000 in
/-- The fused scale row at the second launch's entry. -/
theorem sc1_V3 : sc1 (V3 m ρ) c = Cert.Spec.scaleK nn eps (g1 m c) (Z m c) := by
  funext j
  unfold sc1 frow
  dsimp only [V3, W3]
  after_results_simp
  refine (scaleRow_apply (W2 m ρ c (Proc.devRef .tc main_v19_0)) (W2 m ρ c (Proc.devRef .tc main_v19_1))
    (W2 m ρ c (Proc.devRef .tc main_arg3)) (Z m c) reducesTo_S2x1x256_S1x256_d0 h_S_ bcast_S_S1x256 shapeCasts_S256_S1x256
    (W2_sum m ρ c) (W2_sq m ρ c) j).trans ?_
  exact congrArg (fun g : S256.Idx → EReal => Cert.Spec.scaleK nn eps (f1 g) (Z m c) j) (W2_arg3 m ρ c)

set_option maxHeartbeats 2000000 in
/-- The fused shift row at the second launch's entry. -/
theorem sh1_V3 : sh1 (V3 m ρ) c = Cert.Spec.shiftK nn eps (g1 m c) (b1 m c) (Z m c) := by
  funext j
  unfold sh1 frow
  dsimp only [V3, W3]
  after_results_simp
  refine (shiftRow_apply (W2 m ρ c (Proc.devRef .tc main_v19_0)) (W2 m ρ c (Proc.devRef .tc main_v19_1))
    (W2 m ρ c (Proc.devRef .tc main_arg3)) (W2 m ρ c (Proc.devRef .tc main_arg4)) (Z m c)
    reducesTo_S2x1x256_S1x256_d0 h_S_ bcast_S_S1x256 shapeCasts_S256_S1x256
    (W2_sum m ρ c) (W2_sq m ρ c) j).trans ?_
  refine (congrArg (fun g : S256.Idx → EReal => Cert.Spec.shiftK nn eps (f1 g)
    (f1 (W2 m ρ c (Proc.devRef .tc main_arg4) : S256.Idx → EReal)) (Z m c) j) (W2_arg3 m ρ c)).trans ?_
  exact congrArg (fun g : S256.Idx → EReal => Cert.Spec.shiftK nn eps (g1 m c) (f1 g) (Z m c) j) (W2_arg4 m ρ c)

/-- So the first normalised layer over the second launch's entry contents is H1. -/
theorem hK_V3 : hK (V3 m ρ) c = H1 m c := by
  funext r j
  unfold hK H1 Cert.Spec.bnK
  rw [zK_V3, sc1_V3, sh1_V3]

end Cert.KernelIdeal.KS2

end
-- ==== Proof.Region1.lean ====
/-
  Launch 1 (the second statistics pass), read as values: as launch 0, with h = max(z · scale₁ + shift₁, 0) in place
  of z: the two result arrays [2, 1, 256] hold, per core, the column sums of h and of h² over that core's 50000 rows.
-/
import proofs.«429314_j22110491639897_3_alg».proof.Proof.Gen.KernelIdeal.Frame
import proofs.«429314_j22110491639897_3_alg».proof.Proof.KVals
import proofs.«429314_j22110491639897_3_alg».proof.Proof.LibTileSum
import proofs.«429314_j22110491639897_3_alg».proof.Proof.LibPlainMatmul
import proofs.«429314_j22110491639897_3_alg».proof.Proof.LibIdxSum
import proofs.«429314_j22110491639897_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.R1

open Cert.KernelIdeal Cert.KernelIdeal.Gen Cert.KernelIdeal.KVals Cert.Read

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later point leaves in the sum accumulator its old contents plus the tile's column sums of h. -/
theorem out_B_5 (c : Dev nD) (i : grid1.Coords) (arg2 : Memref sig .tc .vmem S5000x128 .bf16) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1x256 .f32) (harg7 : arg7.IsWhole) (arg8 : Memref sig .tc .vmem S1x1x256 .f32) (harg8 : arg8.IsWhole) (hc0 : ¬cond1_0 i) (x0 : Vec F S5000x128 .bf16) (x1 : Vec F S128x256 .f32) (x2 : Vec F S1x256 .f32) (x3 : Vec F S1x256 .f32) (x4 : Vec F S1x256 .f32) (xo5 xo6 : Vec F S1x1x256 .f32) :
    out1_B_5 c i arg2 harg2 arg3 harg3 arg4 harg4 arg5 harg5 arg6 harg6 arg7 harg7 arg8 harg8 hc0 x0 x1 x2 x3 x4 xo5 xo6 = k1_pay6 x0 x1 x2 x3 x4 xo5 := by
  unfold out1_B_5
  rw [View.read_writes_eq_canon _ _ _ (cover1_B_5 c i arg2 harg2 arg3 harg3 arg4 harg4 arg5 harg5 arg6 harg6 arg7 harg7 arg8 harg8 hc0 x0 x1 x2 x3 x4 xo5 xo6)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S5000x128) hz2, View.ld_unit_zero (S := S128x256) hz2, View.ld_unit_zero (S := S1x256) hz2, View.ld_unit_zero (S := S1x1x256) hz3]

/-- A later point leaves in the sum-of-squares accumulator its old contents plus the tile's column sums of h². -/
theorem out_B_6 (c : Dev nD) (i : grid1.Coords) (arg2 : Memref sig .tc .vmem S5000x128 .bf16) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1x256 .f32) (harg7 : arg7.IsWhole) (arg8 : Memref sig .tc .vmem S1x1x256 .f32) (harg8 : arg8.IsWhole) (hc0 : ¬cond1_0 i) (x0 : Vec F S5000x128 .bf16) (x1 : Vec F S128x256 .f32) (x2 : Vec F S1x256 .f32) (x3 : Vec F S1x256 .f32) (x4 : Vec F S1x256 .f32) (xo5 xo6 : Vec F S1x1x256 .f32) :
    out1_B_6 c i arg2 harg2 arg3 harg3 arg4 harg4 arg5 harg5 arg6 harg6 arg7 harg7 arg8 harg8 hc0 x0 x1 x2 x3 x4 xo5 xo6 = k1_pay1 (k1_pay5 x0 x1 x2 x3 x4) xo6 := by
  unfold out1_B_6
  rw [View.read_writes_eq_canon _ _ _ (cover1_B_6 c i arg2 harg2 arg3 harg3 arg4 harg4 arg5 harg5 arg6 harg6 arg7 harg7 arg8 harg8 hc0 x0 x1 x2 x3 x4 xo5 xo6)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S5000x128) hz2, View.ld_unit_zero (S := S128x256) hz2, View.ld_unit_zero (S := S1x256) hz2, View.ld_unit_zero (S := S1x1x256) hz3]

/-- A core's first point resets the sum accumulator to zero and adds the tile's column sums of h. -/
theorem out_A_5 (c : Dev nD) (i : grid1.Coords) (arg2 : Memref sig .tc .vmem S5000x128 .bf16) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1x256 .f32) (harg7 : arg7.IsWhole) (arg8 : Memref sig .tc .vmem S1x1x256 .f32) (harg8 : arg8.IsWhole) (hc0 : cond1_0 i) (x0 : Vec F S5000x128 .bf16) (x1 : Vec F S128x256 .f32) (x2 : Vec F S1x256 .f32) (x3 : Vec F S1x256 .f32) (x4 : Vec F S1x256 .f32) :
    out1_A_5 c i arg2 harg2 arg3 harg3 arg4 harg4 arg5 harg5 arg6 harg6 arg7 harg7 arg8 harg8 hc0 x0 x1 x2 x3 x4 = k1_pay6 x0 x1 x2 x3 x4 (k1_pay2 (F := F)) := by
  unfold out1_A_5
  rw [View.read_writes_eq_canon _ _ _ (cover1_A_5 c i arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, View.ld_unit_zero (S := S5000x128) hz2, View.ld_unit_zero (S := S128x256) hz2, View.ld_unit_zero (S := S1x256) hz2, View.ld_unit_zero (S := S1x1x256) hz3, View.readCov_unit_zero (S := S1x1x256) _ hz3]

/-- A core's first point resets the sum-of-squares accumulator to zero and adds the tile's column sums of h². -/
theorem out_A_6 (c : Dev nD) (i : grid1.Coords) (arg2 : Memref sig .tc .vmem S5000x128 .bf16) (harg2 : arg2.IsWhole) (arg3 : Memref sig .tc .vmem S128x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x1x256 .f32) (harg7 : arg7.IsWhole) (arg8 : Memref sig .tc .vmem S1x1x256 .f32) (harg8 : arg8.IsWhole) (hc0 : cond1_0 i) (x0 : Vec F S5000x128 .bf16) (x1 : Vec F S128x256 .f32) (x2 : Vec F S1x256 .f32) (x3 : Vec F S1x256 .f32) (x4 : Vec F S1x256 .f32) :
    out1_A_6 c i arg2 harg2 arg3 harg3 arg4 harg4 arg5 harg5 arg6 harg6 arg7 harg7 arg8 harg8 hc0 x0 x1 x2 x3 x4 = k1_pay1 (k1_pay5 x0 x1 x2 x3 x4) (k1_pay3 (F := F)) := by
  unfold out1_A_6
  rw [View.read_writes_eq_canon _ _ _ (cover1_A_6 c i arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg6.read_unread, View.ld_unit_zero (S := S5000x128) hz2, View.ld_unit_zero (S := S128x256) hz2, View.ld_unit_zero (S := S1x256) hz2, View.ld_unit_zero (S := S1x1x256) hz3, View.readCov_unit_zero (S := S1x1x256) _ hz3]

end Pieces

section Payloads

/-- Entry (r, q) of h on one tile: the tile's row r times column q of the weights, plus the bias, scaled, shifted,
    clamped below at zero. -/
def hval (x0 : FVec Ideal S5000x128 .bf16) (x1 : FVec Ideal S128x256 .f32) (x2 x3 x4 : FVec Ideal S1x256 .f32)
    (r : Fin 5000) (q : Fin 256) : EReal :=
  max (((∑ k : Fin 128, x0 (ix2 r k) * x1 (ix2 k q)) + x2 (ix2 (0 : Fin 1) q)) * x3 (ix2 (0 : Fin 1) q)
    + x4 (ix2 (0 : Fin 1) q)) 0

/-- The body's h at (r, q): the matrix product into the zero accumulator is the row-by-column sum, the three rows
    are spread over the tile's rows, the zero word is 0. -/
theorem pay4_apply (x0 : FVec Ideal S5000x128 .bf16) (x1 : FVec Ideal S128x256 .f32) (x2 x3 x4 : FVec Ideal S1x256 .f32)
    (r : Fin 5000) (q : Fin 256) : k1_pay4 (F := Ideal) x0 x1 x2 x3 x4 (ix2 r q) = hval x0 x1 x2 x3 x4 r q := by
  have e1 : matmul dot_S5000x128_S128x256_S5000x256_1_0_0_1_n_n none x0 (truncf (F := Ideal) .bf16 x1 bitsLt_bf16_f32)
      (constant (F := Ideal) S5000x256 .f32 0x00000000#32) (ix2 r q) = ∑ k : Fin 128, x0 (ix2 r k) * x1 (ix2 k q) :=
    Cert.LibPlainMatmul.matmul_zero_apply 5000 128 256 none x0 (truncf (F := Ideal) .bf16 x1 bitsLt_bf16_f32) r q
  have e2 : ∀ x : FVec Ideal S1x256 .f32, broadcastTo S5000x256 x broadcasts_S1x256_S5000x256 (ix2 r q) = x (ix2 (0 : Fin 1) q) :=
    fun x => broadcastTo_1b_ab_apply x broadcasts_S1x256_S5000x256 r q
  unfold k1_pay4 hval
  simp only [shapeCast_self]
  show max ((matmul dot_S5000x128_S128x256_S5000x256_1_0_0_1_n_n none x0 (truncf (F := Ideal) .bf16 x1 bitsLt_bf16_f32)
      (constant (F := Ideal) S5000x256 .f32 0x00000000#32) (ix2 r q) + broadcastTo S5000x256 x2 broadcasts_S1x256_S5000x256 (ix2 r q))
      * broadcastTo S5000x256 x3 broadcasts_S1x256_S5000x256 (ix2 r q) + broadcastTo S5000x256 x4 broadcasts_S1x256_S5000x256 (ix2 r q))
      (Ideal.ofBits .f32 0x00000000#32) = _
  rw [e1, e2, e2, e2, Ideal.ofBits_zero_f32]

/-- The index a sum over the rows inserts at row r above column q is (r, q). -/
theorem lift_eq (h : S5000x256.Reduces [0] S256) (q : Fin 256) (r : Fin 5000) : h.lift (ix1 q) r = ix2 r q := by
  funext a
  apply Fin.ext
  match a with
  | ⟨0, _⟩ => rfl
  | ⟨1, _⟩ => rfl

/-- A sum over the rows of a tile, read at column q. -/
theorem colsum_apply (src : FVec Ideal S5000x256 .f32) (q : Fin 256) :
    multiReduction .add [0] S256 src 0x00000000#32 reduces_S5000x256_S256 (.inl rfl) rfl (ix1 q)
      = ∑ r : Fin 5000, src (ix2 r q) := by
  refine (Ideal.multiReduction_add_single src 0x00000000#32 reduces_S5000x256_S256 (.inl rfl) rfl (ix1 q)).trans ?_
  exact Finset.sum_congr rfl fun r _ => congrArg src (lift_eq _ q r)

/-- The new sum accumulator at column q: the old one plus the tile's column sum of h. -/
theorem pay6_apply (x0 : FVec Ideal S5000x128 .bf16) (x1 : FVec Ideal S128x256 .f32) (x2 x3 x4 : FVec Ideal S1x256 .f32)
    (v : FVec Ideal S1x1x256 .f32) (a b : Fin 1) (q : Fin 256) :
    k1_pay6 (F := Ideal) x0 x1 x2 x3 x4 v (ix3 a b q) = v (ix3 a b q) + ∑ r : Fin 5000, hval x0 x1 x2 x3 x4 r q := by
  unfold k1_pay6
  simp only [shapeCast_self]
  refine (addf_apply _ _ _).trans ?_
  refine congrArg (v (ix3 a b q) + ·) ?_
  refine (shapeCast_ab_1ab_apply _ shapeCasts_S1x256_S1x1x256 a b q).trans ?_
  refine (shapeCast_a_1a_apply _ shapeCasts_S256_S1x256 b q).trans ?_
  refine (colsum_apply _ q).trans ?_
  exact Finset.sum_congr rfl fun r _ => pay4_apply x0 x1 x2 x3 x4 r q

/-- The new sum-of-squares accumulator at column q: the old one plus the tile's column sum of h². -/
theorem pay1_apply (x0 : FVec Ideal S5000x128 .bf16) (x1 : FVec Ideal S128x256 .f32) (x2 x3 x4 : FVec Ideal S1x256 .f32)
    (v : FVec Ideal S1x1x256 .f32) (a b : Fin 1) (q : Fin 256) :
    k1_pay1 (F := Ideal) (k1_pay5 (F := Ideal) x0 x1 x2 x3 x4) v (ix3 a b q)
      = v (ix3 a b q) + ∑ r : Fin 5000, hval x0 x1 x2 x3 x4 r q * hval x0 x1 x2 x3 x4 r q := by
  unfold k1_pay1 k1_pay5
  simp only [shapeCast_self]
  refine (addf_apply _ _ _).trans ?_
  refine congrArg (v (ix3 a b q) + ·) ?_
  refine (shapeCast_ab_1ab_apply _ shapeCasts_S1x256_S1x1x256 a b q).trans ?_
  refine (shapeCast_a_1a_apply _ shapeCasts_S256_S1x256 b q).trans ?_
  refine (colsum_apply _ q).trans ?_
  refine Finset.sum_congr rfl fun r _ => ?_
  refine (mulf_apply _ _ _).trans ?_
  exact congrArg₂ (· * ·) (pay4_apply x0 x1 x2 x3 x4 r q) (pay4_apply x0 x1 x2 x3 x4 r q)

/-- The zero the reset stores, at any position. -/
theorem pay2_apply (y : S1x1x256.Idx) : k1_pay2 (F := Ideal) y = 0 := Ideal.ofBits_zero_f32
theorem pay3_apply (y : S1x1x256.Idx) : k1_pay3 (F := Ideal) y = 0 := Ideal.ofBits_zero_f32

end Payloads

section Blocks

variable (V : (c : Dev nD) → (b : Ref sig .tc) → Buf (Elt Ideal) ((c : Thread nD τ).loc b)) (c : Dev nD)

/-- The five input blocks at a point, at their literal types: the tile of 5000 rows of the aggregated features, and
    the weights, the bias, the scale and the shift (each whole at every point). -/
abbrev blk0 (t : Fin cfg1.N) : FVec Ideal S5000x128 .bf16 := iblk1 V c 0 t
abbrev blk1 (t : Fin cfg1.N) : FVec Ideal S128x256 .f32 := iblk1 V c 1 t
abbrev blk2 (t : Fin cfg1.N) : FVec Ideal S1x256 .f32 := iblk1 V c 2 t
abbrev blk3 (t : Fin cfg1.N) : FVec Ideal S1x256 .f32 := iblk1 V c 3 t
abbrev blk4 (t : Fin cfg1.N) : FVec Ideal S1x256 .f32 := iblk1 V c 4 t

/-- The block numbers at each point: the tile number is the point's number, the other inputs never move, and the
    result block is the core's. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 10 ∧ win1_5.index t (1 : Fin 3) = 0 ∧ win1_5.index t (2 : Fin 3) = 0
    ∧ win1_6.index t (0 : Fin 3) = t.val / 10 ∧ win1_6.index t (1 : Fin 3) = 0 ∧ win1_6.index t (2 : Fin 3) = 0 :=
  (by decide +kernel : ∀ t : Fin grid1.N, _)

/-- Row r of tile t is row 5000·t + r of the aggregated features. -/
theorem blk0_apply (t : Fin cfg1.N) (r : Fin 5000) (k : Fin 128) (R : Fin 100000) (hR : R.val = 5000 * t.val + r.val) :
    blk0 V c t (ix2 r k) = aggA V c R k := by
  show V c main_v17 (((cfg1.win 0).blk t).view.emb (ix2 r k)) = V c main_v17 (ix2 R k)
  refine congrArg (V c main_v17) ?_
  funext a
  apply Fin.ext
  match a with
  | ⟨0, _⟩ =>
    show win1_0.index t (0 : Fin 2) * 5000 + 1 * r.val = R.val
    rw [(idx_facts t).1, hR]; omega
  | ⟨1, _⟩ =>
    show win1_0.index t (1 : Fin 2) * 128 + 1 * k.val = k.val
    rw [(idx_facts t).2.1]; omega

theorem blk1_apply (t : Fin cfg1.N) (k : Fin 128) (q : Fin 256) : blk1 V c t (ix2 k q) = wA V c k q := by
  show V c main_arg1 (((cfg1.win 1).blk t).view.emb (ix2 k q)) = V c main_arg1 (ix2 k q)
  refine congrArg (V c main_arg1) ?_
  funext a
  apply Fin.ext
  match a with
  | ⟨0, _⟩ =>
    show win1_1.index t (0 : Fin 2) * 128 + 1 * k.val = k.val
    rw [(idx_facts t).2.2.1]; omega
  | ⟨1, _⟩ =>
    show win1_1.index t (1 : Fin 2) * 256 + 1 * q.val = q.val
    rw [(idx_facts t).2.2.2.1]; omega

theorem blk2_apply (t : Fin cfg1.N) (q : Fin 256) : blk2 V c t (ix2 (0 : Fin 1) q) = bA V c q := by
  show V c main_v18 (((cfg1.win 2).blk t).view.emb (ix2 (0 : Fin 1) q)) = V c main_v18 (ix2 (0 : Fin 1) q)
  refine congrArg (V c main_v18) ?_
  funext a
  apply Fin.ext
  match a with
  | ⟨0, _⟩ =>
    show win1_2.index t (0 : Fin 2) * 1 + 1 * 0 = 0
    rw [(idx_facts t).2.2.2.2.1]
  | ⟨1, _⟩ =>
    show win1_2.index t (1 : Fin 2) * 256 + 1 * q.val = q.val
    rw [(idx_facts t).2.2.2.2.2.1]; omega

theorem blk3_apply (t : Fin cfg1.N) (q : Fin 256) : blk3 V c t (ix2 (0 : Fin 1) q) = sc1 V c q := by
  show V c main_v35 (((cfg1.win 3).blk t).view.emb (ix2 (0 : Fin 1) q)) = V c main_v35 (ix2 (0 : Fin 1) q)
  refine congrArg (V c main_v35) ?_
  funext a
  apply Fin.ext
  match a with
  | ⟨0, _⟩ =>
    show win1_3.index t (0 : Fin 2) * 1 + 1 * 0 = 0
    rw [(idx_facts t).2.2.2.2.2.2.1]
  | ⟨1, _⟩ =>
    show win1_3.index t (1 : Fin 2) * 256 + 1 * q.val = q.val
    rw [(idx_facts t).2.2.2.2.2.2.2.1]; omega

theorem blk4_apply (t : Fin cfg1.N) (q : Fin 256) : blk4 V c t (ix2 (0 : Fin 1) q) = sh1 V c q := by
  show V c main_v37 (((cfg1.win 4).blk t).view.emb (ix2 (0 : Fin 1) q)) = V c main_v37 (ix2 (0 : Fin 1) q)
  refine congrArg (V c main_v37) ?_
  funext a
  apply Fin.ext
  match a with
  | ⟨0, _⟩ =>
    show win1_4.index t (0 : Fin 2) * 1 + 1 * 0 = 0
    rw [(idx_facts t).2.2.2.2.2.2.2.2.1]
  | ⟨1, _⟩ =>
    show win1_4.index t (1 : Fin 2) * 256 + 1 * q.val = q.val
    rw [(idx_facts t).2.2.2.2.2.2.2.2.2.1]; omega

/-- h on tile t at (r, q) is h of the whole arrays at row 5000·t + r. -/
theorem hval_blk (t : Fin cfg1.N) (r : Fin 5000) (q : Fin 256) (R : Fin 100000) (hR : R.val = 5000 * t.val + r.val) :
    hval (blk0 V c t) (blk1 V c t) (blk2 V c t) (blk3 V c t) (blk4 V c t) r q = hK V c R q := by
  have es : ∑ k : Fin 128, blk0 V c t (ix2 r k) * blk1 V c t (ix2 k q) = ∑ k : Fin 128, aggA V c R k * wA V c k q :=
    Finset.sum_congr rfl fun k _ => by rw [blk0_apply V c t r k R hR, blk1_apply V c t k q]
  unfold hval hK zK Cert.Spec.lin
  rw [es, blk2_apply V c t q, blk3_apply V c t q, blk4_apply V c t q]

end Blocks

section Accumulate

variable (V : (c : Dev nD) → (b : Ref sig .tc) → Buf (Elt Ideal) ((c : Thread nD τ).loc b)) (c : Dev nD)

/-- h at a row named by a natural number (0 past the last row, where it is never read). -/
def hrow (n : ℕ) (q : Fin 256) : EReal := if h : n < 100000 then hK V c ⟨n, h⟩ q else 0

/-- Tile t's column sums of h and of h², tile t being rows 5000·t … 5000·t + 4999. -/
def tile5 (t : ℕ) (q : Fin 256) : EReal := ∑ r : Fin 5000, hrow V c (5000 * t + r.val) q
def tile6 (t : ℕ) (q : Fin 256) : EReal :=
  ∑ r : Fin 5000, hrow V c (5000 * t + r.val) q * hrow V c (5000 * t + r.val) q

/-- What the two accumulators hold after point n, at column q. -/
abbrev acc5 (n : ℕ) (h : n < cfg1.N) (a b : Fin 1) (q : Fin 256) : EReal := (outsAt1 V c n h).1 (ix3 a b q)
abbrev acc6 (n : ℕ) (h : n < cfg1.N) (a b : Fin 1) (q : Fin 256) : EReal := (outsAt1 V c n h).2 (ix3 a b q)

theorem hval_row (t : Fin cfg1.N) (r : Fin 5000) (q : Fin 256) :
    hval (blk0 V c t) (blk1 V c t) (blk2 V c t) (blk3 V c t) (blk4 V c t) r q = hrow V c (5000 * t.val + r.val) q := by
  have hN : t.val < 20 := lt_of_lt_of_eq t.isLt (show cfg1.N = 20 from N_1)
  have hlt : 5000 * t.val + r.val < 100000 := by have := r.isLt; omega
  unfold hrow
  rw [dif_pos hlt]
  exact hval_blk V c t r q ⟨_, hlt⟩ rfl

/-- At a core's first point the accumulators hold that point's tile sums. -/
theorem step_A (t : Fin cfg1.N) (h0 : t.val % 10 = 0) (a b : Fin 1) (q : Fin 256) :
    acc5 V c t.val t.isLt a b q = tile5 V c t.val q ∧ acc6 V c t.val t.isLt a b q = tile6 V c t.val q := by
  unfold acc5 acc6
  rw [outsAt1_A V c t h0]
  dsimp only
  constructor
  · refine (congrFun (out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (blk0 V c t) (blk1 V c t) (blk2 V c t) (blk3 V c t) (blk4 V c t)) (ix3 a b q)).trans ?_
    refine (pay6_apply (blk0 V c t) (blk1 V c t) (blk2 V c t) (blk3 V c t) (blk4 V c t) (k1_pay2 (F := Ideal)) a b q).trans ?_
    rw [pay2_apply, zero_add]
    exact Finset.sum_congr rfl fun r _ => hval_row V c t r q
  · refine (congrFun (out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (blk0 V c t) (blk1 V c t) (blk2 V c t) (blk3 V c t) (blk4 V c t)) (ix3 a b q)).trans ?_
    refine (pay1_apply (blk0 V c t) (blk1 V c t) (blk2 V c t) (blk3 V c t) (blk4 V c t) (k1_pay3 (F := Ideal)) a b q).trans ?_
    rw [pay3_apply, zero_add]
    exact Finset.sum_congr rfl fun r _ => by rw [hval_row V c t r q]

/-- At every other point they hold what the point before left plus that point's tile sums. -/
theorem step_B (t : Fin cfg1.N) (h0 : ¬t.val % 10 = 0) (a b : Fin 1) (q : Fin 256) :
    acc5 V c t.val t.isLt a b q = acc5 V c (t.val - 1) (Nat.lt_of_le_of_lt (Nat.sub_le _ _) t.isLt) a b q + tile5 V c t.val q
    ∧ acc6 V c t.val t.isLt a b q = acc6 V c (t.val - 1) (Nat.lt_of_le_of_lt (Nat.sub_le _ _) t.isLt) a b q + tile6 V c t.val q := by
  unfold acc5 acc6
  rw [outsAt1_B V c t h0]
  dsimp only
  constructor
  · refine (congrFun (out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (blk0 V c t) (blk1 V c t) (blk2 V c t) (blk3 V c t) (blk4 V c t)
      (outsAt1 V c (t.val - 1) (Nat.lt_of_le_of_lt (Nat.sub_le _ _) t.isLt)).1 (outsAt1 V c (t.val - 1) (Nat.lt_of_le_of_lt (Nat.sub_le _ _) t.isLt)).2) (ix3 a b q)).trans ?_
    refine (pay6_apply (blk0 V c t) (blk1 V c t) (blk2 V c t) (blk3 V c t) (blk4 V c t) (outsAt1 V c (t.val - 1) (Nat.lt_of_le_of_lt (Nat.sub_le _ _) t.isLt)).1 a b q).trans ?_
    refine congrArg (((outsAt1 V c (t.val - 1) (Nat.lt_of_le_of_lt (Nat.sub_le _ _) t.isLt)).1 (ix3 a b q) : EReal) + ·) ?_
    exact Finset.sum_congr rfl fun r _ => hval_row V c t r q
  · refine (congrFun (out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (blk0 V c t) (blk1 V c t) (blk2 V c t) (blk3 V c t) (blk4 V c t)
      (outsAt1 V c (t.val - 1) (Nat.lt_of_le_of_lt (Nat.sub_le _ _) t.isLt)).1 (outsAt1 V c (t.val - 1) (Nat.lt_of_le_of_lt (Nat.sub_le _ _) t.isLt)).2) (ix3 a b q)).trans ?_
    refine (pay1_apply (blk0 V c t) (blk1 V c t) (blk2 V c t) (blk3 V c t) (blk4 V c t) (outsAt1 V c (t.val - 1) (Nat.lt_of_le_of_lt (Nat.sub_le _ _) t.isLt)).2 a b q).trans ?_
    refine congrArg (((outsAt1 V c (t.val - 1) (Nat.lt_of_le_of_lt (Nat.sub_le _ _) t.isLt)).2 (ix3 a b q) : EReal) + ·) ?_
    exact Finset.sum_congr rfl fun r _ => by rw [hval_row V c t r q]

/-- Two facts on sums over the points of one core up to point n (n % 10 + 1 of them, from n - n % 10 on). -/
theorem closed_A (n : ℕ) (h0 : n % 10 = 0) (f : ℕ → EReal) :
    ∑ s ∈ Finset.range (n % 10 + 1), f (n - n % 10 + s) = f n := by
  rw [h0]
  simp

theorem closed_B (n : ℕ) (h0 : ¬(n + 1) % 10 = 0) (f : ℕ → EReal) :
    ∑ s ∈ Finset.range ((n + 1) % 10 + 1), f (n + 1 - (n + 1) % 10 + s)
      = (∑ s ∈ Finset.range (n % 10 + 1), f (n - n % 10 + s)) + f (n + 1) := by
  have e1 : (n + 1) % 10 = n % 10 + 1 := by omega
  have e2 : n + 1 - (n % 10 + 1) = n - n % 10 := by omega
  have e3 : n - n % 10 + (n % 10 + 1) = n + 1 := by omega
  rw [e1, e2, Finset.sum_range_succ, e3]

/-- After point n the accumulators hold the tile sums of the core's points up to n. -/
theorem acc_closed (a b : Fin 1) (q : Fin 256) : ∀ (n : ℕ) (h : n < cfg1.N),
    acc5 V c n h a b q = ∑ s ∈ Finset.range (n % 10 + 1), tile5 V c (n - n % 10 + s) q
    ∧ acc6 V c n h a b q = ∑ s ∈ Finset.range (n % 10 + 1), tile6 V c (n - n % 10 + s) q
  | 0, h => by
    obtain ⟨h5, h6⟩ := step_A V c ⟨0, h⟩ rfl a b q
    exact ⟨h5.trans (closed_A 0 rfl (fun s => tile5 V c s q)).symm, h6.trans (closed_A 0 rfl (fun s => tile6 V c s q)).symm⟩
  | n + 1, h => by
    by_cases h0 : (n + 1) % 10 = 0
    · obtain ⟨h5, h6⟩ := step_A V c ⟨n + 1, h⟩ h0 a b q
      exact ⟨h5.trans (closed_A (n + 1) h0 (fun s => tile5 V c s q)).symm,
        h6.trans (closed_A (n + 1) h0 (fun s => tile6 V c s q)).symm⟩
    · obtain ⟨h5, h6⟩ := step_B V c ⟨n + 1, h⟩ h0 a b q
      obtain ⟨i5, i6⟩ := acc_closed a b q n (Nat.lt_of_succ_lt h)
      have h5' : acc5 V c (n + 1) h a b q = acc5 V c n (Nat.lt_of_succ_lt h) a b q + tile5 V c (n + 1) q := h5
      have h6' : acc6 V c (n + 1) h a b q = acc6 V c n (Nat.lt_of_succ_lt h) a b q + tile6 V c (n + 1) q := h6
      refine ⟨?_, ?_⟩
      · rw [closed_B n h0 (fun s => tile5 V c s q), ← i5]; exact h5'
      · rw [closed_B n h0 (fun s => tile6 V c s q), ← i6]; exact h6'

/-- The ten tiles of a core, each summed over its 5000 rows, are the core's 50000 rows summed once. -/
theorem core_sum (f : ℕ → EReal) (k : ℕ) :
    ∑ s ∈ Finset.range 10, ∑ r : Fin 5000, f (5000 * (10 * k + s) + r.val) = ∑ n : Fin 50000, f (50000 * k + n.val) := by
  rw [Finset.sum_range]
  refine Eq.trans (Finset.sum_congr rfl fun i _ => Finset.sum_congr rfl fun r _ => ?_)
    (Cert.LibTileSum.sum_tiles (a := 10) (b := 5000) (fun n : Fin (10 * 5000) => f (50000 * k + n.val)))
  refine congrArg f ?_
  rw [Cert.LibTileSum.pos_val]
  omega

end Accumulate

section Flush

variable (V : (c : Dev nD) → (b : Ref sig .tc) → Buf (Elt Ideal) ((c : Thread nD τ).loc b)) (c : Dev nD)

/-- At a core's last point the accumulators hold, at each column, the sums of h and of h² over the core's 50000
    rows: the ten tile sums joined, and row 5000·(10·core + s) + r of the array is row 5000·s + r of the core. -/
theorem flush_point (t : Fin cfg1.N) (h9 : t.val % 10 = 9) (y : S1x1x256.Idx) (i : S2x1x256.Idx)
    (hi0 : (i 0).val = t.val / 10) (hi2 : (i 2).val = (y 2).val) :
    (outsAt1 V c t.val t.isLt).1 y = G1sum V c i ∧ (outsAt1 V c t.val t.isLt).2 y = G1sq V c i := by
  have hN : t.val < 20 := lt_of_lt_of_eq t.isLt (show cfg1.N = 20 from N_1)
  have hi0' : (i 0).val < 2 := (i 0).isLt
  obtain ⟨a, b, q, rfl⟩ : ∃ (a b : Fin 1) (q : Fin 256), y = ix3 a b q := ⟨y 0, y 1, y 2, eq_ix3 y⟩
  obtain ⟨h5, h6⟩ := acc_closed V c a b q t.val t.isLt
  have hq : i 2 = q := Fin.ext hi2
  have e : t.val - 9 = 10 * (i 0).val := by omega
  have hrow_eq : ∀ n : Fin 50000, hrow V c (50000 * (i 0).val + n.val) q = hK V c (rowOf (i 0) n) (i 2) := fun n => by
    have hlt : 50000 * (i 0).val + n.val < 100000 := by have := n.isLt; omega
    unfold hrow
    rw [dif_pos hlt, hq]
    rfl
  constructor
  · refine h5.trans ?_
    rw [h9, e]
    show ∑ s ∈ Finset.range 10, ∑ r : Fin 5000, hrow V c (5000 * (10 * (i 0).val + s) + r.val) q
      = ∑ n : Fin 50000, hK V c (rowOf (i 0) n) (i 2)
    refine (core_sum (fun m => hrow V c m q) (i 0).val).trans ?_
    exact Finset.sum_congr rfl fun n _ => hrow_eq n
  · refine h6.trans ?_
    rw [h9, e]
    show ∑ s ∈ Finset.range 10, ∑ r : Fin 5000, hrow V c (5000 * (10 * (i 0).val + s) + r.val) q
        * hrow V c (5000 * (10 * (i 0).val + s) + r.val) q
      = ∑ n : Fin 50000, hK V c (rowOf (i 0) n) (i 2) * hK V c (rowOf (i 0) n) (i 2)
    refine (core_sum (fun m => hrow V c m q * hrow V c m q) (i 0).val).trans ?_
    exact Finset.sum_congr rfl fun n _ => by rw [hrow_eq n]

/-- The position in the result array of position y of the block a point writes back: the core's block, same column. -/
theorem emb5_facts (t : Fin cfg1.N) (y : S1x1x256.Idx) :
    ((((cfg1.win 5).blk t).view.emb y : S2x1x256.Idx) 0).val = t.val / 10
    ∧ ((((cfg1.win 5).blk t).view.emb y : S2x1x256.Idx) 2).val = (y 2).val := by
  have h0 : (y 0).val < 1 := (y 0).isLt
  obtain ⟨-, -, -, -, -, -, -, -, -, -, e0, -, e2, -, -, -⟩ := idx_facts t
  constructor
  · show win1_5.index t (0 : Fin 3) * 1 + 1 * (y 0).val = t.val / 10
    rw [e0]; omega
  · show win1_5.index t (2 : Fin 3) * 256 + 1 * (y 2).val = (y 2).val
    rw [e2]; omega

theorem emb6_facts (t : Fin cfg1.N) (y : S1x1x256.Idx) :
    ((((cfg1.win 6).blk t).view.emb y : S2x1x256.Idx) 0).val = t.val / 10
    ∧ ((((cfg1.win 6).blk t).view.emb y : S2x1x256.Idx) 2).val = (y 2).val := by
  have h0 : (y 0).val < 1 := (y 0).isLt
  obtain ⟨-, -, -, -, -, -, -, -, -, -, -, -, -, e0, -, e2⟩ := idx_facts t
  constructor
  · show win1_6.index t (0 : Fin 3) * 1 + 1 * (y 0).val = t.val / 10
    rw [e0]; omega
  · show win1_6.index t (2 : Fin 3) * 256 + 1 * (y 2).val = (y 2).val
    rw [e2]; omega

/-- A block of a result array read position by position: what the write-back moves is the whole staging buffer. -/
theorem blk5_read (t : Fin cfg1.N) (X : Vec Ideal S1x1x256 .f32) (G : S2x1x256.Idx → EReal)
    (h : ∀ y : S1x1x256.Idx, X y = G (((cfg1.win 5).blk t).view.emb y)) :
    (cfg1.win 5).cut (grid1.coords t) X = ((cfg1.win 5).blk t).view.read (Elt Ideal) G :=
  funext fun y => h y

theorem blk6_read (t : Fin cfg1.N) (X : Vec Ideal S1x1x256 .f32) (G : S2x1x256.Idx → EReal)
    (h : ∀ y : S1x1x256.Idx, X y = G (((cfg1.win 6).blk t).view.emb y)) :
    (cfg1.win 6).cut (grid1.coords t) X = ((cfg1.win 6).blk t).view.read (Elt Ideal) G :=
  funext fun y => h y

/-- What a core's last point writes back is the core's block of the column sums of h … -/
theorem flushed5_eq (t : Fin cfg1.N) (hf : (cfg1.win 5).flush t = true) :
    (dat1 (F := Ideal) V c).flushed 5 t = ((cfg1.win 5).blk t).view.read (Elt Ideal) (G1sum V c) := by
  have h9 : t.val % 10 = 9 := (flush1_5 t).mp hf
  show (cfg1.win 5).cut (grid1.coords t) ((dat1 (F := Ideal) V c).after 5 t) = _
  rw [after1_5]
  exact blk5_read t _ _ fun y => (flush_point V c t h9 y _ (emb5_facts t y).1 (emb5_facts t y).2).1

/-- … and of h². -/
theorem flushed6_eq (t : Fin cfg1.N) (hf : (cfg1.win 6).flush t = true) :
    (dat1 (F := Ideal) V c).flushed 6 t = ((cfg1.win 6).blk t).view.read (Elt Ideal) (G1sq V c) := by
  have h9 : t.val % 10 = 9 := (flush1_6 t).mp hf
  show (cfg1.win 6).cut (grid1.coords t) ((dat1 (F := Ideal) V c).after 6 t) = _
  rw [after1_6]
  exact blk6_read t _ _ fun y => (flush_point V c t h9 y _ (emb6_facts t y).1 (emb6_facts t y).2).2

/-- A position of a result array lies in a point's block when each coordinate lies in the block's range. -/
theorem mem_blk5 (t : Fin cfg1.N) (i : S2x1x256.Idx) :
    i ∈ ((cfg1.win 5).blk t).view.set ↔ ∀ a : Fin 3, win1_5.index t a * S1x1x256.size a ≤ (i a).val
      ∧ (i a).val < win1_5.index t a * S1x1x256.size a + S1x1x256.size a := by
  show i ∈ ((View.whole main_v38_0).slice (win1_5.rect t)).set ↔ _
  rw [View.set_slice_whole, Rect.mem_set_unit]
  exact Iff.rfl

theorem mem_blk6 (t : Fin cfg1.N) (i : S2x1x256.Idx) :
    i ∈ ((cfg1.win 6).blk t).view.set ↔ ∀ a : Fin 3, win1_6.index t a * S1x1x256.size a ≤ (i a).val
      ∧ (i a).val < win1_6.index t a * S1x1x256.size a + S1x1x256.size a := by
  show i ∈ ((View.whole main_v38_1).slice (win1_6.rect t)).set ↔ _
  rw [View.set_slice_whole, Rect.mem_set_unit]
  exact Iff.rfl

/-- The last point of core k. -/
def lastPt (k : ℕ) (hk : k < 2) : Fin cfg1.N := ⟨10 * k + 9, by rw [show cfg1.N = 20 from N_1]; omega⟩

/-- Every position of a result array is in the block the last point of its core writes back. -/
theorem cover5 (i : S2x1x256.Idx) :
    ∃ t : Fin cfg1.N, (cfg1.win 5).flush t = true ∧ i ∈ ((cfg1.win 5).blk t).view.set := by
  have hi0 : (i 0).val < 2 := (i 0).isLt
  have hi1 : (i 1).val < 1 := (i 1).isLt
  have hi2 : (i 2).val < 256 := (i 2).isLt
  refine ⟨lastPt (i 0).val hi0, (flush1_5 _).mpr (by show (10 * (i 0).val + 9) % 10 = 9; omega), ?_⟩
  rw [mem_blk5]
  obtain ⟨-, -, -, -, -, -, -, -, -, -, e0, e1, e2, -, -, -⟩ := idx_facts (lastPt (i 0).val hi0)
  have e0' : win1_5.index (lastPt (i 0).val hi0) (0 : Fin 3) = (10 * (i 0).val + 9) / 10 := e0
  intro a
  match a with
  | ⟨0, _⟩ =>
    show win1_5.index (lastPt (i 0).val hi0) (0 : Fin 3) * 1 ≤ (i 0).val
      ∧ (i 0).val < win1_5.index (lastPt (i 0).val hi0) (0 : Fin 3) * 1 + 1
    rw [e0']; omega
  | ⟨1, _⟩ =>
    show win1_5.index (lastPt (i 0).val hi0) (1 : Fin 3) * 1 ≤ (i 1).val
      ∧ (i 1).val < win1_5.index (lastPt (i 0).val hi0) (1 : Fin 3) * 1 + 1
    rw [e1]; omega
  | ⟨2, _⟩ =>
    show win1_5.index (lastPt (i 0).val hi0) (2 : Fin 3) * 256 ≤ (i 2).val
      ∧ (i 2).val < win1_5.index (lastPt (i 0).val hi0) (2 : Fin 3) * 256 + 256
    rw [e2]; omega

theorem cover6 (i : S2x1x256.Idx) :
    ∃ t : Fin cfg1.N, (cfg1.win 6).flush t = true ∧ i ∈ ((cfg1.win 6).blk t).view.set := by
  have hi0 : (i 0).val < 2 := (i 0).isLt
  have hi1 : (i 1).val < 1 := (i 1).isLt
  have hi2 : (i 2).val < 256 := (i 2).isLt
  refine ⟨lastPt (i 0).val hi0, (flush1_6 _).mpr (by show (10 * (i 0).val + 9) % 10 = 9; omega), ?_⟩
  rw [mem_blk6]
  obtain ⟨-, -, -, -, -, -, -, -, -, -, -, -, -, e0, e1, e2⟩ := idx_facts (lastPt (i 0).val hi0)
  have e0' : win1_6.index (lastPt (i 0).val hi0) (0 : Fin 3) = (10 * (i 0).val + 9) / 10 := e0
  intro a
  match a with
  | ⟨0, _⟩ =>
    show win1_6.index (lastPt (i 0).val hi0) (0 : Fin 3) * 1 ≤ (i 0).val
      ∧ (i 0).val < win1_6.index (lastPt (i 0).val hi0) (0 : Fin 3) * 1 + 1
    rw [e0']; omega
  | ⟨1, _⟩ =>
    show win1_6.index (lastPt (i 0).val hi0) (1 : Fin 3) * 1 ≤ (i 1).val
      ∧ (i 1).val < win1_6.index (lastPt (i 0).val hi0) (1 : Fin 3) * 1 + 1
    rw [e1]; omega
  | ⟨2, _⟩ =>
    show win1_6.index (lastPt (i 0).val hi0) (2 : Fin 3) * 256 ≤ (i 2).val
      ∧ (i 2).val < win1_6.index (lastPt (i 0).val hi0) (2 : Fin 3) * 256 + 256
    rw [e2]; omega

end Flush

variable (V : (c : Dev nD) → (b : Ref sig .tc) → Buf (Elt Ideal) ((c : Thread nD τ).loc b)) (c : Dev nD)

/-- Result array 5 (`main_v38_0`) after the launch: per half, the column sums of h. -/
theorem arr5_eq : (dat1 (F := Ideal) V c).arrAt 5 cfg1.N = G1sum V c :=
  (dat1 (F := Ideal) V c).arrAt_eq_of_cover 5 (G1sum V c) (flushed5_eq V c) cover5

/-- Result array 6 (`main_v38_1`) after the launch: per half, the column sums of h². -/
theorem arr6_eq : (dat1 (F := Ideal) V c).arrAt 6 cfg1.N = G1sq V c :=
  (dat1 (F := Ideal) V c).arrAt_eq_of_cover 6 (G1sq V c) (flushed6_eq V c) cover6

end Cert.KernelIdeal.R1

end
-- ==== Proof.KStage3.lean ====
/-
  The buffer contents at the third launch's entry (after the second launch and the third stretch of host
  operations), read: the first layer's operands are unchanged, the second fused scale and shift rows are those of the
  second normalisation over H1, the features are the argument and the graph numbers the argument as a column.
-/
import proofs.«429314_j22110491639897_3_alg».proof.Proof.Gen.KernelIdeal.Frame
import proofs.«429314_j22110491639897_3_alg».proof.Proof.KVals
import proofs.«429314_j22110491639897_3_alg».proof.Proof.KArgs
import proofs.«429314_j22110491639897_3_alg».proof.Proof.KStage2
import proofs.«429314_j22110491639897_3_alg».proof.Proof.Region1
import proofs.«429314_j22110491639897_3_alg».proof.Proof.LibTileSum
import proofs.«429314_j22110491639897_3_alg».proof.Proof.LibIdxSum
import proofs.«429314_j22110491639897_3_alg».proof.Proof.LibKeepdims
import proofs.«429314_j22110491639897_3_alg».proof.Proof.LibColumn
import proofs.«429314_j22110491639897_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import Idealize.ShloMosaic.Lib.IdealHost

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KS3

open Cert.KernelIdeal Cert.KernelIdeal.Gen Cert.KernelIdeal.KVals Cert.KernelIdeal.KArgs Cert.Read

variable (m : (ℓ : Loc nD τ sig) → Buf (Elt Ideal) ℓ) (ρ : Dev nD → PrngReg) (c : Dev nD)

/-! ## The first layer's operands: the third stretch of host operations writes none of them, and the second launch
    only reads them (each is the array of one of its input windows), so they are what they were at its entry -/

/-- The aggregated features at the third launch's entry are those at the second's. -/
theorem V5_v17 : V5 m ρ c main_v17 = V3 m ρ c main_v17 :=
  calc W5 m ρ c (Proc.devRef .tc main_v17)
    _ = W4 m ρ c (Proc.devRef .tc main_v17) := StableHlo.after_of_forall_not_mem (b := Proc.devRef .tc main_v17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v17) := (W4_arr m ρ c 0).trans (((dat1 (V3 m ρ) c).arrAt_in 0 rfl _).trans (A_eq1 (V3 m ρ) c 0))

/-- The weights likewise. -/
theorem V5_arg1 : V5 m ρ c main_arg1 = V3 m ρ c main_arg1 :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := (W4_arr m ρ c 1).trans (((dat1 (V3 m ρ) c).arrAt_in 1 rfl _).trans (A_eq1 (V3 m ρ) c 1))

/-- The bias row likewise. -/
theorem V5_v18 : V5 m ρ c main_v18 = V3 m ρ c main_v18 :=
  calc W5 m ρ c (Proc.devRef .tc main_v18)
    _ = W4 m ρ c (Proc.devRef .tc main_v18) := StableHlo.after_of_forall_not_mem (b := Proc.devRef .tc main_v18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v18) := (W4_arr m ρ c 2).trans (((dat1 (V3 m ρ) c).arrAt_in 2 rfl _).trans (A_eq1 (V3 m ρ) c 2))

/-- The first fused scale row likewise. -/
theorem V5_v35 : V5 m ρ c main_v35 = V3 m ρ c main_v35 :=
  calc W5 m ρ c (Proc.devRef .tc main_v35)
    _ = W4 m ρ c (Proc.devRef .tc main_v35) := StableHlo.after_of_forall_not_mem (b := Proc.devRef .tc main_v35) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v35) := (W4_arr m ρ c 3).trans (((dat1 (V3 m ρ) c).arrAt_in 3 rfl _).trans (A_eq1 (V3 m ρ) c 3))

/-- The first fused shift row likewise. -/
theorem V5_v37 : V5 m ρ c main_v37 = V3 m ρ c main_v37 :=
  calc W5 m ρ c (Proc.devRef .tc main_v37)
    _ = W4 m ρ c (Proc.devRef .tc main_v37) := StableHlo.after_of_forall_not_mem (b := Proc.devRef .tc main_v37) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v37) := (W4_arr m ρ c 4).trans (((dat1 (V3 m ρ) c).arrAt_in 4 rfl _).trans (A_eq1 (V3 m ρ) c 4))

/-- The first normalised layer over the third launch's entry contents is still H1. -/
theorem hK_V5 : hK (V5 m ρ) c = H1 m c := by
  rw [← KS2.hK_V3 m ρ c]
  unfold hK zK aggA wA bA sc1 sh1
  rw [V5_v17, V5_arg1, V5_v18, V5_v35, V5_v37]

/-! ## The second launch's two result arrays, summed over the two halves by the host -/

/-- A [2, 1, 256] array of per-half column sums, reduced over the halves from +0.0, holds the column sums over all
    the rows: 0 + (half 0 + half 1), and the two halves of 50000 rows tile the 100000. -/
theorem colsum_all (f : Fin 100000 → Fin 256 → EReal) (j : Fin 256) :
    Host.reduceAdd (F := Ideal) (φ := .f32) (fun i : S2x1x256.Idx => ∑ n : Fin 50000, f (rowOf (i 0) n) (i 2))
        (constant (F := Ideal) S_ .f32 0x00000000#32) reducesTo_S2x1x256_S1x256_d0 h_S_ (ix2 (0 : Fin 1) j)
      = ∑ r : Fin 100000, f r j := by
  rw [hostReduceAdd_apply, Ideal.hostReduceAdd_single reducesTo_S2x1x256_S1x256_d0 (by decide)]
  show Ideal.ofBits .f32 0x00000000#32 + ∑ k : Fin 2, ∑ n : Fin 50000, f (rowOf k n) j = _
  rw [Cert.Consts.ofBits_zero, zero_add]
  exact Cert.LibTileSum.sum_tiles (a := 2) (b := 50000) (fun r => f r j)

/-- The second launch leaves, per half, the column sums of H1 … -/
theorem W4_v38_0 : (W4 m ρ c (Proc.devRef .tc main_v38_0) : S2x1x256.Idx → EReal)
    = fun i : S2x1x256.Idx => ∑ n : Fin 50000, H1 m c (rowOf (i 0) n) (i 2) := by
  rw [show W4 m ρ c (Proc.devRef .tc main_v38_0) = _ from W4_arr m ρ c 5, R1.arr5_eq (V3 m ρ) c]
  unfold G1sum
  rw [KS2.hK_V3]

/-- … and of its squares. -/
theorem W4_v38_1 : (W4 m ρ c (Proc.devRef .tc main_v38_1) : S2x1x256.Idx → EReal)
    = fun i : S2x1x256.Idx => ∑ n : Fin 50000, H1 m c (rowOf (i 0) n) (i 2) * H1 m c (rowOf (i 0) n) (i 2) := by
  rw [show W4 m ρ c (Proc.devRef .tc main_v38_1) = _ from W4_arr m ρ c 6, R1.arr6_eq (V3 m ρ) c]
  unfold G1sq
  rw [KS2.hK_V3]

/-- The second normalisation's scale vector is the argument: nothing before the third stretch writes it. -/
theorem W4_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- Its shift vector likewise. -/
theorem W4_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

set_option maxHeartbeats 2000000 in
/-- The second fused scale row at the third launch's entry. -/
theorem sc2_V5 : sc2 (V5 m ρ) c = Cert.Spec.scaleK nn eps (g2 m c) (H1 m c) := by
  funext j
  unfold sc2 frow
  show StableHlo.after hostOps2 _ (Proc.devRef .tc main_v54) _ = _
  after_results_simp
  show (shapeCast S1x256 (W4 m ρ c (Proc.devRef .tc main_arg5) : S256.Idx → EReal) shapeCasts_S256_S1x256 : S1x256.Idx → EReal) (ix2 (0 : Fin 1) j)
      * Ideal.rsqrt (max
          (Ideal.div (Host.reduceAdd (F := Ideal) (φ := .f32) (W4 m ρ c (Proc.devRef .tc main_v38_1) : S2x1x256.Idx → EReal)
              (constant (F := Ideal) S_ .f32 0x00000000#32) reducesTo_S2x1x256_S1x256_d0 h_S_ (ix2 (0 : Fin 1) j)) nn
            - Ideal.div (Host.reduceAdd (F := Ideal) (φ := .f32) (W4 m ρ c (Proc.devRef .tc main_v38_0) : S2x1x256.Idx → EReal)
                (constant (F := Ideal) S_ .f32 0x00000000#32) reducesTo_S2x1x256_S1x256_d0 h_S_ (ix2 (0 : Fin 1) j)) nn
              * Ideal.div (Host.reduceAdd (F := Ideal) (φ := .f32) (W4 m ρ c (Proc.devRef .tc main_v38_0) : S2x1x256.Idx → EReal)
                (constant (F := Ideal) S_ .f32 0x00000000#32) reducesTo_S2x1x256_S1x256_d0 h_S_ (ix2 (0 : Fin 1) j)) nn)
          (Ideal.ofBits .f32 0x00000000#32) + eps) = _
  rw [W4_v38_0, W4_v38_1, colsum_all (H1 m c) j, colsum_all (fun r j => H1 m c r j * H1 m c r j) j, W4_arg5, shapeCast_a_1a_apply, Cert.Consts.ofBits_zero]
  rfl

set_option maxHeartbeats 2000000 in
/-- The second fused shift row at the third launch's entry. -/
theorem sh2_V5 : sh2 (V5 m ρ) c = Cert.Spec.shiftK nn eps (g2 m c) (b2 m c) (H1 m c) := by
  funext j
  unfold sh2 frow
  show StableHlo.after hostOps2 _ (Proc.devRef .tc main_v56) _ = _
  after_results_simp
  show (shapeCast S1x256 (W4 m ρ c (Proc.devRef .tc main_arg6) : S256.Idx → EReal) shapeCasts_S256_S1x256 : S1x256.Idx → EReal) (ix2 (0 : Fin 1) j)
      - Ideal.div (Host.reduceAdd (F := Ideal) (φ := .f32) (W4 m ρ c (Proc.devRef .tc main_v38_0) : S2x1x256.Idx → EReal)
                (constant (F := Ideal) S_ .f32 0x00000000#32) reducesTo_S2x1x256_S1x256_d0 h_S_ (ix2 (0 : Fin 1) j)) nn
        * ((shapeCast S1x256 (W4 m ρ c (Proc.devRef .tc main_arg5) : S256.Idx → EReal) shapeCasts_S256_S1x256 : S1x256.Idx → EReal) (ix2 (0 : Fin 1) j)
          * Ideal.rsqrt (max
              (Ideal.div (Host.reduceAdd (F := Ideal) (φ := .f32) (W4 m ρ c (Proc.devRef .tc main_v38_1) : S2x1x256.Idx → EReal)
                (constant (F := Ideal) S_ .f32 0x00000000#32) reducesTo_S2x1x256_S1x256_d0 h_S_ (ix2 (0 : Fin 1) j)) nn
                - Ideal.div (Host.reduceAdd (F := Ideal) (φ := .f32) (W4 m ρ c (Proc.devRef .tc main_v38_0) : S2x1x256.Idx → EReal)
                (constant (F := Ideal) S_ .f32 0x00000000#32) reducesTo_S2x1x256_S1x256_d0 h_S_ (ix2 (0 : Fin 1) j)) nn
                  * Ideal.div (Host.reduceAdd (F := Ideal) (φ := .f32) (W4 m ρ c (Proc.devRef .tc main_v38_0) : S2x1x256.Idx → EReal)
                (constant (F := Ideal) S_ .f32 0x00000000#32) reducesTo_S2x1x256_S1x256_d0 h_S_ (ix2 (0 : Fin 1) j)) nn)
              (Ideal.ofBits .f32 0x00000000#32) + eps)) = _
  rw [W4_v38_0, W4_v38_1, colsum_all (H1 m c) j, colsum_all (fun r j => H1 m c r j * H1 m c r j) j, W4_arg5, W4_arg6,
    shapeCast_a_1a_apply, shapeCast_a_1a_apply, Cert.Consts.ofBits_zero]
  rfl

/-- So the second normalised layer over the third launch's entry contents is H2. -/
theorem h2K_V5 : h2K (V5 m ρ) c = H2 m c := by
  funext r j
  unfold h2K H2 Cert.Spec.bnK
  rw [hK_V5, sc2_V5, sh2_V5]

/-! ## The features and the graph numbers -/

/-- The features' buffer at the third launch's entry is the argument: no host operation writes it and neither of the
    first two launches has it among its arrays. -/
theorem W5_arg0 : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The input features at the third launch's entry are the argument. -/
theorem xA_V5 : xA (V5 m ρ) c = X m c := by
  unfold xA X
  rw [show V5 m ρ c main_arg0 = m ((c : Thread nD τ).loc main_arg0) from W5_arg0 m ρ c]

/-- The graph numbers' vector is the argument up to the third stretch. -/
theorem W4_arg12 : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- The third stretch's last operation views that vector as a column. -/
theorem W5_v57 : (W5 m ρ c (Proc.devRef .tc main_v57) : S100000x1.Idx → BitVec 32)
    = shapeCast S100000x1 (W4 m ρ c (Proc.devRef .tc main_arg12) : S100000.Idx → BitVec 32) shapeCasts_S100000_S100000x1 := by
  show StableHlo.after hostOps2 _ (Proc.devRef .tc main_v57) = _
  after_results
  rfl

/-- The graph numbers at the third launch's entry are the argument, as a column. -/
theorem idsA_V5 : idsA (V5 m ρ) c = ids m c := by
  funext r
  unfold idsA ids icol i1
  rw [show (V5 m ρ c main_v57 : S100000x1.Idx → BitVec 32) = _ from W5_v57 m ρ c, W4_arg12,
    Cert.LibKeepdims.shapeCast_a_a1_apply]

end Cert.KernelIdeal.KS3

end
-- ==== Proof.Region2.lean ====
/-
  Launch 2 (the pooling pass), read as values: on each core the grid walks that core's 25 tiles of 2000 rows; the first
  tile zeroes the two accumulators [1, 512, 128] and [1, 512, 256], and every tile adds the product of its 0/1
  membership matrix (row r, graph g: whether row r's graph number is g), contracted over the tile's rows, with the
  tile's rows of x and of h' = max(max(z · scale₁ + shift₁, 0) · scale₂ + shift₂, 0). So the two result arrays hold,
  per core and graph, the sums of x and of h' over that core's rows in the graph.

  The steps: the product that contracts the row axis of both operands has at (g, f) the sum over the tile's rows of
  membership(r, g) · operand(r, f); the membership entry is 1 exactly when the row's graph word, read signed, is g
  (the body compares the word with the 32-bit word of g, and g < 512); each case of the body leaves, in an
  accumulator, the value found there (zero at a core's first tile) plus the tile's product; a tile's block is rows
  2000·t … 2000·t + 1999 of the arrays; so after tile p of core q an accumulator holds the contributions of tiles
  25q … 25q + p, by induction on p; the last tile of a core writes its accumulator back as that core's block of the
  result, and the 25 tiles of 2000 rows are the core's 50000 rows.
-/
import proofs.«429314_j22110491639897_3_alg».proof.Proof.Gen.KernelIdeal.Frame
import proofs.«429314_j22110491639897_3_alg».proof.Proof.KVals
import proofs.«429314_j22110491639897_3_alg».proof.Proof.LibTileSum
import proofs.«429314_j22110491639897_3_alg».proof.Proof.LibPlainMatmul
import proofs.«429314_j22110491639897_3_alg».proof.Proof.LibIdxSum
import proofs.«429314_j22110491639897_3_alg».proof.Proof.LibKeepdims
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.R2

open Cert.KernelIdeal Cert.KernelIdeal.Gen Cert.KernelIdeal.KVals Cert.Read

/-! ## A product that contracts the first axis of both operands -/

variable {φ₁ φ₂ : FTy}

/-- The dimension numbers of a product that contracts the FIRST axis of both operands: K×M by K×N gives M×N. -/
def colDot (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand's index at output (a, b) and contraction coordinate k is (k, a). -/
theorem lhsIdx_colDot (K M N : Nat) (a : Fin M) (b : Fin N) (k : Fin K) :
    (colDot K M N).lhsIdx (ix2 a b) ((contrEquiv1 (colDot K M N) K rfl rfl).symm k) = ix2 k a := by
  have hk := contrEquiv1_symm_val (colDot K M N) K rfl rfl k
  funext d
  refine Fin.ext ?_
  match d with
  | ⟨0, _⟩ =>
    exact ((colDot K M N).lhsIdx_val_of_single (cl := (0 : Fin 2)) rfl (ix2 a b) _).trans hk
  | ⟨1, _⟩ =>
    show ((colDot K M N).lhsIdx (ix2 a b) _ (1 : Fin 2)).val = a.val
    unfold DotDims.lhsIdx
    rw [dif_neg (show ¬(1 : Fin 2) ∈ (colDot K M N).lhsBatch from List.not_mem_nil),
      dif_pos (show (1 : Fin 2) ∈ (colDot K M N).lhsNonContracting from List.mem_singleton.mpr rfl)]
    rfl

/-- The right operand's index at output (a, b) and contraction coordinate k is (k, b). -/
theorem rhsIdx_colDot (K M N : Nat) (a : Fin M) (b : Fin N) (k : Fin K) :
    (colDot K M N).rhsIdx (ix2 a b) ((contrEquiv1 (colDot K M N) K rfl rfl).symm k) = ix2 k b := by
  have hk := contrEquiv1_symm_val (colDot K M N) K rfl rfl k
  funext d
  refine Fin.ext ?_
  match d with
  | ⟨0, _⟩ =>
    exact ((colDot K M N).rhsIdx_val_of_single (cr := (0 : Fin 2)) rfl (ix2 a b) _).trans hk
  | ⟨1, _⟩ =>
    show ((colDot K M N).rhsIdx (ix2 a b) _ (1 : Fin 2)).val = b.val
    unfold DotDims.rhsIdx
    rw [dif_neg (show ¬(1 : Fin 2) ∈ (colDot K M N).rhsBatch from List.not_mem_nil),
      dif_pos (show (1 : Fin 2) ∈ (colDot K M N).rhsNonContracting from List.mem_singleton.mpr rfl)]
    rfl

/-- Entry (a, b) of such a product into the zero accumulator: ∑ₖ l(k, a) · r(k, b). -/
theorem colDot_zero_apply (K M N : Nat) (prec : Option ContractPrecision)
    (l : FVec Ideal ⟨2, ![K, M]⟩ φ₁) (r : FVec Ideal ⟨2, ![K, N]⟩ φ₂) (a : Fin M) (b : Fin N) :
    matmul (colDot K M N) prec l r (constant (F := Ideal) ⟨2, ![M, N]⟩ .f32 0x00000000#32) (ix2 a b)
      = ∑ k : Fin K, l (ix2 k a) * r (ix2 k b) := by
  simp only [matmul]
  rw [Ideal.matmul_constant_zero_apply, ← Equiv.sum_comp (contrEquiv1 (colDot K M N) K rfl rfl).symm]
  refine Finset.sum_congr rfl fun k _ => ?_
  rw [lhsIdx_colDot, rhsIdx_colDot]

/-! ## The membership entry: a word compared with a graph number, as a 0/1 float -/

/-- The 32-bit word of a number below 512 reads, signed, as that number. -/
theorem ofNat_toInt (g : Fin 512) : (BitVec.ofNat 32 g.val).toInt = (g.val : ℤ) := by
  have hg := g.isLt
  have h1 : (BitVec.ofNat 32 g.val).toNat = g.val := by
    rw [BitVec.toNat_ofNat]; exact Nat.mod_eq_of_lt (by omega)
  rw [BitVec.toInt_eq_toNat_of_lt (by rw [h1]; omega), h1]

/-- A word is that of graph number g exactly when it reads, signed, as g. -/
theorem eq_ofNat_iff (w : BitVec 32) (g : Fin 512) : w = BitVec.ofNat 32 g.val ↔ w.toInt = (g.val : ℤ) :=
  ⟨fun h => h ▸ ofNat_toInt g, fun h => BitVec.eq_of_toInt_eq (h.trans (ofNat_toInt g).symm)⟩

/-- The comparison's bit, widened to 32 bits and converted as a signed integer, is the 0/1 membership value. -/
theorem onehot_word (w : BitVec 32) (g : Fin 512) :
    ((((IntOp.cmpi .eq w (BitVec.ofNat 32 g.val)).setWidth 32).toInt : ℝ) : EReal) = oneHot w g := by
  unfold oneHot
  by_cases h : w.toInt = (g.val : ℤ)
  · rw [if_pos h, IntOp.cmpi_eq.mpr ((eq_ofNat_iff w g).mpr h)]
    have : ((1#1 : BitVec 1).setWidth 32).toInt = 1 := by decide
    rw [this]; simp
  · have hw : ¬IntOp.cmpi .eq w (BitVec.ofNat 32 g.val) = 1#1 := fun h' => h ((eq_ofNat_iff w g).mp (IntOp.cmpi_eq.mp h'))
    rw [if_neg h, eq_zero_of_ne_one hw]
    have : ((0#1 : BitVec 1).setWidth 32).toInt = 0 := by decide
    rw [this]; simp

/-! ## The body's arithmetic read at an index, on the extended reals -/

/-- The membership matrix at (r, g): whether row r's graph word names graph g. -/
theorem onehot_apply (ids : Vec Ideal S2000x1 .i32) (r : Fin 2000) (g : Fin 512) :
    k2_pay1 (F := Ideal) (iota .tc S2000x512 32 [1] iota_S2000x512_d1_w32) (k2_pay7 (F := Ideal) ids) (ix2 r g)
      = oneHot (ids (ix2 r (0 : Fin 1))) g := by
  unfold k2_pay1 k2_pay7
  have e1 : broadcastTo S2000x512 (shapeCast S2000x1 (ids : IVec S2000x1 32) shapeCasts_S2000x1_S2000x1) broadcasts_S2000x1_S2000x512 (ix2 r g)
      = ids (ix2 r (0 : Fin 1)) :=
    (Cert.LibKeepdims.broadcastTo_a1_ab_apply _ _ r g).trans (congrFun (shapeCast_self _ _) _)
  have e2 : iota .tc S2000x512 32 [1] iota_S2000x512_d1_w32 (ix2 r g) = BitVec.ofNat 32 g.val :=
    iota_single_apply .tc S2000x512 32 1 iota_S2000x512_d1_w32 (ix2 r g)
  refine Eq.trans ?_ (onehot_word (ids (ix2 r (0 : Fin 1))) g)
  show ((((IntOp.cmpi .eq (broadcastTo S2000x512 (shapeCast S2000x1 (ids : IVec S2000x1 32) shapeCasts_S2000x1_S2000x1) broadcasts_S2000x1_S2000x512 (ix2 r g))
      (iota .tc S2000x512 32 [1] iota_S2000x512_d1_w32 (ix2 r g))).setWidth 32).toInt : ℝ) : EReal) = _
  rw [e1, e2]

/-- Output 9's payload at (u, g, f): the accumulator there plus the tile's rows of x weighted by membership in g. -/
theorem pay2_apply (ids : Vec Ideal S2000x1 .i32) (x : Vec Ideal S2000x128 .f32) (acc : Vec Ideal S1x512x128 .f32)
    (u : Fin 1) (g : Fin 512) (f : Fin 128) :
    k2_pay2 (F := Ideal) (iota .tc S2000x512 32 [1] iota_S2000x512_d1_w32) (k2_pay7 (F := Ideal) ids) x acc (ix3 u g f)
      = acc (ix3 u g f) + ∑ r : Fin 2000, oneHot (ids (ix2 r (0 : Fin 1))) g * x (ix2 r f) := by
  unfold k2_pay2
  refine (addf_apply _ _ _).trans ?_
  refine congrArg₂ (· + ·) (congrFun (shapeCast_self acc _) _) ?_
  refine (shapeCast_ab_1ab_apply _ _ u g f).trans ?_
  refine (colDot_zero_apply 2000 512 128 none _ _ g f).trans ?_
  refine Finset.sum_congr rfl fun r _ => ?_
  exact congrArg₂ (· * ·) (onehot_apply ids r g) rfl

/-- The twice-normalised hidden row h' of the tile at (r, j), from the tile's aggregated rows, the weights, the bias
    and the two fused scale and shift rows. -/
theorem pay6_apply (agg : Vec Ideal S2000x128 .bf16) (w : Vec Ideal S128x256 .f32) (b s1 t1 s2 t2 : Vec Ideal S1x256 .f32)
    (r : Fin 2000) (j : Fin 256) :
    k2_pay6 (F := Ideal) agg w b s1 t1 s2 t2 (ix2 r j)
      = max (max (((∑ k : Fin 128, agg (ix2 r k) * w (ix2 k j)) + b (ix2 (0 : Fin 1) j)) * s1 (ix2 (0 : Fin 1) j)
          + t1 (ix2 (0 : Fin 1) j)) 0 * s2 (ix2 (0 : Fin 1) j) + t2 (ix2 (0 : Fin 1) j)) 0 := by
  have hm : matmul dot_S2000x128_S128x256_S2000x256_1_0_0_1_n_n none
      (shapeCast S2000x128 agg shapeCasts_S2000x128_S2000x128 : FVec Ideal S2000x128 .bf16)
      (truncf .bf16 (w : FVec Ideal S128x256 .f32) bitsLt_bf16_f32 : FVec Ideal S128x256 .bf16)
      (constant (F := Ideal) S2000x256 .f32 0x00000000#32) (ix2 r j)
        = ∑ k : Fin 128, agg (ix2 r k) * w (ix2 k j) := by
    refine (Cert.LibPlainMatmul.matmul_zero_apply 2000 128 256 none _ _ r j).trans ?_
    refine Finset.sum_congr rfl fun k _ => ?_
    exact congrArg₂ (· * ·) (congrFun (shapeCast_self agg _) _) rfl
  have hb : ∀ v : Vec Ideal S1x256 .f32,
      broadcastTo S2000x256 (shapeCast S1x256 v shapeCasts_S1x256_S1x256) broadcasts_S1x256_S2000x256 (ix2 r j)
        = v (ix2 (0 : Fin 1) j) := fun v =>
    (broadcastTo_1b_ab_apply _ _ r j).trans (congrFun (shapeCast_self v _) _)
  have hzero : (broadcast S2000x256 (Scalar.ofBits (F := Ideal) .f32 0x00000000#32) : FVec Ideal S2000x256 .f32) (ix2 r j) = 0 :=
    Ideal.ofBits_zero_f32
  unfold k2_pay6
  refine (maximumf_apply _ _ _).trans (congrArg₂ max ?_ hzero)
  refine (addf_apply _ _ _).trans (congrArg₂ (· + ·) ?_ (hb t2))
  refine (mulf_apply _ _ _).trans (congrArg₂ (· * ·) ?_ (hb s2))
  refine (maximumf_apply _ _ _).trans (congrArg₂ max ?_ hzero)
  refine (addf_apply _ _ _).trans (congrArg₂ (· + ·) ?_ (hb t1))
  refine (mulf_apply _ _ _).trans (congrArg₂ (· * ·) ?_ (hb s1))
  exact (addf_apply _ _ _).trans (congrArg₂ (· + ·) hm (hb b))

/-- Output 10's payload at (u, g, j): the accumulator there plus the tile's rows of h' weighted by membership in g. -/
theorem pay3_apply (h' : FVec Ideal S2000x256 .f32) (ids : Vec Ideal S2000x1 .i32) (acc : Vec Ideal S1x512x256 .f32)
    (u : Fin 1) (g : Fin 512) (j : Fin 256) :
    k2_pay3 (F := Ideal) h' (iota .tc S2000x512 32 [1] iota_S2000x512_d1_w32) (k2_pay7 (F := Ideal) ids) acc (ix3 u g j)
      = acc (ix3 u g j) + ∑ r : Fin 2000, oneHot (ids (ix2 r (0 : Fin 1))) g * h' (ix2 r j) := by
  unfold k2_pay3
  refine (addf_apply _ _ _).trans ?_
  refine congrArg₂ (· + ·) (congrFun (shapeCast_self acc _) _) ?_
  refine (shapeCast_ab_1ab_apply _ _ u g j).trans ?_
  refine (colDot_zero_apply 2000 512 256 none _ _ g j).trans ?_
  refine Finset.sum_congr rfl fun r _ => ?_
  exact congrArg₂ (· * ·) (onehot_apply ids r g) rfl

/-- The zero blocks the reset stores read 0 everywhere. -/
theorem pay4_apply (i : S1x512x128.Idx) : k2_pay4 (F := Ideal) i = 0 := Ideal.ofBits_zero_f32
theorem pay5_apply (i : S1x512x256.Idx) : k2_pay5 (F := Ideal) i = 0 := Ideal.ofBits_zero_f32

/-! ## What each case of the body leaves in the two accumulators, as terms of the body's arithmetic -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile, output 9: the accumulator found there plus the tile's membership product with x. -/
theorem out_B_9 (c : Dev nD) (i : grid2.Coords) (a2 : Memref sig .tc .vmem S2000x128 .bf16) (h2 : a2.IsWhole) (a3 : Memref sig .tc .vmem S2000x128 .f32) (h3 : a3.IsWhole) (a4 : Memref sig .tc .vmem S2000x1 .i32) (h4 : a4.IsWhole) (a5 : Memref sig .tc .vmem S128x256 .f32) (h5 : a5.IsWhole) (a6 : Memref sig .tc .vmem S1x256 .f32) (h6 : a6.IsWhole) (a7 : Memref sig .tc .vmem S1x256 .f32) (h7 : a7.IsWhole) (a8 : Memref sig .tc .vmem S1x256 .f32) (h8 : a8.IsWhole) (a9 : Memref sig .tc .vmem S1x256 .f32) (h9 : a9.IsWhole) (a10 : Memref sig .tc .vmem S1x256 .f32) (h10 : a10.IsWhole) (a11 : Memref sig .tc .vmem S1x512x128 .f32) (h11 : a11.IsWhole) (a12 : Memref sig .tc .vmem S1x512x256 .f32) (h12 : a12.IsWhole) (hc : ¬cond2_0 i) (x0 : Vec F S2000x128 .bf16) (x1 : Vec F S2000x128 .f32) (x2 : Vec F S2000x1 .i32) (x3 : Vec F S128x256 .f32) (x4 : Vec F S1x256 .f32) (x5 : Vec F S1x256 .f32) (x6 : Vec F S1x256 .f32) (x7 : Vec F S1x256 .f32) (x8 : Vec F S1x256 .f32) (xo9 : Vec F S1x512x128 .f32) (xo10 : Vec F S1x512x256 .f32) :
    out2_B_9 c i a2 h2 a3 h3 a4 h4 a5 h5 a6 h6 a7 h7 a8 h8 a9 h9 a10 h10 a11 h11 a12 h12 hc x0 x1 x2 x3 x4 x5 x6 x7 x8 xo9 xo10 = k2_pay2 (iota .tc S2000x512 32 [1] iota_S2000x512_d1_w32) (k2_pay7 x2) x1 xo9 := by
  unfold out2_B_9
  rw [View.read_writes_eq_canon _ _ _ (cover2_B_9 c i a2 h2 a3 h3 a4 h4 a5 h5 a6 h6 a7 h7 a8 h8 a9 h9 a10 h10 a11 h11 a12 h12 hc x0 x1 x2 x3 x4 x5 x6 x7 x8 xo9 xo10)]
  unfold kernelRun2_B
  dsimp only
  sl_unfold_words
  rw [View.canon_unit_zero hz3]
  simp only [View.readAt_eq_ld, h3.read_unread, h4.read_unread, h11.read_unread, View.ld_unit_zero (S := S2000x1) hz2,
    View.ld_unit_zero (S := S2000x128) hz2, View.ld_unit_zero (S := S1x512x128) hz3]

/-- A later tile, output 10: the accumulator found there plus the tile's membership product with h'. -/
theorem out_B_10 (c : Dev nD) (i : grid2.Coords) (a2 : Memref sig .tc .vmem S2000x128 .bf16) (h2 : a2.IsWhole) (a3 : Memref sig .tc .vmem S2000x128 .f32) (h3 : a3.IsWhole) (a4 : Memref sig .tc .vmem S2000x1 .i32) (h4 : a4.IsWhole) (a5 : Memref sig .tc .vmem S128x256 .f32) (h5 : a5.IsWhole) (a6 : Memref sig .tc .vmem S1x256 .f32) (h6 : a6.IsWhole) (a7 : Memref sig .tc .vmem S1x256 .f32) (h7 : a7.IsWhole) (a8 : Memref sig .tc .vmem S1x256 .f32) (h8 : a8.IsWhole) (a9 : Memref sig .tc .vmem S1x256 .f32) (h9 : a9.IsWhole) (a10 : Memref sig .tc .vmem S1x256 .f32) (h10 : a10.IsWhole) (a11 : Memref sig .tc .vmem S1x512x128 .f32) (h11 : a11.IsWhole) (a12 : Memref sig .tc .vmem S1x512x256 .f32) (h12 : a12.IsWhole) (hc : ¬cond2_0 i) (x0 : Vec F S2000x128 .bf16) (x1 : Vec F S2000x128 .f32) (x2 : Vec F S2000x1 .i32) (x3 : Vec F S128x256 .f32) (x4 : Vec F S1x256 .f32) (x5 : Vec F S1x256 .f32) (x6 : Vec F S1x256 .f32) (x7 : Vec F S1x256 .f32) (x8 : Vec F S1x256 .f32) (xo9 : Vec F S1x512x128 .f32) (xo10 : Vec F S1x512x256 .f32) :
    out2_B_10 c i a2 h2 a3 h3 a4 h4 a5 h5 a6 h6 a7 h7 a8 h8 a9 h9 a10 h10 a11 h11 a12 h12 hc x0 x1 x2 x3 x4 x5 x6 x7 x8 xo9 xo10 = k2_pay3 (k2_pay6 x0 x3 x4 x5 x6 x7 x8) (iota .tc S2000x512 32 [1] iota_S2000x512_d1_w32) (k2_pay7 x2) xo10 := by
  unfold out2_B_10
  rw [View.read_writes_eq_canon _ _ _ (cover2_B_10 c i a2 h2 a3 h3 a4 h4 a5 h5 a6 h6 a7 h7 a8 h8 a9 h9 a10 h10 a11 h11 a12 h12 hc x0 x1 x2 x3 x4 x5 x6 x7 x8 xo9 xo10)]
  unfold kernelRun2_B
  dsimp only
  sl_unfold_words
  rw [View.canon_unit_zero hz3]
  simp only [View.readAt_eq_ld, h2.read_unread, h4.read_unread, h5.read_unread, h6.read_unread, h7.read_unread, h8.read_unread,
    h9.read_unread, h10.read_unread, h12.read_unread, View.ld_unit_zero (S := S2000x1) hz2,
    View.ld_unit_zero (S := S2000x128) hz2, View.ld_unit_zero (S := S128x256) hz2, View.ld_unit_zero (S := S1x256) hz2,
    View.ld_unit_zero (S := S1x512x256) hz3]

/-- A core's first tile, output 9: the zero block just stored, read back, plus the tile's membership product with x. -/
theorem out_A_9 (c : Dev nD) (i : grid2.Coords) (a2 : Memref sig .tc .vmem S2000x128 .bf16) (h2 : a2.IsWhole) (a3 : Memref sig .tc .vmem S2000x128 .f32) (h3 : a3.IsWhole) (a4 : Memref sig .tc .vmem S2000x1 .i32) (h4 : a4.IsWhole) (a5 : Memref sig .tc .vmem S128x256 .f32) (h5 : a5.IsWhole) (a6 : Memref sig .tc .vmem S1x256 .f32) (h6 : a6.IsWhole) (a7 : Memref sig .tc .vmem S1x256 .f32) (h7 : a7.IsWhole) (a8 : Memref sig .tc .vmem S1x256 .f32) (h8 : a8.IsWhole) (a9 : Memref sig .tc .vmem S1x256 .f32) (h9 : a9.IsWhole) (a10 : Memref sig .tc .vmem S1x256 .f32) (h10 : a10.IsWhole) (a11 : Memref sig .tc .vmem S1x512x128 .f32) (h11 : a11.IsWhole) (a12 : Memref sig .tc .vmem S1x512x256 .f32) (h12 : a12.IsWhole) (hc : cond2_0 i) (x0 : Vec F S2000x128 .bf16) (x1 : Vec F S2000x128 .f32) (x2 : Vec F S2000x1 .i32) (x3 : Vec F S128x256 .f32) (x4 : Vec F S1x256 .f32) (x5 : Vec F S1x256 .f32) (x6 : Vec F S1x256 .f32) (x7 : Vec F S1x256 .f32) (x8 : Vec F S1x256 .f32) :
    out2_A_9 c i a2 h2 a3 h3 a4 h4 a5 h5 a6 h6 a7 h7 a8 h8 a9 h9 a10 h10 a11 h11 a12 h12 hc x0 x1 x2 x3 x4 x5 x6 x7 x8 = k2_pay2 (iota .tc S2000x512 32 [1] iota_S2000x512_d1_w32) (k2_pay7 x2) x1 (k2_pay4 (F := F)) := by
  unfold out2_A_9
  rw [View.read_writes_eq_canon _ _ _ (cover2_A_9 c i a2 h2 a3 h3 a4 h4 a5 h5 a6 h6 a7 h7 a8 h8 a9 h9 a10 h10 a11 h11 a12 h12 hc x0 x1 x2 x3 x4 x5 x6 x7 x8)]
  unfold kernelRun2_A
  dsimp only
  sl_unfold_words
  rw [View.canon_cons_unit_zero (S := S1x512x128) hz3, View.readCov_unit_zero (S := S1x512x128) _ hz3]
  simp only [View.readAt_eq_ld, h3.read_unread, h4.read_unread, View.ld_unit_zero (S := S2000x1) hz2,
    View.ld_unit_zero (S := S2000x128) hz2]

/-- A core's first tile, output 10: the zero block just stored, read back, plus the tile's membership product with h'. -/
theorem out_A_10 (c : Dev nD) (i : grid2.Coords) (a2 : Memref sig .tc .vmem S2000x128 .bf16) (h2 : a2.IsWhole) (a3 : Memref sig .tc .vmem S2000x128 .f32) (h3 : a3.IsWhole) (a4 : Memref sig .tc .vmem S2000x1 .i32) (h4 : a4.IsWhole) (a5 : Memref sig .tc .vmem S128x256 .f32) (h5 : a5.IsWhole) (a6 : Memref sig .tc .vmem S1x256 .f32) (h6 : a6.IsWhole) (a7 : Memref sig .tc .vmem S1x256 .f32) (h7 : a7.IsWhole) (a8 : Memref sig .tc .vmem S1x256 .f32) (h8 : a8.IsWhole) (a9 : Memref sig .tc .vmem S1x256 .f32) (h9 : a9.IsWhole) (a10 : Memref sig .tc .vmem S1x256 .f32) (h10 : a10.IsWhole) (a11 : Memref sig .tc .vmem S1x512x128 .f32) (h11 : a11.IsWhole) (a12 : Memref sig .tc .vmem S1x512x256 .f32) (h12 : a12.IsWhole) (hc : cond2_0 i) (x0 : Vec F S2000x128 .bf16) (x1 : Vec F S2000x128 .f32) (x2 : Vec F S2000x1 .i32) (x3 : Vec F S128x256 .f32) (x4 : Vec F S1x256 .f32) (x5 : Vec F S1x256 .f32) (x6 : Vec F S1x256 .f32) (x7 : Vec F S1x256 .f32) (x8 : Vec F S1x256 .f32) :
    out2_A_10 c i a2 h2 a3 h3 a4 h4 a5 h5 a6 h6 a7 h7 a8 h8 a9 h9 a10 h10 a11 h11 a12 h12 hc x0 x1 x2 x3 x4 x5 x6 x7 x8 = k2_pay3 (k2_pay6 x0 x3 x4 x5 x6 x7 x8) (iota .tc S2000x512 32 [1] iota_S2000x512_d1_w32) (k2_pay7 x2) (k2_pay5 (F := F)) := by
  unfold out2_A_10
  rw [View.read_writes_eq_canon _ _ _ (cover2_A_10 c i a2 h2 a3 h3 a4 h4 a5 h5 a6 h6 a7 h7 a8 h8 a9 h9 a10 h10 a11 h11 a12 h12 hc x0 x1 x2 x3 x4 x5 x6 x7 x8)]
  unfold kernelRun2_A
  dsimp only
  sl_unfold_words
  rw [View.canon_cons_unit_zero (S := S1x512x256) hz3, View.readCov_unit_zero (S := S1x512x256) _ hz3]
  simp only [View.readAt_eq_ld, h2.read_unread, h4.read_unread, h5.read_unread, h6.read_unread, h7.read_unread, h8.read_unread,
    h9.read_unread, h10.read_unread, View.ld_unit_zero (S := S2000x1) hz2,
    View.ld_unit_zero (S := S2000x128) hz2, View.ld_unit_zero (S := S128x256) hz2, View.ld_unit_zero (S := S1x256) hz2]

end Pieces

/-- Row r of tile k (2000 rows each) among the 100000 rows (read modulo the row count, so that it is a row for every k;
    the 50 tiles of the grid are k < 50, where nothing wraps). -/
def tileRow (k : ℕ) (r : Fin 2000) : Fin 100000 := ⟨(2000 * k + r.val) % 100000, Nat.mod_lt _ (by norm_num)⟩

/-! ## A core's 25 tiles are its 50000 rows -/

/-- Summing over core q's 25 tiles, and in each over its 2000 rows, is summing over the core's 50000 rows. -/
theorem sum_core_tiles {M : Type*} [AddCommMonoid M] (q : Fin 2) (F : Fin 100000 → M) :
    ∑ s ∈ Finset.range 25, ∑ r : Fin 2000, F (tileRow (25 * q.val + s) r) = ∑ n : Fin 50000, F (rowOf q n) := by
  rw [Finset.sum_range (fun s => ∑ r : Fin 2000, F (tileRow (25 * q.val + s) r))]
  refine Eq.trans ?_ (Cert.LibTileSum.sum_tiles (a := 25) (b := 2000) (fun n => F (rowOf q n)))
  refine Finset.sum_congr rfl fun i _ => Finset.sum_congr rfl fun r _ => congrArg F (Fin.ext ?_)
  show (2000 * (25 * q.val + i.val) + r.val) % 100000 = 50000 * q.val + (2000 * i.val + r.val)
  have := q.isLt; have := i.isLt; have := r.isLt; omega

variable (V : (c : Dev nD) → (b : Ref sig .tc) → Buf (Elt Ideal) ((c : Thread nD τ).loc b)) (c : Dev nD)

/-! ## The tiles' blocks are rows of the arrays -/

/-- The windows' blocks at a point, by their literal types. -/
abbrev aggB (t : Fin cfg2.N) : Vec Ideal S2000x128 .bf16 := iblk2 V c 0 t
abbrev xB (t : Fin cfg2.N) : Vec Ideal S2000x128 .f32 := iblk2 V c 1 t
abbrev idsB (t : Fin cfg2.N) : Vec Ideal S2000x1 .i32 := iblk2 V c 2 t
abbrev wB (t : Fin cfg2.N) : Vec Ideal S128x256 .f32 := iblk2 V c 3 t
abbrev bB (t : Fin cfg2.N) : Vec Ideal S1x256 .f32 := iblk2 V c 4 t
abbrev s1B (t : Fin cfg2.N) : Vec Ideal S1x256 .f32 := iblk2 V c 5 t
abbrev t1B (t : Fin cfg2.N) : Vec Ideal S1x256 .f32 := iblk2 V c 6 t
abbrev s2B (t : Fin cfg2.N) : Vec Ideal S1x256 .f32 := iblk2 V c 7 t
abbrev t2B (t : Fin cfg2.N) : Vec Ideal S1x256 .f32 := iblk2 V c 8 t

/-- The three row-tiled windows sit at block (t, 0) at point t: decided over the 50 points. -/
theorem idx_in : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The six whole-array windows sit at block (0, 0) at every point. -/
theorem idx_whole : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The two result windows sit at block (core, 0, 0), the core being t / 25. -/
theorem idx_out : ∀ t : Fin cfg2.N,
    win2_9.index t (0 : Fin 3) = t.val / 25 ∧ win2_9.index t (1 : Fin 3) = 0 ∧ win2_9.index t (2 : Fin 3) = 0
    ∧ win2_10.index t (0 : Fin 3) = t.val / 25 ∧ win2_10.index t (1 : Fin 3) = 0 ∧ win2_10.index t (2 : Fin 3) = 0 :=
  (by decide +kernel : ∀ t : Fin grid2.N, _)

theorem aggB_apply (t : Fin cfg2.N) (r : Fin 2000) (k : Fin 128) : aggB V c t (ix2 r k) = aggA V c (tileRow t.val r) k := by
  have hN : t.val < 50 := lt_of_lt_of_eq t.isLt (show cfg2.N = 50 from N_2)
  have e0 : win2_0.index t (0 : Fin 2) = t.val := (idx_in t).1
  have e1 : win2_0.index t (1 : Fin 2) = 0 := (idx_in t).2.1
  show V c main_v17 (((cfg2.win 0).blk t).view.emb (ix2 r k)) = V c main_v17 (ix2 (tileRow t.val r) k)
  refine congrArg (V c main_v17 : S100000x128.Idx → EReal) (funext fun a => Fin.ext ?_)
  match a with
  | ⟨0, _⟩ => show win2_0.index t (0 : Fin 2) * 2000 + 1 * r.val = (2000 * t.val + r.val) % 100000; rw [e0]; have := r.isLt; omega
  | ⟨1, _⟩ => show win2_0.index t (1 : Fin 2) * 128 + 1 * k.val = k.val; rw [e1]; omega

theorem xB_apply (t : Fin cfg2.N) (r : Fin 2000) (f : Fin 128) : xB V c t (ix2 r f) = xA V c (tileRow t.val r) f := by
  have hN : t.val < 50 := lt_of_lt_of_eq t.isLt (show cfg2.N = 50 from N_2)
  have e0 : win2_1.index t (0 : Fin 2) = t.val := (idx_in t).2.2.1
  have e1 : win2_1.index t (1 : Fin 2) = 0 := (idx_in t).2.2.2.1
  show V c main_arg0 (((cfg2.win 1).blk t).view.emb (ix2 r f)) = V c main_arg0 (ix2 (tileRow t.val r) f)
  refine congrArg (V c main_arg0 : S100000x128.Idx → EReal) (funext fun a => Fin.ext ?_)
  match a with
  | ⟨0, _⟩ => show win2_1.index t (0 : Fin 2) * 2000 + 1 * r.val = (2000 * t.val + r.val) % 100000; rw [e0]; have := r.isLt; omega
  | ⟨1, _⟩ => show win2_1.index t (1 : Fin 2) * 128 + 1 * f.val = f.val; rw [e1]; omega

theorem idsB_apply (t : Fin cfg2.N) (r : Fin 2000) : idsB V c t (ix2 r (0 : Fin 1)) = idsA V c (tileRow t.val r) := by
  have hN : t.val < 50 := lt_of_lt_of_eq t.isLt (show cfg2.N = 50 from N_2)
  have e0 : win2_2.index t (0 : Fin 2) = t.val := (idx_in t).2.2.2.2.1
  have e1 : win2_2.index t (1 : Fin 2) = 0 := (idx_in t).2.2.2.2.2
  show V c main_v57 (((cfg2.win 2).blk t).view.emb (ix2 r (0 : Fin 1))) = V c main_v57 (ix2 (tileRow t.val r) (0 : Fin 1))
  refine congrArg (V c main_v57 : S100000x1.Idx → BitVec 32) (funext fun a => Fin.ext ?_)
  match a with
  | ⟨0, _⟩ => show win2_2.index t (0 : Fin 2) * 2000 + 1 * r.val = (2000 * t.val + r.val) % 100000; rw [e0]; have := r.isLt; omega
  | ⟨1, _⟩ => show win2_2.index t (1 : Fin 2) * 1 + 1 * 0 = 0; rw [e1]

theorem wB_apply (t : Fin cfg2.N) (k : Fin 128) (j : Fin 256) : wB V c t (ix2 k j) = wA V c k j := by
  have e0 : win2_3.index t (0 : Fin 2) = 0 := (idx_whole t).1
  have e1 : win2_3.index t (1 : Fin 2) = 0 := (idx_whole t).2.1
  show V c main_arg1 (((cfg2.win 3).blk t).view.emb (ix2 k j)) = V c main_arg1 (ix2 k j)
  refine congrArg (V c main_arg1 : S128x256.Idx → EReal) (funext fun a => Fin.ext ?_)
  match a with
  | ⟨0, _⟩ => show win2_3.index t (0 : Fin 2) * 128 + 1 * k.val = k.val; rw [e0]; omega
  | ⟨1, _⟩ => show win2_3.index t (1 : Fin 2) * 256 + 1 * j.val = j.val; rw [e1]; omega

theorem bB_apply (t : Fin cfg2.N) (j : Fin 256) : bB V c t (ix2 (0 : Fin 1) j) = bA V c j := by
  have e0 : win2_4.index t (0 : Fin 2) = 0 := (idx_whole t).2.2.1
  have e1 : win2_4.index t (1 : Fin 2) = 0 := (idx_whole t).2.2.2.1
  show V c main_v18 (((cfg2.win 4).blk t).view.emb (ix2 (0 : Fin 1) j)) = V c main_v18 (ix2 (0 : Fin 1) j)
  refine congrArg (V c main_v18 : S1x256.Idx → EReal) (funext fun a => Fin.ext ?_)
  match a with
  | ⟨0, _⟩ => show win2_4.index t (0 : Fin 2) * 1 + 1 * 0 = 0; rw [e0]
  | ⟨1, _⟩ => show win2_4.index t (1 : Fin 2) * 256 + 1 * j.val = j.val; rw [e1]; omega

theorem s1B_apply (t : Fin cfg2.N) (j : Fin 256) : s1B V c t (ix2 (0 : Fin 1) j) = sc1 V c j := by
  have e0 : win2_5.index t (0 : Fin 2) = 0 := (idx_whole t).2.2.2.2.1
  have e1 : win2_5.index t (1 : Fin 2) = 0 := (idx_whole t).2.2.2.2.2.1
  show V c main_v35 (((cfg2.win 5).blk t).view.emb (ix2 (0 : Fin 1) j)) = V c main_v35 (ix2 (0 : Fin 1) j)
  refine congrArg (V c main_v35 : S1x256.Idx → EReal) (funext fun a => Fin.ext ?_)
  match a with
  | ⟨0, _⟩ => show win2_5.index t (0 : Fin 2) * 1 + 1 * 0 = 0; rw [e0]
  | ⟨1, _⟩ => show win2_5.index t (1 : Fin 2) * 256 + 1 * j.val = j.val; rw [e1]; omega

theorem t1B_apply (t : Fin cfg2.N) (j : Fin 256) : t1B V c t (ix2 (0 : Fin 1) j) = sh1 V c j := by
  have e0 : win2_6.index t (0 : Fin 2) = 0 := (idx_whole t).2.2.2.2.2.2.1
  have e1 : win2_6.index t (1 : Fin 2) = 0 := (idx_whole t).2.2.2.2.2.2.2.1
  show V c main_v37 (((cfg2.win 6).blk t).view.emb (ix2 (0 : Fin 1) j)) = V c main_v37 (ix2 (0 : Fin 1) j)
  refine congrArg (V c main_v37 : S1x256.Idx → EReal) (funext fun a => Fin.ext ?_)
  match a with
  | ⟨0, _⟩ => show win2_6.index t (0 : Fin 2) * 1 + 1 * 0 = 0; rw [e0]
  | ⟨1, _⟩ => show win2_6.index t (1 : Fin 2) * 256 + 1 * j.val = j.val; rw [e1]; omega

theorem s2B_apply (t : Fin cfg2.N) (j : Fin 256) : s2B V c t (ix2 (0 : Fin 1) j) = sc2 V c j := by
  have e0 : win2_7.index t (0 : Fin 2) = 0 := (idx_whole t).2.2.2.2.2.2.2.2.1
  have e1 : win2_7.index t (1 : Fin 2) = 0 := (idx_whole t).2.2.2.2.2.2.2.2.2.1
  show V c main_v54 (((cfg2.win 7).blk t).view.emb (ix2 (0 : Fin 1) j)) = V c main_v54 (ix2 (0 : Fin 1) j)
  refine congrArg (V c main_v54 : S1x256.Idx → EReal) (funext fun a => Fin.ext ?_)
  match a with
  | ⟨0, _⟩ => show win2_7.index t (0 : Fin 2) * 1 + 1 * 0 = 0; rw [e0]
  | ⟨1, _⟩ => show win2_7.index t (1 : Fin 2) * 256 + 1 * j.val = j.val; rw [e1]; omega

theorem t2B_apply (t : Fin cfg2.N) (j : Fin 256) : t2B V c t (ix2 (0 : Fin 1) j) = sh2 V c j := by
  have e0 : win2_8.index t (0 : Fin 2) = 0 := (idx_whole t).2.2.2.2.2.2.2.2.2.2.1
  have e1 : win2_8.index t (1 : Fin 2) = 0 := (idx_whole t).2.2.2.2.2.2.2.2.2.2.2
  show V c main_v56 (((cfg2.win 8).blk t).view.emb (ix2 (0 : Fin 1) j)) = V c main_v56 (ix2 (0 : Fin 1) j)
  refine congrArg (V c main_v56 : S1x256.Idx → EReal) (funext fun a => Fin.ext ?_)
  match a with
  | ⟨0, _⟩ => show win2_8.index t (0 : Fin 2) * 1 + 1 * 0 = 0; rw [e0]
  | ⟨1, _⟩ => show win2_8.index t (1 : Fin 2) * 256 + 1 * j.val = j.val; rw [e1]; omega

/-! ## One tile's contribution, and the running accumulators -/

/-- Tile k's contribution to the per-graph sum of x at (g, f). -/
def tile9 (k : ℕ) (g : Fin 512) (f : Fin 128) : EReal :=
  ∑ r : Fin 2000, oneHot (idsA V c (tileRow k r)) g * xA V c (tileRow k r) f

/-- Tile k's contribution to the per-graph sum of h' at (g, j). -/
def tile10 (k : ℕ) (g : Fin 512) (j : Fin 256) : EReal :=
  ∑ r : Fin 2000, oneHot (idsA V c (tileRow k r)) g * h2K V c (tileRow k r) j

/-- The body's new value of accumulator 9 at point t: the old value plus tile t's contribution. -/
theorem pay2_tile (t : Fin cfg2.N) (acc : Vec Ideal S1x512x128 .f32) (u : Fin 1) (g : Fin 512) (f : Fin 128) :
    k2_pay2 (F := Ideal) (iota .tc S2000x512 32 [1] iota_S2000x512_d1_w32) (k2_pay7 (F := Ideal) (idsB V c t)) (xB V c t) acc (ix3 u g f)
      = acc (ix3 u g f) + tile9 V c t.val g f := by
  refine (pay2_apply (idsB V c t) (xB V c t) acc u g f).trans ?_
  unfold tile9
  refine congrArg (acc (ix3 u g f) + ·) (Finset.sum_congr rfl fun r _ => ?_)
  exact congrArg₂ (· * ·) (congrArg (oneHot · g) (idsB_apply V c t r)) (xB_apply V c t r f)

/-- The body's new value of accumulator 10 at point t: the old value plus tile t's contribution. -/
theorem pay3_tile (t : Fin cfg2.N) (acc : Vec Ideal S1x512x256 .f32) (u : Fin 1) (g : Fin 512) (j : Fin 256) :
    k2_pay3 (F := Ideal) (k2_pay6 (F := Ideal) (aggB V c t) (wB V c t) (bB V c t) (s1B V c t) (t1B V c t) (s2B V c t) (t2B V c t))
        (iota .tc S2000x512 32 [1] iota_S2000x512_d1_w32) (k2_pay7 (F := Ideal) (idsB V c t)) acc (ix3 u g j)
      = acc (ix3 u g j) + tile10 V c t.val g j := by
  refine (pay3_apply _ (idsB V c t) acc u g j).trans ?_
  unfold tile10
  refine congrArg (acc (ix3 u g j) + ·) (Finset.sum_congr rfl fun r _ => ?_)
  refine congrArg₂ (· * ·) (congrArg (oneHot · g) (idsB_apply V c t r)) ?_
  refine (pay6_apply (aggB V c t) (wB V c t) (bB V c t) (s1B V c t) (t1B V c t) (s2B V c t) (t2B V c t) r j).trans ?_
  unfold h2K hK zK Cert.Spec.lin
  rw [bB_apply V c t j, s1B_apply V c t j, t1B_apply V c t j, s2B_apply V c t j, t2B_apply V c t j]
  refine congrArg (fun z => max (max ((z + bA V c j) * sc1 V c j + sh1 V c j) 0 * sc2 V c j + sh2 V c j) 0) ?_
  exact Finset.sum_congr rfl fun k _ => congrArg₂ (· * ·) (aggB_apply V c t r k) (wB_apply V c t k j)

/-- At a core's first point accumulator 9 is left at that tile's contribution (zero plus it). -/
theorem step_A_9 (t : Fin cfg2.N) (h0 : t.val % 25 = 0) (u : Fin 1) (g : Fin 512) (f : Fin 128) :
    (outsAt2 V c t.val t.isLt).1 (ix3 u g f) = tile9 V c t.val g f := by
  rw [outsAt2_A V c t h0]
  dsimp only
  refine (congrFun (out_A_9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t)) (ix3 u g f)).trans ?_
  refine (pay2_tile V c t (k2_pay4 (F := Ideal)) u g f).trans ?_
  rw [pay4_apply, zero_add]

/-- At every other point it is what the point before left plus this tile's contribution. -/
theorem step_B_9 (t : Fin cfg2.N) (h0 : ¬t.val % 25 = 0) (u : Fin 1) (g : Fin 512) (f : Fin 128) :
    (outsAt2 V c t.val t.isLt).1 (ix3 u g f) = (outsAt2 V c (t.val - 1) (Nat.lt_of_le_of_lt (Nat.sub_le _ _) t.isLt)).1 (ix3 u g f) + tile9 V c t.val g f := by
  rw [outsAt2_B V c t h0]
  dsimp only
  refine (congrFun (out_B_9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).1 (outsAt2 V c (t.val - 1) (Nat.lt_of_le_of_lt (Nat.sub_le _ _) t.isLt)).2) (ix3 u g f)).trans ?_
  exact pay2_tile V c t _ u g f

theorem step_A_10 (t : Fin cfg2.N) (h0 : t.val % 25 = 0) (u : Fin 1) (g : Fin 512) (j : Fin 256) :
    (outsAt2 V c t.val t.isLt).2 (ix3 u g j) = tile10 V c t.val g j := by
  rw [outsAt2_A V c t h0]
  dsimp only
  refine (congrFun (out_A_10 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t)) (ix3 u g j)).trans ?_
  refine (pay3_tile V c t (k2_pay5 (F := Ideal)) u g j).trans ?_
  rw [pay5_apply, zero_add]

theorem step_B_10 (t : Fin cfg2.N) (h0 : ¬t.val % 25 = 0) (u : Fin 1) (g : Fin 512) (j : Fin 256) :
    (outsAt2 V c t.val t.isLt).2 (ix3 u g j) = (outsAt2 V c (t.val - 1) (Nat.lt_of_le_of_lt (Nat.sub_le _ _) t.isLt)).2 (ix3 u g j) + tile10 V c t.val g j := by
  rw [outsAt2_B V c t h0]
  dsimp only
  refine (congrFun (out_B_10 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)).1 (outsAt2 V c (t.val - 1) (Nat.lt_of_le_of_lt (Nat.sub_le _ _) t.isLt)).2) (ix3 u g j)).trans ?_
  exact pay3_tile V c t _ u g j

/-- After point 25·q + p accumulator 9 holds the contributions of core q's tiles 0 … p: by induction on p. -/
theorem acc9_eq (q : ℕ) : ∀ (p : ℕ) (_ : p < 25) (h : 25 * q + p < cfg2.N) (u : Fin 1) (g : Fin 512) (f : Fin 128),
    (outsAt2 V c (25 * q + p) h).1 (ix3 u g f) = ∑ s ∈ Finset.range (p + 1), tile9 V c (25 * q + s) g f
  | 0, _, h, u, g, f => by
    rw [Finset.sum_range_one]
    exact step_A_9 V c ⟨25 * q + 0, h⟩ (by show (25 * q + 0) % 25 = 0; omega) u g f
  | p + 1, hp, h, u, g, f => by
    rw [Finset.sum_range_succ, ← acc9_eq q p (by omega) (Nat.lt_of_succ_lt h) u g f]
    exact step_B_9 V c ⟨25 * q + (p + 1), h⟩ (by show ¬(25 * q + (p + 1)) % 25 = 0; omega) u g f

theorem acc10_eq (q : ℕ) : ∀ (p : ℕ) (_ : p < 25) (h : 25 * q + p < cfg2.N) (u : Fin 1) (g : Fin 512) (j : Fin 256),
    (outsAt2 V c (25 * q + p) h).2 (ix3 u g j) = ∑ s ∈ Finset.range (p + 1), tile10 V c (25 * q + s) g j
  | 0, _, h, u, g, j => by
    rw [Finset.sum_range_one]
    exact step_A_10 V c ⟨25 * q + 0, h⟩ (by show (25 * q + 0) % 25 = 0; omega) u g j
  | p + 1, hp, h, u, g, j => by
    rw [Finset.sum_range_succ, ← acc10_eq q p (by omega) (Nat.lt_of_succ_lt h) u g j]
    exact step_B_10 V c ⟨25 * q + (p + 1), h⟩ (by show ¬(25 * q + (p + 1)) % 25 = 0; omega) u g j

/-- At a core's last point accumulator 9 holds the whole core's sum: entry (g, ·) of the result array's half. -/
theorem core9 (t : Fin cfg2.N) (h24 : t.val % 25 = 24) (hq : t.val / 25 < 2) (u : Fin 1) (g : Fin 512) (f : Fin 128) :
    (outsAt2 V c t.val t.isLt).1 (ix3 u g f) = G2p0 V c (ix3 (⟨t.val / 25, hq⟩ : Fin 2) g f) := by
  have ht : 25 * (t.val / 25) + 24 = t.val := by omega
  have hlt : 25 * (t.val / 25) + 24 < cfg2.N := by rw [ht]; exact t.isLt
  have same : ∀ (n : ℕ) (hn : n < cfg2.N), n = t.val → (outsAt2 V c n hn).1 = (outsAt2 V c t.val t.isLt).1 :=
    fun n hn e => by subst e; rfl
  rw [← same _ hlt ht, acc9_eq V c (t.val / 25) 24 (by omega) hlt u g f]
  exact sum_core_tiles (⟨t.val / 25, hq⟩ : Fin 2) (fun n => oneHot (idsA V c n) g * xA V c n f)

/-- At a core's last point accumulator 10 holds the whole core's sum: entry (g, ·) of the result array's half. -/
theorem core10 (t : Fin cfg2.N) (h24 : t.val % 25 = 24) (hq : t.val / 25 < 2) (u : Fin 1) (g : Fin 512) (j : Fin 256) :
    (outsAt2 V c t.val t.isLt).2 (ix3 u g j) = G2p1 V c (ix3 (⟨t.val / 25, hq⟩ : Fin 2) g j) := by
  have ht : 25 * (t.val / 25) + 24 = t.val := by omega
  have hlt : 25 * (t.val / 25) + 24 < cfg2.N := by rw [ht]; exact t.isLt
  have same : ∀ (n : ℕ) (hn : n < cfg2.N), n = t.val → (outsAt2 V c n hn).2 = (outsAt2 V c t.val t.isLt).2 :=
    fun n hn e => by subst e; rfl
  rw [← same _ hlt ht, acc10_eq V c (t.val / 25) 24 (by omega) hlt u g j]
  exact sum_core_tiles (⟨t.val / 25, hq⟩ : Fin 2) (fun n => oneHot (idsA V c n) g * h2K V c n j)

/-- Block t of result window 9, for contents X of the staging buffer that agree entry by entry with core t / 25's
    half of an array G: what is written back is that block of G. -/
theorem blk9_read (t : Fin cfg2.N) (hq : t.val / 25 < 2) (X : Vec Ideal S1x512x128 .f32) (G : S2x512x128.Idx → EReal)
    (h : ∀ (u : Fin 1) (g : Fin 512) (f : Fin 128), X (ix3 u g f) = G (ix3 (⟨t.val / 25, hq⟩ : Fin 2) g f)) :
    (cfg2.win 9).cut (grid2.coords t) X = ((cfg2.win 9).blk t).view.read (Elt Ideal) G := by
  have e0 : win2_9.index t (0 : Fin 3) = t.val / 25 := (idx_out t).1
  have e1 : win2_9.index t (1 : Fin 3) = 0 := (idx_out t).2.1
  have e2 : win2_9.index t (2 : Fin 3) = 0 := (idx_out t).2.2.1
  funext y
  have h0 : (y 0).val < 1 := (y 0).isLt
  have h1 : (y 1).val < 512 := (y 1).isLt
  have h2 : (y 2).val < 128 := (y 2).isLt
  have hx : (cfg2.win 9).xinj (grid2.coords t) y
      = ix3 (⟨(y 0).val, h0⟩ : Fin 1) (⟨(y 1).val, h1⟩ : Fin 512) (⟨(y 2).val, h2⟩ : Fin 128) :=
    funext fun a => by match a with | ⟨0, _⟩ => rfl | ⟨1, _⟩ => rfl | ⟨2, _⟩ => rfl
  have he : ((cfg2.win 9).blk t).view.emb y
      = ix3 (⟨t.val / 25, hq⟩ : Fin 2) (⟨(y 1).val, h1⟩ : Fin 512) (⟨(y 2).val, h2⟩ : Fin 128) :=
    funext fun a => Fin.ext (by
      match a with
      | ⟨0, _⟩ => show win2_9.index t (0 : Fin 3) * 1 + 1 * (y 0).val = t.val / 25; rw [e0]; omega
      | ⟨1, _⟩ => show win2_9.index t (1 : Fin 3) * 512 + 1 * (y 1).val = (y 1).val; rw [e1]; omega
      | ⟨2, _⟩ => show win2_9.index t (2 : Fin 3) * 128 + 1 * (y 2).val = (y 2).val; rw [e2]; omega)
  show X ((cfg2.win 9).xinj (grid2.coords t) y) = G (((cfg2.win 9).blk t).view.emb y)
  rw [hx, he]
  exact h _ _ _

/-- What a core's last point writes back is that core's block of the result. -/
theorem flushed9_eq (t : Fin cfg2.N) (hf : (cfg2.win 9).flush t = true) :
    (dat2 (F := Ideal) V c).flushed 9 t = ((cfg2.win 9).blk t).view.read (Elt Ideal) (G2p0 V c) := by
  have hN : t.val < 50 := lt_of_lt_of_eq t.isLt (show cfg2.N = 50 from N_2)
  have h24 : t.val % 25 = 24 := (flush2_9 t).mp hf
  have hq : t.val / 25 < 2 := by omega
  show (cfg2.win 9).cut (grid2.coords t) ((dat2 V c).after 9 t) = _
  rw [after2_9]
  exact blk9_read t hq _ (G2p0 V c) (fun u g f => core9 V c t h24 hq u g f)

/-- Every entry of the [2, 512, 128] array is in the block its core's last point writes back. -/
theorem cover9 (i : S2x512x128.Idx) :
    ∃ t : Fin cfg2.N, (cfg2.win 9).flush t = true ∧ i ∈ ((cfg2.win 9).blk t).view.set := by
  have hi0 : (i 0).val < 2 := (i 0).isLt
  have hi1 : (i 1).val < 512 := (i 1).isLt
  have hi2 : (i 2).val < 128 := (i 2).isLt
  have hlt : 25 * (i 0).val + 24 < cfg2.N := by rw [show cfg2.N = 50 from N_2]; omega
  have e0 : win2_9.index ⟨25 * (i 0).val + 24, hlt⟩ (0 : Fin 3) = (25 * (i 0).val + 24) / 25 := (idx_out ⟨25 * (i 0).val + 24, hlt⟩).1
  have e1 : win2_9.index ⟨25 * (i 0).val + 24, hlt⟩ (1 : Fin 3) = 0 := (idx_out ⟨25 * (i 0).val + 24, hlt⟩).2.1
  have e2 : win2_9.index ⟨25 * (i 0).val + 24, hlt⟩ (2 : Fin 3) = 0 := (idx_out ⟨25 * (i 0).val + 24, hlt⟩).2.2.1
  refine ⟨⟨25 * (i 0).val + 24, hlt⟩, (flush2_9 _).mpr (by show (25 * (i 0).val + 24) % 25 = 24; omega), ?_⟩
  show i ∈ ((View.whole main_v58_0).slice (win2_9.rect ⟨25 * (i 0).val + 24, hlt⟩)).set
  rw [View.set_slice_whole, Rect.mem_set_unit]
  intro a
  match a with
  | ⟨0, _⟩ =>
    show win2_9.index ⟨25 * (i 0).val + 24, hlt⟩ (0 : Fin 3) * 1 ≤ (i 0).val ∧ (i 0).val < win2_9.index ⟨25 * (i 0).val + 24, hlt⟩ (0 : Fin 3) * 1 + 1
    rw [e0]; omega
  | ⟨1, _⟩ =>
    show win2_9.index ⟨25 * (i 0).val + 24, hlt⟩ (1 : Fin 3) * 512 ≤ (i 1).val ∧ (i 1).val < win2_9.index ⟨25 * (i 0).val + 24, hlt⟩ (1 : Fin 3) * 512 + 512
    rw [e1]; omega
  | ⟨2, _⟩ =>
    show win2_9.index ⟨25 * (i 0).val + 24, hlt⟩ (2 : Fin 3) * 128 ≤ (i 2).val ∧ (i 2).val < win2_9.index ⟨25 * (i 0).val + 24, hlt⟩ (2 : Fin 3) * 128 + 128
    rw [e2]; omega

/-- Block t of result window 10, for contents X of the staging buffer that agree entry by entry with core t / 25's
    half of an array G: what is written back is that block of G. -/
theorem blk10_read (t : Fin cfg2.N) (hq : t.val / 25 < 2) (X : Vec Ideal S1x512x256 .f32) (G : S2x512x256.Idx → EReal)
    (h : ∀ (u : Fin 1) (g : Fin 512) (f : Fin 256), X (ix3 u g f) = G (ix3 (⟨t.val / 25, hq⟩ : Fin 2) g f)) :
    (cfg2.win 10).cut (grid2.coords t) X = ((cfg2.win 10).blk t).view.read (Elt Ideal) G := by
  have e0 : win2_10.index t (0 : Fin 3) = t.val / 25 := (idx_out t).2.2.2.1
  have e1 : win2_10.index t (1 : Fin 3) = 0 := (idx_out t).2.2.2.2.1
  have e2 : win2_10.index t (2 : Fin 3) = 0 := (idx_out t).2.2.2.2.2
  funext y
  have h0 : (y 0).val < 1 := (y 0).isLt
  have h1 : (y 1).val < 512 := (y 1).isLt
  have h2 : (y 2).val < 256 := (y 2).isLt
  have hx : (cfg2.win 10).xinj (grid2.coords t) y
      = ix3 (⟨(y 0).val, h0⟩ : Fin 1) (⟨(y 1).val, h1⟩ : Fin 512) (⟨(y 2).val, h2⟩ : Fin 256) :=
    funext fun a => by match a with | ⟨0, _⟩ => rfl | ⟨1, _⟩ => rfl | ⟨2, _⟩ => rfl
  have he : ((cfg2.win 10).blk t).view.emb y
      = ix3 (⟨t.val / 25, hq⟩ : Fin 2) (⟨(y 1).val, h1⟩ : Fin 512) (⟨(y 2).val, h2⟩ : Fin 256) :=
    funext fun a => Fin.ext (by
      match a with
      | ⟨0, _⟩ => show win2_10.index t (0 : Fin 3) * 1 + 1 * (y 0).val = t.val / 25; rw [e0]; omega
      | ⟨1, _⟩ => show win2_10.index t (1 : Fin 3) * 512 + 1 * (y 1).val = (y 1).val; rw [e1]; omega
      | ⟨2, _⟩ => show win2_10.index t (2 : Fin 3) * 256 + 1 * (y 2).val = (y 2).val; rw [e2]; omega)
  show X ((cfg2.win 10).xinj (grid2.coords t) y) = G (((cfg2.win 10).blk t).view.emb y)
  rw [hx, he]
  exact h _ _ _

/-- What a core's last point writes back is that core's block of the result. -/
theorem flushed10_eq (t : Fin cfg2.N) (hf : (cfg2.win 10).flush t = true) :
    (dat2 (F := Ideal) V c).flushed 10 t = ((cfg2.win 10).blk t).view.read (Elt Ideal) (G2p1 V c) := by
  have hN : t.val < 50 := lt_of_lt_of_eq t.isLt (show cfg2.N = 50 from N_2)
  have h24 : t.val % 25 = 24 := (flush2_10 t).mp hf
  have hq : t.val / 25 < 2 := by omega
  show (cfg2.win 10).cut (grid2.coords t) ((dat2 V c).after 10 t) = _
  rw [after2_10]
  exact blk10_read t hq _ (G2p1 V c) (fun u g f => core10 V c t h24 hq u g f)

/-- Every entry of the [2, 512, 256] array is in the block its core's last point writes back. -/
theorem cover10 (i : S2x512x256.Idx) :
    ∃ t : Fin cfg2.N, (cfg2.win 10).flush t = true ∧ i ∈ ((cfg2.win 10).blk t).view.set := by
  have hi0 : (i 0).val < 2 := (i 0).isLt
  have hi1 : (i 1).val < 512 := (i 1).isLt
  have hi2 : (i 2).val < 256 := (i 2).isLt
  have hlt : 25 * (i 0).val + 24 < cfg2.N := by rw [show cfg2.N = 50 from N_2]; omega
  have e0 : win2_10.index ⟨25 * (i 0).val + 24, hlt⟩ (0 : Fin 3) = (25 * (i 0).val + 24) / 25 := (idx_out ⟨25 * (i 0).val + 24, hlt⟩).2.2.2.1
  have e1 : win2_10.index ⟨25 * (i 0).val + 24, hlt⟩ (1 : Fin 3) = 0 := (idx_out ⟨25 * (i 0).val + 24, hlt⟩).2.2.2.2.1
  have e2 : win2_10.index ⟨25 * (i 0).val + 24, hlt⟩ (2 : Fin 3) = 0 := (idx_out ⟨25 * (i 0).val + 24, hlt⟩).2.2.2.2.2
  refine ⟨⟨25 * (i 0).val + 24, hlt⟩, (flush2_10 _).mpr (by show (25 * (i 0).val + 24) % 25 = 24; omega), ?_⟩
  show i ∈ ((View.whole main_v58_1).slice (win2_10.rect ⟨25 * (i 0).val + 24, hlt⟩)).set
  rw [View.set_slice_whole, Rect.mem_set_unit]
  intro a
  match a with
  | ⟨0, _⟩ =>
    show win2_10.index ⟨25 * (i 0).val + 24, hlt⟩ (0 : Fin 3) * 1 ≤ (i 0).val ∧ (i 0).val < win2_10.index ⟨25 * (i 0).val + 24, hlt⟩ (0 : Fin 3) * 1 + 1
    rw [e0]; omega
  | ⟨1, _⟩ =>
    show win2_10.index ⟨25 * (i 0).val + 24, hlt⟩ (1 : Fin 3) * 512 ≤ (i 1).val ∧ (i 1).val < win2_10.index ⟨25 * (i 0).val + 24, hlt⟩ (1 : Fin 3) * 512 + 512
    rw [e1]; omega
  | ⟨2, _⟩ =>
    show win2_10.index ⟨25 * (i 0).val + 24, hlt⟩ (2 : Fin 3) * 256 ≤ (i 2).val ∧ (i 2).val < win2_10.index ⟨25 * (i 0).val + 24, hlt⟩ (2 : Fin 3) * 256 + 256
    rw [e2]; omega

/-- Result array 9 (`main_v58_0`) after the launch: per half, the per-graph sums of x. -/
theorem arr9_eq : (dat2 (F := Ideal) V c).arrAt 9 cfg2.N = G2p0 V c :=
  (dat2 (F := Ideal) V c).arrAt_eq_of_cover 9 (G2p0 V c) (flushed9_eq V c) (cover9)

/-- Result array 10 (`main_v58_1`) after the launch: per half, the per-graph sums of h'. -/
theorem arr10_eq : (dat2 (F := Ideal) V c).arrAt 10 cfg2.N = G2p1 V c :=
  (dat2 (F := Ideal) V c).arrAt_eq_of_cover 10 (G2p1 V c) (flushed10_eq V c) (cover10)

end Cert.KernelIdeal.R2

end
-- ==== Proof.Region3.lean ====
/-
  Launch 3 (the heads), read as values: one grid point; the body multiplies the two pooled arrays by their head's
  weights, adds each head's bias row, and stores the sum of the two.
-/
import proofs.«429314_j22110491639897_3_alg».proof.Proof.Gen.KernelIdeal.Frame
import proofs.«429314_j22110491639897_3_alg».proof.Proof.KVals
import proofs.«429314_j22110491639897_3_alg».proof.Proof.LibTileSum
import proofs.«429314_j22110491639897_3_alg».proof.Proof.LibPlainMatmul
import proofs.«429314_j22110491639897_3_alg».proof.Proof.LibIdxSum
import proofs.«429314_j22110491639897_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.R3

open Cert.KernelIdeal Cert.KernelIdeal.Gen Cert.KernelIdeal.KVals Cert.Read

/-- The zero offsets of every block of this launch, as the constant-zero function. -/
theorem hz : (![0, 0] : Fin 2 → Nat) = fun _ => 0 := funext fun a => by fin_cases a <;> rfl

/-- A row [1, b] spread over the a rows of [a, b] reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The two products' dimension numbers are the plain ones: left operand contracted on its second axis, right
    operand on its first, no batch axes. -/
theorem dims0 : dot_S512x128_S128x128_S512x128_1_0_0_1_n_n = DotDims.plain 512 128 128 := rfl
theorem dims1 : dot_S512x256_S256x128_S512x128_1_0_0_1_n_n = DotDims.plain 512 256 128 := rfl

/-- ENTRY (g, o) OF WHAT THE BODY STORES, from the six loaded arrays: the first pooled array times the first head's
    weights plus its bias row, plus the same for the second head. The changes of float format are the identity on
    the extended reals, the casts to the same shape are the identity, and a bias row spread over the 512 rows reads
    its column. -/
theorem pay_apply (x0 : Vec Ideal S512x128 .f32) (x2 : Vec Ideal S128x128 .f32) (x3 : Vec Ideal S1x128 .f32)
    (x1 : Vec Ideal S512x256 .f32) (x4 : Vec Ideal S256x128 .f32) (x5 : Vec Ideal S1x128 .f32)
    (g : Fin 512) (o : Fin 128) :
    k3_pay1 (F := Ideal) x0 x2 x3 x1 x4 x5 (ix2 g o)
      = Cert.Spec.head (f2 x0) (f2 x2) (frow x3) (f2 x1) (f2 x4) (frow x5) g o := by
  unfold k3_pay1
  rw [addf_apply, addf_apply, addf_apply]
  simp only [shapeCast_self]
  rw [dims0, dims1, broadcastTo_1b_ab_apply, broadcastTo_1b_ab_apply,
    Cert.LibPlainMatmul.matmul_zero_apply, Cert.LibPlainMatmul.matmul_zero_apply]
  rfl

variable (V : (c : Dev nD) → (b : Ref sig .tc) → Buf (Elt Ideal) ((c : Thread nD τ).loc b)) (c : Dev nD)

/-- Each window's one block is its whole array: block (0, 0) of the array's own extents, read through zero offsets. -/
theorem blk0 (t : Fin cfg3.N) :
    (iblk3 V c 0 t : Vec Ideal S512x128 .f32) = (V c main_v59 : S512x128.Idx → EReal) := by
  obtain rfl := fin_N3 t
  unfold iblk3
  have hz' : (fun a => win3_0.index t3_0 a * main_v59.ty.shape.size a) = fun _ => 0 :=
    funext fun a => by fin_cases a <;> decide
  exact Memref.read_access_unit_zero (Elt Ideal) main_v59 hz' (fun a => by rw [congrFun hz' a]; simp) (V c main_v59)
theorem blk1 (t : Fin cfg3.N) :
    (iblk3 V c 1 t : Vec Ideal S512x256 .f32) = (V c main_v60 : S512x256.Idx → EReal) := by
  obtain rfl := fin_N3 t
  unfold iblk3
  have hz' : (fun a => win3_1.index t3_0 a * main_v60.ty.shape.size a) = fun _ => 0 :=
    funext fun a => by fin_cases a <;> decide
  exact Memref.read_access_unit_zero (Elt Ideal) main_v60 hz' (fun a => by rw [congrFun hz' a]; simp) (V c main_v60)
theorem blk2 (t : Fin cfg3.N) :
    (iblk3 V c 2 t : Vec Ideal S128x128 .f32) = (V c main_arg7 : S128x128.Idx → EReal) := by
  obtain rfl := fin_N3 t
  unfold iblk3
  have hz' : (fun a => win3_2.index t3_0 a * main_arg7.ty.shape.size a) = fun _ => 0 :=
    funext fun a => by fin_cases a <;> decide
  exact Memref.read_access_unit_zero (Elt Ideal) main_arg7 hz' (fun a => by rw [congrFun hz' a]; simp) (V c main_arg7)
theorem blk3 (t : Fin cfg3.N) :
    (iblk3 V c 3 t : Vec Ideal S1x128 .f32) = (V c main_v61 : S1x128.Idx → EReal) := by
  obtain rfl := fin_N3 t
  unfold iblk3
  have hz' : (fun a => win3_3.index t3_0 a * main_v61.ty.shape.size a) = fun _ => 0 :=
    funext fun a => by fin_cases a <;> decide
  exact Memref.read_access_unit_zero (Elt Ideal) main_v61 hz' (fun a => by rw [congrFun hz' a]; simp) (V c main_v61)
theorem blk4 (t : Fin cfg3.N) :
    (iblk3 V c 4 t : Vec Ideal S256x128 .f32) = (V c main_arg9 : S256x128.Idx → EReal) := by
  obtain rfl := fin_N3 t
  unfold iblk3
  have hz' : (fun a => win3_4.index t3_0 a * main_arg9.ty.shape.size a) = fun _ => 0 :=
    funext fun a => by fin_cases a <;> decide
  exact Memref.read_access_unit_zero (Elt Ideal) main_arg9 hz' (fun a => by rw [congrFun hz' a]; simp) (V c main_arg9)
theorem blk5 (t : Fin cfg3.N) :
    (iblk3 V c 5 t : Vec Ideal S1x128 .f32) = (V c main_v62 : S1x128.Idx → EReal) := by
  obtain rfl := fin_N3 t
  unfold iblk3
  have hz' : (fun a => win3_5.index t3_0 a * main_v62.ty.shape.size a) = fun _ => 0 :=
    funext fun a => by fin_cases a <;> decide
  exact Memref.read_access_unit_zero (Elt Ideal) main_v62 hz' (fun a => by rw [congrFun hz' a]; simp) (V c main_v62)

/-- WHAT THE ONE POINT WRITES BACK is the block of the two heads added: the body's one store covers its buffer with
    the payload of the six loaded blocks, each the whole of its array, and the result's block is the whole result. -/
theorem flushed6_eq (t : Fin cfg3.N) (hf : (cfg3.win 6).flush t = true) :
    (dat3 (F := Ideal) V c).flushed 6 t = ((cfg3.win 6).blk t).view.read (Elt Ideal) (G3 V c) := by
  have e0 := blk0 V c t
  have e1 := blk1 V c t
  have e2 := blk2 V c t
  have e3 := blk3 V c t
  have e4 := blk4 V c t
  have e5 := blk5 V c t
  obtain rfl := fin_N3 t
  show (cfg3.win 6).cut (grid3.coords t3_0) ((dat3 (F := Ideal) V c).after 6 t3_0) = _
  rw [after3_6]
  unfold out3_6
  rw [View.canon_unit_zero hz]
  simp only [View.ld_unit_zero (S := S512x128) hz, View.ld_unit_zero (S := S512x256) hz,
    View.ld_unit_zero (S := S128x128) hz, View.ld_unit_zero (S := S1x128) hz, View.ld_unit_zero (S := S256x128) hz]
  have hz' : (fun a => win3_6.index t3_0 a * main_v63.ty.shape.size a) = fun _ => 0 :=
    funext fun a => by fin_cases a <;> decide
  refine Eq.trans ?_ (Memref.read_access_unit_zero (Elt Ideal) main_v63 hz' (fun a => by rw [congrFun hz' a]; simp) (G3 V c)).symm
  rw [e0, e1, e2, e3, e4, e5]
  funext i
  obtain ⟨g, o, rfl⟩ : ∃ (g : Fin 512) (o : Fin 128), i = ix2 g o := ⟨i 0, i 1, eq_ix2 i⟩
  exact pay_apply (V c main_v59) (V c main_arg7) (V c main_v61) (V c main_v60) (V c main_arg9) (V c main_v62) g o

/-- Result array 6 (`main_v63`) after the launch: the two heads, added. -/
theorem arr6_eq : (dat3 (F := Ideal) V c).arrAt 6 cfg3.N = G3 V c := by
  refine (dat3 (F := Ideal) V c).arrAt_eq_of_cover 6 (G3 V c) (flushed6_eq V c) fun i => ⟨t3_0, flush3_6 t3_0, ?_⟩
  show i ∈ ((View.whole main_v63).slice (win3_6.rect t3_0)).set
  rw [View.set_slice_whole, Rect.mem_set_unit]
  intro a
  have h0 : (i 0 : Nat) < 512 := (i 0).isLt
  have h1 : (i 1 : Nat) < 128 := (i 1).isLt
  match a with
  | ⟨0, _⟩ =>
    show win3_6.index t3_0 0 * win3_6.size 0 ≤ (i 0 : Nat) ∧ (i 0 : Nat) < win3_6.index t3_0 0 * win3_6.size 0 + win3_6.xsize (grid3.coords t3_0) 0
    rw [show win3_6.index t3_0 0 * win3_6.size 0 = 0 from by decide +kernel, show win3_6.xsize (grid3.coords t3_0) 0 = 512 from by decide +kernel]
    omega
  | ⟨1, _⟩ =>
    show win3_6.index t3_0 1 * win3_6.size 1 ≤ (i 1 : Nat) ∧ (i 1 : Nat) < win3_6.index t3_0 1 * win3_6.size 1 + win3_6.xsize (grid3.coords t3_0) 1
    rw [show win3_6.index t3_0 1 * win3_6.size 1 = 0 from by decide +kernel, show win3_6.xsize (grid3.coords t3_0) 1 = 128 from by decide +kernel]
    omega

end Cert.KernelIdeal.R3

end
-- ==== Proof.KStage4.lean ====
/-
  The result buffer after the last launch, read at graph g and output channel o: the two halves' per-graph sums
  added are the per-graph sums over all the rows (a 0/1 factor selects the rows of the graph), and the heads are
  applied to them.
-/
import proofs.«429314_j22110491639897_3_alg».proof.Proof.Gen.KernelIdeal.Frame
import proofs.«429314_j22110491639897_3_alg».proof.Proof.KVals
import proofs.«429314_j22110491639897_3_alg».proof.Proof.KArgs
import proofs.«429314_j22110491639897_3_alg».proof.Proof.KStage3
import proofs.«429314_j22110491639897_3_alg».proof.Proof.Region2
import proofs.«429314_j22110491639897_3_alg».proof.Proof.Region3
import proofs.«429314_j22110491639897_3_alg».proof.Proof.LibTileSum
import proofs.«429314_j22110491639897_3_alg».proof.Proof.LibIdxSum
import proofs.«429314_j22110491639897_3_alg».proof.Proof.LibKeepdims
import proofs.«429314_j22110491639897_3_alg».proof.Proof.LibColumn
import proofs.«429314_j22110491639897_3_alg».proof.Proof.Consts
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.KS4

open Cert.KernelIdeal Cert.KernelIdeal.Gen Cert.KernelIdeal.KVals Cert.KernelIdeal.KArgs Cert.Read

variable (m : (ℓ : Loc nD τ sig) → Buf (Elt Ideal) ℓ) (ρ : Dev nD → PrngReg) (c : Dev nD)

/-- The rows of the two halves, half by half, are all the rows. -/
theorem sum_halves {M : Type} [AddCommMonoid M] (f : Fin 100000 → M) :
    (∑ n : Fin 50000, f (rowOf 0 n)) + (∑ n : Fin 50000, f (rowOf 1 n)) = ∑ r : Fin 100000, f r := by
  have h := Cert.LibTileSum.sum_tiles (a := 2) (b := 50000) f
  rw [Fin.sum_univ_two] at h
  exact h

/-- A per-graph sum written with a 0/1 factor, taken over each half and added, is the sum over the rows of the graph. -/
theorem halves_eq_pool {D : ℕ} (idv : Fin 100000 → BitVec 32) (x : Fin 100000 → Fin D → EReal) (g : Fin 512) (k : Fin D) :
    (∑ n : Fin 50000, oneHot (idv (rowOf 0 n)) g * x (rowOf 0 n) k)
        + (∑ n : Fin 50000, oneHot (idv (rowOf 1 n)) g * x (rowOf 1 n) k)
      = Cert.Spec.pool idv x g k := by
  rw [sum_halves (fun r => oneHot (idv r) g * x r k)]
  unfold Cert.Spec.pool
  rw [Finset.sum_filter]
  refine Finset.sum_congr rfl fun r _ => ?_
  unfold oneHot
  rw [ite_mul, one_mul, zero_mul]

/-- The index over (g, f) with k inserted on the dropped leading axis is (k, g, f). -/
theorem lift_d0 {n0 n1 n2 : ℕ} (h : (⟨3, ![n0, n1, n2]⟩ : Shape).Reduces [0] ⟨2, ![n1, n2]⟩) (g : Fin n1) (f : Fin n2)
    (k : Fin n0) : h.lift (ix2 g f) k = ix3 k g f := by
  funext a
  match a with
  | ⟨0, _⟩ => exact Fin.ext rfl
  | ⟨1, _⟩ => exact Fin.ext rfl
  | ⟨2, _⟩ => exact Fin.ext rfl

/-- After the third launch its two result arrays hold, per half, the per-graph sums of x … -/
theorem W6_v58_0 : W6 m ρ c (Proc.devRef .tc main_v58_0) = G2p0 (V5 m ρ) c :=
  (W6_arr m ρ c 9).trans (R2.arr9_eq (V5 m ρ) c)

/-- … and of h'. -/
theorem W6_v58_1 : W6 m ρ c (Proc.devRef .tc main_v58_1) = G2p1 (V5 m ρ) c :=
  (W6_arr m ρ c 10).trans (R2.arr10_eq (V5 m ρ) c)

/-- The first pooled array entering the last launch is the sum over the two halves (from 0) of the first result array … -/
theorem v59_raw :
    V7 m ρ c main_v59 = Host.reduceAdd (G2p0 (V5 m ρ) c) (constant (F := Ideal) S_ .f32 0x00000000#32) reducesTo_S2x512x128_S512x128_d0 h_S_ := by
  show StableHlo.after hostOps3 (W6 m ρ c) (Proc.devRef .tc main_v59) = _
  after_results
  rw [W6_v58_0]

/-- … and the second pooled array likewise of the second. -/
theorem v60_raw :
    V7 m ρ c main_v60 = Host.reduceAdd (G2p1 (V5 m ρ) c) (constant (F := Ideal) S_ .f32 0x00000000#32) reducesTo_S2x512x256_S512x256_d0 h_S_ := by
  show StableHlo.after hostOps3 (W6 m ρ c) (Proc.devRef .tc main_v60) = _
  after_results
  rw [W6_v58_1]

/-- The first pooled array at (g, f): the sum of column f of x over the rows of graph g. -/
theorem v59_apply (g : Fin 512) (f : Fin 128) :
    (V7 m ρ c main_v59 : S512x128.Idx → EReal) (ix2 g f) = Cert.Spec.pool (ids m c) (X m c) g f := by
  have hr : S2x512x128.Reduces [0] S512x128 := by decide
  rw [v59_raw]
  show Ideal.hostReduceAdd reducesTo_S2x512x128_S512x128_d0 _ _ (ix2 g f) = _
  rw [Ideal.hostReduceAdd_single reducesTo_S2x512x128_S512x128_d0 hr]
  rw [show (constant (F := Ideal) S_ .f32 0x00000000#32 (Shape.Idx.first h_S_) : EReal) = 0 from Cert.Consts.ofBits_zero,
    zero_add]
  refine (Fin.sum_univ_two (fun k : Fin 2 => G2p0 (V5 m ρ) c (hr.lift (ix2 g f) k))).trans ?_
  rw [lift_d0 hr g f 0, lift_d0 hr g f 1]
  unfold G2p0
  rw [KS3.idsA_V5, KS3.xA_V5]
  exact halves_eq_pool (ids m c) (X m c) g f

/-- The second pooled array at (g, j): the sum of column j of h' over the rows of graph g. -/
theorem v60_apply (g : Fin 512) (j : Fin 256) :
    (V7 m ρ c main_v60 : S512x256.Idx → EReal) (ix2 g j) = Cert.Spec.pool (ids m c) (H2 m c) g j := by
  have hr : S2x512x256.Reduces [0] S512x256 := by decide
  rw [v60_raw]
  show Ideal.hostReduceAdd reducesTo_S2x512x256_S512x256_d0 _ _ (ix2 g j) = _
  rw [Ideal.hostReduceAdd_single reducesTo_S2x512x256_S512x256_d0 hr]
  rw [show (constant (F := Ideal) S_ .f32 0x00000000#32 (Shape.Idx.first h_S_) : EReal) = 0 from Cert.Consts.ofBits_zero,
    zero_add]
  refine (Fin.sum_univ_two (fun k : Fin 2 => G2p1 (V5 m ρ) c (hr.lift (ix2 g j) k))).trans ?_
  rw [lift_d0 hr g j 0, lift_d0 hr g j 1]
  unfold G2p1
  rw [KS3.idsA_V5, KS3.h2K_V5]
  exact halves_eq_pool (ids m c) (H2 m c) g j

/-- The two heads' weights enter the last launch as launched. -/
theorem V7_arg7 : V7 m ρ c main_arg7 = m ((c : Thread nD τ).loc main_arg7) :=
  ((W8_arr m ρ c 2).trans (((dat3 (V7 m ρ) c).arrAt_in 2 rfl _).trans (A_eq3 (V7 m ρ) c 2))).symm.trans
    (W8_main_arg7 m ρ c)

theorem V7_arg9 : V7 m ρ c main_arg9 = m ((c : Thread nD τ).loc main_arg9) :=
  ((W8_arr m ρ c 4).trans (((dat3 (V7 m ρ) c).arrAt_in 4 rfl _).trans (A_eq3 (V7 m ρ) c 4))).symm.trans
    (W8_main_arg9 m ρ c)

/-- The two heads' biases are as launched before the last stretch of host operations. -/
theorem W6_arg8 : W6 m ρ c (Proc.devRef .tc main_arg8) = m ((c : Thread nD τ).loc main_arg8) := by
  have h7 : W7 m ρ c (Proc.devRef .tc main_arg8) = W6 m ρ c (Proc.devRef .tc main_arg8) := by
    show StableHlo.after hostOps3 (W6 m ρ c) (Proc.devRef .tc main_arg8) = _
    after_results
  rw [← h7, ← W8_of_ne m ρ c main_arg8 (by decide)]
  exact W8_main_arg8 m ρ c

theorem W6_arg10 : W6 m ρ c (Proc.devRef .tc main_arg10) = m ((c : Thread nD τ).loc main_arg10) := by
  have h7 : W7 m ρ c (Proc.devRef .tc main_arg10) = W6 m ρ c (Proc.devRef .tc main_arg10) := by
    show StableHlo.after hostOps3 (W6 m ρ c) (Proc.devRef .tc main_arg10) = _
    after_results
  rw [← h7, ← W8_of_ne m ρ c main_arg10 (by decide)]
  exact W8_main_arg10 m ρ c

/-- A vector [a] cast to a row [1, a] reads, at (u, j), the vector's entry j, whatever the unit coordinate u. -/
theorem shapeCast_a_1a_apply {α : Type} {a : ℕ} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h _ _ (by
    have hu : u.val = 0 := by omega
    rw [Shape.rowMajor_val_two, Shape.rowMajor_val_one]
    show j.val = u.val * a + j.val
    rw [hu, Nat.zero_mul, Nat.zero_add])

/-- The heads' biases, kept as rows, read at a column the biases' entries. -/
theorem v61_apply (o : Fin 128) : frow (V7 m ρ c main_v61 : S1x128.Idx → EReal) o = c0 m c o := by
  have h : V7 m ρ c main_v61
      = shapeCast S1x128 (m ((c : Thread nD τ).loc main_arg8) : S128.Idx → EReal) shapeCasts_S128_S1x128 := by
    show StableHlo.after hostOps3 (W6 m ρ c) (Proc.devRef .tc main_v61) = _
    after_results
    rw [W6_arg8]
    rfl
  rw [h]
  exact shapeCast_a_1a_apply _ _ 0 o

theorem v62_apply (o : Fin 128) : frow (V7 m ρ c main_v62 : S1x128.Idx → EReal) o = c1 m c o := by
  have h : V7 m ρ c main_v62
      = shapeCast S1x128 (m ((c : Thread nD τ).loc main_arg10) : S128.Idx → EReal) shapeCasts_S128_S1x128 := by
    show StableHlo.after hostOps3 (W6 m ρ c) (Proc.devRef .tc main_v62) = _
    after_results
    rw [W6_arg10]
    rfl
  rw [h]
  exact shapeCast_a_1a_apply _ _ 0 o

/-- THE KERNEL'S RESULT at (g, o): the fused form of the mathematics over the arguments. -/
theorem result_apply (g : Fin 512) (o : Fin 128) :
    (W8 m ρ c (Proc.devRef .tc main_v63) : S512x128.Idx → EReal) (ix2 g o)
      = Cert.Spec.scoreK nn eps (A m c) (Wm m c) (bv m c) (g1 m c) (b1 m c) (g2 m c) (b2 m c) (X m c) (ids m c)
          (W0 m c) (c0 m c) (W1 m c) (c1 m c) g o := by
  have h8 : W8 m ρ c (Proc.devRef .tc main_v63) = G3 (V7 m ρ) c :=
    (W8_arr m ρ c 6).trans (R3.arr6_eq (V7 m ρ) c)
  have e59 : f2 (V7 m ρ c main_v59 : S512x128.Idx → EReal) = Cert.Spec.pool (ids m c) (X m c) :=
    funext fun g => funext fun f => v59_apply m ρ c g f
  have e60 : f2 (V7 m ρ c main_v60 : S512x256.Idx → EReal) = Cert.Spec.pool (ids m c) (H2 m c) :=
    funext fun g => funext fun j => v60_apply m ρ c g j
  have e61 : frow (V7 m ρ c main_v61 : S1x128.Idx → EReal) = c0 m c := funext fun o => v61_apply m ρ c o
  have e62 : frow (V7 m ρ c main_v62 : S1x128.Idx → EReal) = c1 m c := funext fun o => v62_apply m ρ c o
  rw [h8]
  show Cert.Spec.head (f2 (V7 m ρ c main_v59 : S512x128.Idx → EReal)) (f2 (V7 m ρ c main_arg7 : S128x128.Idx → EReal))
      (frow (V7 m ρ c main_v61 : S1x128.Idx → EReal)) (f2 (V7 m ρ c main_v60 : S512x256.Idx → EReal))
      (f2 (V7 m ρ c main_arg9 : S256x128.Idx → EReal)) (frow (V7 m ρ c main_v62 : S1x128.Idx → EReal)) g o = _
  rw [e59, e60, e61, e62, V7_arg7, V7_arg9]
  rfl

end Cert.KernelIdeal.KS4

end
-- ==== Proof.RefTerm.lean ====
/-
  The reference's result as one term of its thirteen arguments, operation by operation as the host program spells
  them: the aggregation, the linear layer, two batch normalisations with max(·, 0), the two per-graph sums, the two
  linear heads and their sum.
-/
import proofs.«429314_j22110491639897_3_alg».proof.ReferenceIdeal
import proofs.«429314_j22110491639897_3_alg».proof.Proof.Agg

noncomputable section

open Idealize.ShloMosaic

namespace Cert.ReferenceIdeal.RefTerm

open Cert.ReferenceIdeal

variable [Facts]
open Facts₀

/-- A [256] vector as a [1, 256] row, spread over the 100000 rows. -/
def rows (v : Vec Ideal S256 .f32) : Vec Ideal S100000x256 .f32 :=
  broadcastInDim S100000x256 ![0, 1] bcast_S1x256_S100000x256_0_1 (broadcastInDim S1x256 ![1] bcast_S256_S1x256_1 v)

/-- The column means, as jnp's mean spells them: the column sums over the row count. -/
def mu (z : Vec Ideal S100000x256 .f32) : Vec Ideal S256 .f32 :=
  Host.divf (Host.reduceAdd z (constant (F := Ideal) S_ .f32 0x00000000#32) reducesTo_S100000x256_S256_d0 h_S_)
    (broadcastInDim S256 ![] bcast_S_S256 (constant (F := Ideal) S_ .f32 0x47C35000#32))

/-- The deviations from the column means inside jnp's var (the mean kept as a row). -/
def dev (z : Vec Ideal S100000x256 .f32) : Vec Ideal S100000x256 .f32 :=
  subf z (broadcastInDim S100000x256 ![0, 1] bcast_S1x256_S100000x256_0_1
    (Host.divf
      (broadcastInDim S1x256 ![1] bcast_S256_S1x256_1
        (Host.reduceAdd z (constant (F := Ideal) S_ .f32 0x00000000#32) reducesTo_S100000x256_S256_d0 h_S_))
      (broadcastInDim S1x256 ![] bcast_S_S1x256 (constant (F := Ideal) S_ .f32 0x47C35000#32))))

/-- The row count less the degrees of freedom correction (0), as jnp's var spells it. -/
def cnt : Vec Ideal S_ .f32 :=
  subf (constant (F := Ideal) S_ .f32 0x47C35000#32) (sitofp (F := Ideal) .f32 (constantI S_ 32 0#32))

/-- jnp's var over axis 0: the mean of the squared deviations where the corrected count is positive. -/
def var (z : Vec Ideal S100000x256 .f32) : Vec Ideal S256 .f32 :=
  select (broadcastInDim S256 ![] bcast_S_S256 (cmpf .ogt cnt (constant (F := Ideal) S_ .f32 0x00000000#32)))
    (Host.divf
      (Host.reduceAdd (mulf (dev z) (dev z)) (constant (F := Ideal) S_ .f32 0x00000000#32) reducesTo_S100000x256_S256_d0 h_S_)
      (broadcastInDim S256 ![] bcast_S_S256 cnt))
    (broadcastInDim S256 ![] bcast_S_S256 (id (constant (F := Ideal) S_ .f32 0x7FC00000#32)))

/-- Batch normalisation then max(·, 0), as the reference spells it. -/
def bnRelu (z : Vec Ideal S100000x256 .f32) (gamma beta : Vec Ideal S256 .f32) : Vec Ideal S100000x256 .f32 :=
  maximumf
    (addf
      (mulf
        (mulf (subf z (rows (mu z)))
          (rows (Host.rsqrt (addf (var z) (broadcastInDim S256 ![] bcast_S_S256 (constant (F := Ideal) S_ .f32 0x3727C5AC#32))))))
        (rows gamma))
      (rows beta))
    (broadcastInDim S100000x256 ![] bcast_S_S100000x256 (constant (F := Ideal) S_ .f32 0x00000000#32))

/-- The aggregation x + segment_sum(x[src], dst). -/
def agg (x : Vec Ideal S100000x128 .f32) (ei : Vec Ideal S2x1600000 .i32) : Vec Ideal S100000x128 .f32 :=
  Cert.Agg.aggOps x ei slices_S2x1600000_S1x1600000_0_0 slices_S2x1600000_S1x1600000_1_0 shapeCasts_S1x1600000_S1600000
    bcast_S_S1600000 bcast_S1600000_S1600000x1_0 bcast_S_S100000x128
    gather_S100000x128_S1600000x1_S1600000x128_1_0_n_n_0_1_1128 scatter_S100000x128_S1600000x1_S1600000x128_1_0_0_1

/-- The linear layer. -/
def lin (a : Vec Ideal S100000x128 .f32) (w : Vec Ideal S128x256 .f32) (b : Vec Ideal S256 .f32) : Vec Ideal S100000x256 .f32 :=
  addf (F := Ideal) (Host.dotGeneral (F := Ideal) (φ₁ := .f32) (φ₂ := .f32) dot_S100000x128_S128x256_S100000x256_1_0_0_1_n_n none a w) (rows b)

/-- A [128] vector as a [1, 128] row, spread over the 512 graphs. -/
def grows (v : Vec Ideal S128 .f32) : Vec Ideal S512x128 .f32 :=
  broadcastInDim S512x128 ![0, 1] bcast_S1x128_S512x128_0_1 (broadcastInDim S1x128 ![1] bcast_S128_S1x128_1 v)

/-- The per-graph sum of the input features. -/
def pool0 (x : Vec Ideal S100000x128 .f32) (ids : Vec Ideal S100000 .i32) : Vec Ideal S512x128 .f32 :=
  Host.scatterAdd scatter_S512x128_S100000x1_S100000x128_1_0_0_1
    (broadcastInDim S512x128 ![] bcast_S_S512x128 (constant (F := Ideal) S_ .f32 0x00000000#32))
    (broadcastInDim S100000x1 ![0] bcast_S100000_S100000x1_0 ids) x

/-- The per-graph sum of the hidden features. -/
def pool1 (h : Vec Ideal S100000x256 .f32) (ids : Vec Ideal S100000 .i32) : Vec Ideal S512x256 .f32 :=
  Host.scatterAdd scatter_S512x256_S100000x1_S100000x256_1_0_0_1
    (broadcastInDim S512x256 ![] bcast_S_S512x256 (constant (F := Ideal) S_ .f32 0x00000000#32))
    (broadcastInDim S100000x1 ![0] bcast_S100000_S100000x1_0 ids) h

/-- The reference's result. -/
def score (x : Vec Ideal S100000x128 .f32) (w : Vec Ideal S128x256 .f32) (b g1 b1 g2 b2 : Vec Ideal S256 .f32)
    (w0 : Vec Ideal S128x128 .f32) (c0 : Vec Ideal S128 .f32) (w1 : Vec Ideal S256x128 .f32) (c1 : Vec Ideal S128 .f32)
    (ei : Vec Ideal S2x1600000 .i32) (ids : Vec Ideal S100000 .i32) : Vec Ideal S512x128 .f32 :=
  addf (F := Ideal)
    (addf (F := Ideal) (Host.dotGeneral (F := Ideal) (φ₁ := .f32) (φ₂ := .f32) dot_S512x128_S128x128_S512x128_1_0_0_1_n_n none (pool0 x ids) w0) (grows c0))
    (addf (F := Ideal) (Host.dotGeneral (F := Ideal) (φ₁ := .f32) (φ₂ := .f32) dot_S512x256_S256x128_S512x128_1_0_0_1_n_n none
        (pool1 (bnRelu (bnRelu (lin (agg x ei) w b) g1 b1) g2 b2) ids) w1) (grows c1))

end Cert.ReferenceIdeal.RefTerm

end
-- ==== Proof.RefRun.lean ====
/-
  The reference's run: every weakly fair execution of the host program terminates with its result buffer at the
  reference's term of the launch contents of its arguments, and with the arguments unchanged. The program is a
  straight line of host operations (its outlined functions inlined at their call sites), so the run is the
  operations applied in order.
-/
import proofs.«429314_j22110491639897_3_alg».proof.ReferenceIdeal
import proofs.«429314_j22110491639897_3_alg».proof.Proof.Gen.ReferenceIdeal
import proofs.«429314_j22110491639897_3_alg».proof.Proof.RefTerm
import Idealize.ShloMosaic.Lib.StableHlo.Run
import Idealize.ShloMosaic.Lib.Tactic

noncomputable section

open Idealize.ShloMosaic Idealize.ShloMosaic.TcCoe Idealize.SL.Sem

namespace Cert.ReferenceIdeal.RefRun

open Cert.ReferenceIdeal Cert.ReferenceIdeal.Gen Idealize.ShloMosaic.StableHlo

section Program

variable {F : FTy → Type} [FloatOps F]

/-- The aggregation and the linear layer: the two rows of the edge array, the wrapped source row, the gather, the
    scatter-add into zeros, x added, the product with the weights and the bias row (22 operations, ending at main_v18). -/
abbrev opsA : List (HloOp τ sig (Elt F)) :=
  [ StableHlo.unary main_arg11 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg11 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg1 main_v15 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    StableHlo.unary main_arg2 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)) ]

/-- The first batch normalisation with max(·, 0): the column means, the variance function's nineteen operations and its
    where's three inlined at the call, the scaling and the shift, and relu's three (47 operations, ending at main_v38). -/
abbrev opsB : List (HloOp τ sig (Elt F)) :=
  [ StableHlo.nullary main_cst_1 (constant S_ .f32 0x00000000#32),
    StableHlo.binary main_v18 main_cst_1 main_v19 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_2 (constant S_ .f32 0x47C35000#32),
    StableHlo.unary main_cst_2 main_v20 (broadcastInDim S256 ![] bcast_S_S256 : (⟨S_, .f32⟩ : BufTy).Contents (Elt F) → (⟨S256, .f32⟩ : BufTy).Contents (Elt F)),
    StableHlo.binary main_v19 main_v20 main_v21 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.nullary main_call0_cst (constant S_ .f32 0x00000000#32),
    StableHlo.binary main_v18 main_call0_cst main_call0_v0 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.unary main_call0_v0 main_call0_v1 (broadcastInDim S1x256 ![1] bcast_S256_S1x256_1 : (⟨S256, .f32⟩ : BufTy).Contents (Elt F) → (⟨S1x256, .f32⟩ : BufTy).Contents (Elt F)),
    StableHlo.nullary main_call0_cst_0 (constant S_ .f32 0x47C35000#32),
    StableHlo.unary main_call0_cst_0 main_call0_v2 (broadcastInDim S1x256 ![] bcast_S_S1x256 : (⟨S_, .f32⟩ : BufTy).Contents (Elt F) → (⟨S1x256, .f32⟩ : BufTy).Contents (Elt F)),
    StableHlo.binary main_call0_v1 main_call0_v2 main_call0_v3 (Host.divf : (⟨S1x256, .f32⟩ : BufTy).Contents (Elt F) → (⟨S1x256, .f32⟩ : BufTy).Contents (Elt F) → (⟨S1x256, .f32⟩ : BufTy).Contents (Elt F)),
    StableHlo.unary main_call0_v3 main_call0_v4 (broadcastInDim S100000x256 ![0, 1] bcast_S1x256_S100000x256_0_1 : (⟨S1x256, .f32⟩ : BufTy).Contents (Elt F) → (⟨S100000x256, .f32⟩ : BufTy).Contents (Elt F)),
    StableHlo.binary main_v18 main_call0_v4 main_call0_v5 (subf : (⟨S100000x256, .f32⟩ : BufTy).Contents (Elt F) → (⟨S100000x256, .f32⟩ : BufTy).Contents (Elt F) → (⟨S100000x256, .f32⟩ : BufTy).Contents (Elt F)),
    StableHlo.binary main_call0_v5 main_call0_v5 main_call0_v6 (mulf : (⟨S100000x256, .f32⟩ : BufTy).Contents (Elt F) → (⟨S100000x256, .f32⟩ : BufTy).Contents (Elt F) → (⟨S100000x256, .f32⟩ : BufTy).Contents (Elt F)),
    StableHlo.unary main_c_3 main_call0_v7 (sitofp .f32 : (⟨S_, .i32⟩ : BufTy).Contents (Elt F) → (⟨S_, .f32⟩ : BufTy).Contents (Elt F)),
    StableHlo.nullary main_call0_cst_1 (constant S_ .f32 0x47C35000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.unary main_call0_v8 main_call0_v10 (broadcastInDim S256 ![] bcast_S_S256 : (⟨S_, .f32⟩ : BufTy).Contents (Elt F) → (⟨S256, .f32⟩ : BufTy).Contents (Elt F)),
    StableHlo.binary main_call0_v9 main_call0_v10 main_call0_v11 (Host.divf : (⟨S256, .f32⟩ : BufTy).Contents (Elt F) → (⟨S256, .f32⟩ : BufTy).Contents (Elt F) → (⟨S256, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S256 ![] bcast_S_S256 : (⟨S_, .f32⟩ : BufTy).Contents (Elt F) → (⟨S256, .f32⟩ : BufTy).Contents (Elt F)),
    StableHlo.ternary main_call0_v12 main_call0_v11 main_call0_call0_v1 main_v22 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    StableHlo.unary main_v21 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S100000x256 ![0, 1] bcast_S1x256_S100000x256_0_1 : (⟨S1x256, .f32⟩ : BufTy).Contents (Elt F) → (⟨S100000x256, .f32⟩ : BufTy).Contents (Elt F)),
    StableHlo.binary main_v18 main_v24 main_v25 (subf : (⟨S100000x256, .f32⟩ : BufTy).Contents (Elt F) → (⟨S100000x256, .f32⟩ : BufTy).Contents (Elt F) → (⟨S100000x256, .f32⟩ : BufTy).Contents (Elt F)),
    StableHlo.nullary main_cst_4 (constant S_ .f32 0x3727C5AC#32),
    StableHlo.unary main_cst_4 main_v26 (broadcastInDim S256 ![] bcast_S_S256 : (⟨S_, .f32⟩ : BufTy).Contents (Elt F) → (⟨S256, .f32⟩ : BufTy).Contents (Elt F)),
    StableHlo.binary main_v22 main_v26 main_v27 (addf : (⟨S256, .f32⟩ : BufTy).Contents (Elt F) → (⟨S256, .f32⟩ : BufTy).Contents (Elt F) → (⟨S256, .f32⟩ : BufTy).Contents (Elt F)),
    StableHlo.unary main_v27 main_v28 (Host.rsqrt : (⟨S256, .f32⟩ : BufTy).Contents (Elt F) → (⟨S256, .f32⟩ : BufTy).Contents (Elt F)),
    StableHlo.unary main_v28 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S100000x256 ![0, 1] bcast_S1x256_S100000x256_0_1 : (⟨S1x256, .f32⟩ : BufTy).Contents (Elt F) → (⟨S100000x256, .f32⟩ : BufTy).Contents (Elt F)),
    StableHlo.binary main_v25 main_v30 main_v31 (mulf : (⟨S100000x256, .f32⟩ : BufTy).Contents (Elt F) → (⟨S100000x256, .f32⟩ : BufTy).Contents (Elt F) → (⟨S100000x256, .f32⟩ : BufTy).Contents (Elt F)),
    StableHlo.unary main_arg3 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S100000x256 ![0, 1] bcast_S1x256_S100000x256_0_1 : (⟨S1x256, .f32⟩ : BufTy).Contents (Elt F) → (⟨S100000x256, .f32⟩ : BufTy).Contents (Elt F)),
    StableHlo.binary main_v31 main_v33 main_v34 (mulf : (⟨S100000x256, .f32⟩ : BufTy).Contents (Elt F) → (⟨S100000x256, .f32⟩ : BufTy).Contents (Elt F) → (⟨S100000x256, .f32⟩ : BufTy).Contents (Elt F)),
    StableHlo.unary main_arg4 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S100000x256 ![0, 1] bcast_S1x256_S100000x256_0_1 : (⟨S1x256, .f32⟩ : BufTy).Contents (Elt F) → (⟨S100000x256, .f32⟩ : BufTy).Contents (Elt F)),
    StableHlo.binary main_v34 main_v36 main_v37 (addf : (⟨S100000x256, .f32⟩ : BufTy).Contents (Elt F) → (⟨S100000x256, .f32⟩ : BufTy).Contents (Elt F) → (⟨S100000x256, .f32⟩ : BufTy).Contents (Elt F)),
    StableHlo.nullary main_call1_cst (constant S_ .f32 0x00000000#32),
    StableHlo.unary main_call1_cst main_call1_v0 (broadcastInDim S100000x256 ![] bcast_S_S100000x256 : (⟨S_, .f32⟩ : BufTy).Contents (Elt F) → (⟨S100000x256, .f32⟩ : BufTy).Contents (Elt F)),
    StableHlo.binary main_v37 main_call1_v0 main_v38 (maximumf : (⟨S100000x256, .f32⟩ : BufTy).Contents (Elt F) → (⟨S100000x256, .f32⟩ : BufTy).Contents (Elt F) → (⟨S100000x256, .f32⟩ : BufTy).Contents (Elt F)) ]

/-- The second batch normalisation with max(·, 0), the same forty-seven operations over the first one's result
    (ending at main_v58). -/
abbrev opsC : List (HloOp τ sig (Elt F)) :=
  [ StableHlo.nullary main_cst_5 (constant S_ .f32 0x00000000#32),
    StableHlo.binary main_v38 main_cst_5 main_v39 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_6 (constant S_ .f32 0x47C35000#32),
    StableHlo.unary main_cst_6 main_v40 (broadcastInDim S256 ![] bcast_S_S256 : (⟨S_, .f32⟩ : BufTy).Contents (Elt F) → (⟨S256, .f32⟩ : BufTy).Contents (Elt F)),
    StableHlo.binary main_v39 main_v40 main_v41 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.nullary main_call2_cst (constant S_ .f32 0x00000000#32),
    StableHlo.binary main_v38 main_call2_cst main_call2_v0 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.unary main_call2_v0 main_call2_v1 (broadcastInDim S1x256 ![1] bcast_S256_S1x256_1 : (⟨S256, .f32⟩ : BufTy).Contents (Elt F) → (⟨S1x256, .f32⟩ : BufTy).Contents (Elt F)),
    StableHlo.nullary main_call2_cst_0 (constant S_ .f32 0x47C35000#32),
    StableHlo.unary main_call2_cst_0 main_call2_v2 (broadcastInDim S1x256 ![] bcast_S_S1x256 : (⟨S_, .f32⟩ : BufTy).Contents (Elt F) → (⟨S1x256, .f32⟩ : BufTy).Contents (Elt F)),
    StableHlo.binary main_call2_v1 main_call2_v2 main_call2_v3 (Host.divf : (⟨S1x256, .f32⟩ : BufTy).Contents (Elt F) → (⟨S1x256, .f32⟩ : BufTy).Contents (Elt F) → (⟨S1x256, .f32⟩ : BufTy).Contents (Elt F)),
    StableHlo.unary main_call2_v3 main_call2_v4 (broadcastInDim S100000x256 ![0, 1] bcast_S1x256_S100000x256_0_1 : (⟨S1x256, .f32⟩ : BufTy).Contents (Elt F) → (⟨S100000x256, .f32⟩ : BufTy).Contents (Elt F)),
    StableHlo.binary main_v38 main_call2_v4 main_call2_v5 (subf : (⟨S100000x256, .f32⟩ : BufTy).Contents (Elt F) → (⟨S100000x256, .f32⟩ : BufTy).Contents (Elt F) → (⟨S100000x256, .f32⟩ : BufTy).Contents (Elt F)),
    StableHlo.binary main_call2_v5 main_call2_v5 main_call2_v6 (mulf : (⟨S100000x256, .f32⟩ : BufTy).Contents (Elt F) → (⟨S100000x256, .f32⟩ : BufTy).Contents (Elt F) → (⟨S100000x256, .f32⟩ : BufTy).Contents (Elt F)),
    StableHlo.unary main_c_7 main_call2_v7 (sitofp .f32 : (⟨S_, .i32⟩ : BufTy).Contents (Elt F) → (⟨S_, .f32⟩ : BufTy).Contents (Elt F)),
    StableHlo.nullary main_call2_cst_1 (constant S_ .f32 0x47C35000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.unary main_call2_v8 main_call2_v10 (broadcastInDim S256 ![] bcast_S_S256 : (⟨S_, .f32⟩ : BufTy).Contents (Elt F) → (⟨S256, .f32⟩ : BufTy).Contents (Elt F)),
    StableHlo.binary main_call2_v9 main_call2_v10 main_call2_v11 (Host.divf : (⟨S256, .f32⟩ : BufTy).Contents (Elt F) → (⟨S256, .f32⟩ : BufTy).Contents (Elt F) → (⟨S256, .f32⟩ : BufTy).Contents (Elt F)),
    StableHlo.nullary main_call2_cst_3 (constant S_ .f32 0x00000000#32),
    StableHlo.binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 (broadcastInDim S256 ![] bcast_S_S256 : (⟨S_, .f32⟩ : BufTy).Contents (Elt F) → (⟨S256, .f32⟩ : BufTy).Contents (Elt F)),
    StableHlo.ternary main_call2_v12 main_call2_v11 main_call2_call0_v1 main_v42 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    StableHlo.unary main_v41 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S100000x256 ![0, 1] bcast_S1x256_S100000x256_0_1 : (⟨S1x256, .f32⟩ : BufTy).Contents (Elt F) → (⟨S100000x256, .f32⟩ : BufTy).Contents (Elt F)),
    StableHlo.binary main_v38 main_v44 main_v45 (subf : (⟨S100000x256, .f32⟩ : BufTy).Contents (Elt F) → (⟨S100000x256, .f32⟩ : BufTy).Contents (Elt F) → (⟨S100000x256, .f32⟩ : BufTy).Contents (Elt F)),
    StableHlo.nullary main_cst_8 (constant S_ .f32 0x3727C5AC#32),
    StableHlo.unary main_cst_8 main_v46 (broadcastInDim S256 ![] bcast_S_S256 : (⟨S_, .f32⟩ : BufTy).Contents (Elt F) → (⟨S256, .f32⟩ : BufTy).Contents (Elt F)),
    StableHlo.binary main_v42 main_v46 main_v47 (addf : (⟨S256, .f32⟩ : BufTy).Contents (Elt F) → (⟨S256, .f32⟩ : BufTy).Contents (Elt F) → (⟨S256, .f32⟩ : BufTy).Contents (Elt F)),
    StableHlo.unary main_v47 main_v48 (Host.rsqrt : (⟨S256, .f32⟩ : BufTy).Contents (Elt F) → (⟨S256, .f32⟩ : BufTy).Contents (Elt F)),
    StableHlo.unary main_v48 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S100000x256 ![0, 1] bcast_S1x256_S100000x256_0_1 : (⟨S1x256, .f32⟩ : BufTy).Contents (Elt F) → (⟨S100000x256, .f32⟩ : BufTy).Contents (Elt F)),
    StableHlo.binary main_v45 main_v50 main_v51 (mulf : (⟨S100000x256, .f32⟩ : BufTy).Contents (Elt F) → (⟨S100000x256, .f32⟩ : BufTy).Contents (Elt F) → (⟨S100000x256, .f32⟩ : BufTy).Contents (Elt F)),
    StableHlo.unary main_arg5 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S100000x256 ![0, 1] bcast_S1x256_S100000x256_0_1 : (⟨S1x256, .f32⟩ : BufTy).Contents (Elt F) → (⟨S100000x256, .f32⟩ : BufTy).Contents (Elt F)),
    StableHlo.binary main_v51 main_v53 main_v54 (mulf : (⟨S100000x256, .f32⟩ : BufTy).Contents (Elt F) → (⟨S100000x256, .f32⟩ : BufTy).Contents (Elt F) → (⟨S100000x256, .f32⟩ : BufTy).Contents (Elt F)),
    StableHlo.unary main_arg6 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S100000x256 ![0, 1] bcast_S1x256_S100000x256_0_1 : (⟨S1x256, .f32⟩ : BufTy).Contents (Elt F) → (⟨S100000x256, .f32⟩ : BufTy).Contents (Elt F)),
    StableHlo.binary main_v54 main_v56 main_v57 (addf : (⟨S100000x256, .f32⟩ : BufTy).Contents (Elt F) → (⟨S100000x256, .f32⟩ : BufTy).Contents (Elt F) → (⟨S100000x256, .f32⟩ : BufTy).Contents (Elt F)),
    StableHlo.nullary main_call3_cst (constant S_ .f32 0x00000000#32),
    StableHlo.unary main_call3_cst main_call3_v0 (broadcastInDim S100000x256 ![] bcast_S_S100000x256 : (⟨S_, .f32⟩ : BufTy).Contents (Elt F) → (⟨S100000x256, .f32⟩ : BufTy).Contents (Elt F)),
    StableHlo.binary main_v57 main_call3_v0 main_v58 (maximumf : (⟨S100000x256, .f32⟩ : BufTy).Contents (Elt F) → (⟨S100000x256, .f32⟩ : BufTy).Contents (Elt F) → (⟨S100000x256, .f32⟩ : BufTy).Contents (Elt F)) ]

/-- The two per-graph sums, the two linear heads and their sum (17 operations, ending at main_v73). -/
abbrev opsD : List (HloOp τ sig (Elt F)) :=
  [ StableHlo.nullary main_cst_9 (constant S_ .f32 0x00000000#32),
    StableHlo.unary main_cst_9 main_v59 (broadcastInDim S512x128 ![] bcast_S_S512x128 : (⟨S_, .f32⟩ : BufTy).Contents (Elt F) → (⟨S512x128, .f32⟩ : BufTy).Contents (Elt F)),
    StableHlo.unary main_arg12 main_v60 (broadcastInDim S100000x1 ![0] bcast_S100000_S100000x1_0 : (⟨S100000, .i32⟩ : BufTy).Contents (Elt F) → (⟨S100000x1, .i32⟩ : BufTy).Contents (Elt F)),
    StableHlo.ternary main_v59 main_v60 main_arg0 main_v61 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_10 (constant S_ .f32 0x00000000#32),
    StableHlo.unary main_cst_10 main_v62 (broadcastInDim S512x256 ![] bcast_S_S512x256 : (⟨S_, .f32⟩ : BufTy).Contents (Elt F) → (⟨S512x256, .f32⟩ : BufTy).Contents (Elt F)),
    StableHlo.unary main_arg12 main_v63 (broadcastInDim S100000x1 ![0] bcast_S100000_S100000x1_0 : (⟨S100000, .i32⟩ : BufTy).Contents (Elt F) → (⟨S100000x1, .i32⟩ : BufTy).Contents (Elt F)),
    StableHlo.ternary main_v62 main_v63 main_v58 main_v64 ((fun x i u => Host.scatterAdd scatter_S512x256_S100000x1_S100000x256_1_0_0_1 x i u) : (⟨S512x256, .f32⟩ : BufTy).Contents (Elt F) → (⟨S100000x1, .i32⟩ : BufTy).Contents (Elt F) → (⟨S100000x256, .f32⟩ : BufTy).Contents (Elt F) → (⟨S512x256, .f32⟩ : BufTy).Contents (Elt F)),
    StableHlo.binary main_v61 main_arg7 main_v65 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.unary main_arg8 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S512x128 ![0, 1] bcast_S1x128_S512x128_0_1 : (⟨S1x128, .f32⟩ : BufTy).Contents (Elt F) → (⟨S512x128, .f32⟩ : BufTy).Contents (Elt F)),
    StableHlo.binary main_v65 main_v67 main_v68 (addf : (⟨S512x128, .f32⟩ : BufTy).Contents (Elt F) → (⟨S512x128, .f32⟩ : BufTy).Contents (Elt F) → (⟨S512x128, .f32⟩ : BufTy).Contents (Elt F)),
    StableHlo.binary main_v64 main_arg9 main_v69 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    StableHlo.unary main_arg10 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S512x128 ![0, 1] bcast_S1x128_S512x128_0_1 : (⟨S1x128, .f32⟩ : BufTy).Contents (Elt F) → (⟨S512x128, .f32⟩ : BufTy).Contents (Elt F)),
    StableHlo.binary main_v69 main_v71 main_v72 (addf : (⟨S512x128, .f32⟩ : BufTy).Contents (Elt F) → (⟨S512x128, .f32⟩ : BufTy).Contents (Elt F) → (⟨S512x128, .f32⟩ : BufTy).Contents (Elt F)),
    StableHlo.binary main_v68 main_v72 main_v73 (addf : (⟨S512x128, .f32⟩ : BufTy).Contents (Elt F) → (⟨S512x128, .f32⟩ : BufTy).Contents (Elt F) → (⟨S512x128, .f32⟩ : BufTy).Contents (Elt F)) ]

/-- The program's 133 operations, in order. -/
abbrev ops : List (HloOp τ sig (Elt F)) := opsA ++ (opsB ++ (opsC ++ opsD))

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only. -/

theorem opsA_sub : (opsA : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    unary_bufs_sub .., ternary_bufs_sub .., binary_bufs_sub .., binary_bufs_sub .., unary_bufs_sub ..,
    unary_bufs_sub .., binary_bufs_sub ..⟩

theorem opsB_sub : (opsB : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub ..,
    binary_bufs_sub ..⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub ..,
    binary_bufs_sub ..⟩

theorem opsD_sub : (opsD : List (HloOp τ sig (Elt F))).Forall fun op => op.bufs ⊆ tcRefs τ sig :=
  ⟨nullary_bufs_sub .., unary_bufs_sub .., unary_bufs_sub .., ternary_bufs_sub .., nullary_bufs_sub ..,
    unary_bufs_sub .., unary_bufs_sub .., ternary_bufs_sub .., binary_bufs_sub .., unary_bufs_sub ..,
    unary_bufs_sub .., binary_bufs_sub .., binary_bufs_sub .., unary_bufs_sub .., unary_bufs_sub ..,
    binary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    rcases List.mem_append.mp h with h | h
    · exact List.forall_iff_forall_mem.mp opsC_sub op h
    · exact List.forall_iff_forall_mem.mp opsD_sub op h

/-! What each stage writes, and that it writes nothing else: a buffer outside the list keeps its contents. -/

/-- The buffers stage A writes. -/
abbrev WA : List (Ref sig .tc) :=
  [main_v0, main_v1, main_v2, main_v3, main_c, main_v4, main_v5, main_c_0, main_v6, main_v7, main_v8, main_v9,
   main_v10, main_cst, main_v11, main_v12, main_v13, main_v14, main_v15, main_v16, main_v17, main_v18]

theorem opsA_writes :
    (opsA : List (HloOp τ sig (Elt F))).Forall fun op => op.writes ⊆ (WA.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keepA (W : Valuation τ sig (Elt F)) (r : Ref sig .tc) (h : r ∉ WA) :
    after opsA W (Proc.devRef .tc r) = W (Proc.devRef .tc r) :=
  after_of_writes_sub opsA W opsA_writes h

/-- The buffers stage B writes. -/
abbrev WB : List (Ref sig .tc) :=
  [main_cst_1, main_v19, main_cst_2, main_v20, main_v21, main_c_3, main_call0_cst, main_call0_v0, main_call0_v1,
   main_call0_cst_0, main_call0_v2, main_call0_v3, main_call0_v4, main_call0_v5, main_call0_v6, main_call0_v7,
   main_call0_cst_1, main_call0_v8, main_call0_cst_2, main_call0_v9, main_call0_v10, main_call0_v11, main_call0_cst_3,
   main_call0_v12, main_call0_cst_4, main_call0_call0_v0, main_call0_call0_v1, main_v22, main_v23, main_v24, main_v25,
   main_cst_4, main_v26, main_v27, main_v28, main_v29, main_v30, main_v31, main_v32, main_v33, main_v34, main_v35,
   main_v36, main_v37, main_call1_cst, main_call1_v0, main_v38]

theorem opsB_writes :
    (opsB : List (HloOp τ sig (Elt F))).Forall fun op => op.writes ⊆ (WB.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keepB (W : Valuation τ sig (Elt F)) (r : Ref sig .tc) (h : r ∉ WB) :
    after opsB W (Proc.devRef .tc r) = W (Proc.devRef .tc r) :=
  after_of_writes_sub opsB W opsB_writes h

/-- The buffers stage C writes. -/
abbrev WC : List (Ref sig .tc) :=
  [main_cst_5, main_v39, main_cst_6, main_v40, main_v41, main_c_7, main_call2_cst, main_call2_v0, main_call2_v1,
   main_call2_cst_0, main_call2_v2, main_call2_v3, main_call2_v4, main_call2_v5, main_call2_v6, main_call2_v7,
   main_call2_cst_1, main_call2_v8, main_call2_cst_2, main_call2_v9, main_call2_v10, main_call2_v11, main_call2_cst_3,
   main_call2_v12, main_call2_cst_4, main_call2_call0_v0, main_call2_call0_v1, main_v42, main_v43, main_v44, main_v45,
   main_cst_8, main_v46, main_v47, main_v48, main_v49, main_v50, main_v51, main_v52, main_v53, main_v54, main_v55,
   main_v56, main_v57, main_call3_cst, main_call3_v0, main_v58]

theorem opsC_writes :
    (opsC : List (HloOp τ sig (Elt F))).Forall fun op => op.writes ⊆ (WC.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keepC (W : Valuation τ sig (Elt F)) (r : Ref sig .tc) (h : r ∉ WC) :
    after opsC W (Proc.devRef .tc r) = W (Proc.devRef .tc r) :=
  after_of_writes_sub opsC W opsC_writes h

/-- The buffers stage D writes. -/
abbrev WD : List (Ref sig .tc) :=
  [main_cst_9, main_v59, main_v60, main_v61, main_cst_10, main_v62, main_v63, main_v64, main_v65, main_v66, main_v67,
   main_v68, main_v69, main_v70, main_v71, main_v72, main_v73]

theorem opsD_writes :
    (opsD : List (HloOp τ sig (Elt F))).Forall fun op => op.writes ⊆ (WD.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keepD (W : Valuation τ sig (Elt F)) (r : Ref sig .tc) (h : r ∉ WD) :
    after opsD W (Proc.devRef .tc r) = W (Proc.devRef .tc r) :=
  after_of_writes_sub opsD W opsD_writes h

/-- Two lines in a row: the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) : after ops V = after opsD (after opsC (after opsB (after opsA V))) := by
  show after (opsA ++ (opsB ++ (opsC ++ opsD))) V = _
  rw [after_app, after_app, after_app]

/-- A buffer no stage writes keeps its contents through the whole program. -/
theorem keep (V : Valuation τ sig (Elt F)) (r : Ref sig .tc) (hA : r ∉ WA) (hB : r ∉ WB) (hC : r ∉ WC) (hD : r ∉ WD) :
    after ops V (Proc.devRef .tc r) = V (Proc.devRef .tc r) := by
  rw [after_ops, keepD _ r hD, keepC _ r hC, keepB _ r hB, keepA _ r hA]

set_option maxRecDepth 16384 in
/-- The program is that straight line: the outlined functions' bodies unfolded at their calls are the listed operations
    over the calls' buffers, both sides the same chain of host steps. -/
theorem main_eq (c : Dev nD) : main (F := F) c = seq ops := rfl

end Program

/-! ## The stages' results at the extended reals -/

section Results

attribute [local irreducible] Host.gather Host.scatterAdd Host.reduceAdd Host.divf Host.rsqrt

set_option maxRecDepth 8192 in
/-- After the first stage main_v18 holds the linear layer of the aggregation. -/
theorem resA (W : Valuation τ sig (Elt Ideal)) :
    after (opsA (F := Ideal)) W (Proc.devRef .tc main_v18)
      = RefTerm.lin (RefTerm.agg (W (Proc.devRef .tc main_arg0)) (W (Proc.devRef .tc main_arg11))) (W (Proc.devRef .tc main_arg1)) (W (Proc.devRef .tc main_arg2)) := by
  after_results_simp
  rfl

set_option maxRecDepth 8192 in
/-- After the second stage main_v38 holds the first batch normalisation with max(·, 0) of main_v18. -/
theorem resB (W : Valuation τ sig (Elt Ideal)) :
    after (opsB (F := Ideal)) W (Proc.devRef .tc main_v38)
      = RefTerm.bnRelu (W (Proc.devRef .tc main_v18)) (W (Proc.devRef .tc main_arg3)) (W (Proc.devRef .tc main_arg4)) := by
  after_results_simp
  rfl

set_option maxRecDepth 8192 in
/-- After the third stage main_v58 holds the second batch normalisation with max(·, 0) of main_v38. -/
theorem resC (W : Valuation τ sig (Elt Ideal)) :
    after (opsC (F := Ideal)) W (Proc.devRef .tc main_v58)
      = RefTerm.bnRelu (W (Proc.devRef .tc main_v38)) (W (Proc.devRef .tc main_arg5)) (W (Proc.devRef .tc main_arg6)) := by
  after_results_simp
  rfl

set_option maxRecDepth 8192 in
/-- After the last stage main_v73 holds the sum of the two heads over the per-graph sums of x and of main_v58. -/
theorem resD (W : Valuation τ sig (Elt Ideal)) :
    after (opsD (F := Ideal)) W (Proc.devRef .tc main_v73)
      = addf (F := Ideal)
          (addf (F := Ideal) (Host.dotGeneral (F := Ideal) (φ₁ := .f32) (φ₂ := .f32) dot_S512x128_S128x128_S512x128_1_0_0_1_n_n none
            (RefTerm.pool0 (W (Proc.devRef .tc main_arg0)) (W (Proc.devRef .tc main_arg12))) (W (Proc.devRef .tc main_arg7))) (RefTerm.grows (W (Proc.devRef .tc main_arg8))))
          (addf (F := Ideal) (Host.dotGeneral (F := Ideal) (φ₁ := .f32) (φ₂ := .f32) dot_S512x256_S256x128_S512x128_1_0_0_1_n_n none
            (RefTerm.pool1 (W (Proc.devRef .tc main_v58)) (W (Proc.devRef .tc main_arg12))) (W (Proc.devRef .tc main_arg9))) (RefTerm.grows (W (Proc.devRef .tc main_arg10)))) := by
  after_results_simp
  rfl

/-- The whole program: main_v73 ends at the reference's term of the arguments' contents. -/
theorem score_eq (V : Valuation τ sig (Elt Ideal)) :
    after (ops (F := Ideal)) V (Proc.devRef .tc main_v73)
      = RefTerm.score (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) := by
  rw [after_ops, resD, resC,
    keepC _ main_arg0 (by decide), keepC _ main_arg12 (by decide), keepC _ main_arg7 (by decide), keepC _ main_arg8 (by decide), keepC _ main_arg9 (by decide), keepC _ main_arg10 (by decide),
    resB,
    keepB _ main_arg0 (by decide), keepB _ main_arg12 (by decide), keepB _ main_arg7 (by decide), keepB _ main_arg8 (by decide), keepB _ main_arg9 (by decide), keepB _ main_arg10 (by decide), keepB _ main_arg5 (by decide), keepB _ main_arg6 (by decide),
    resA,
    keepA _ main_arg0 (by decide), keepA _ main_arg12 (by decide), keepA _ main_arg7 (by decide), keepA _ main_arg8 (by decide), keepA _ main_arg9 (by decide), keepA _ main_arg10 (by decide), keepA _ main_arg5 (by decide), keepA _ main_arg6 (by decide), keepA _ main_arg3 (by decide), keepA _ main_arg4 (by decide)]
  rfl

end Results

/-- THE RUN of the reference at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73)
        = RefTerm.score (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c => ⟨(h c main_v73).trans (score_eq (launchContents m c)),
      (h c main_arg0).trans (keep (launchContents m c) main_arg0 (by decide) (by decide) (by decide) (by decide)),
      (h c main_arg1).trans (keep (launchContents m c) main_arg1 (by decide) (by decide) (by decide) (by decide)),
      (h c main_arg2).trans (keep (launchContents m c) main_arg2 (by decide) (by decide) (by decide) (by decide)),
      (h c main_arg3).trans (keep (launchContents m c) main_arg3 (by decide) (by decide) (by decide) (by decide)),
      (h c main_arg4).trans (keep (launchContents m c) main_arg4 (by decide) (by decide) (by decide) (by decide)),
      (h c main_arg5).trans (keep (launchContents m c) main_arg5 (by decide) (by decide) (by decide) (by decide)),
      (h c main_arg6).trans (keep (launchContents m c) main_arg6 (by decide) (by decide) (by decide) (by decide)),
      (h c main_arg7).trans (keep (launchContents m c) main_arg7 (by decide) (by decide) (by decide) (by decide)),
      (h c main_arg8).trans (keep (launchContents m c) main_arg8 (by decide) (by decide) (by decide) (by decide)),
      (h c main_arg9).trans (keep (launchContents m c) main_arg9 (by decide) (by decide) (by decide) (by decide)),
      (h c main_arg10).trans (keep (launchContents m c) main_arg10 (by decide) (by decide) (by decide) (by decide)),
      (h c main_arg11).trans (keep (launchContents m c) main_arg11 (by decide) (by decide) (by decide) (by decide)),
      (h c main_arg12).trans (keep (launchContents m c) main_arg12 (by decide) (by decide) (by decide) (by decide))⟩)
    (run_seq scopedRefs_eq scopedSems_eq (defs (F := Ideal)) (main (F := Ideal)) (fun _ => ops) main_eq (fun _ => ops_sub) m ρ)

end Cert.ReferenceIdeal.RefRun

end
-- ==== Proof.RefRead.lean ====
/-
  The reference's term read at one entry (g, o): the textbook form of the mathematics.
-/
import proofs.«429314_j22110491639897_3_alg».proof.ReferenceIdeal
import proofs.«429314_j22110491639897_3_alg».proof.Proof.Gen.ReferenceIdeal
import proofs.«429314_j22110491639897_3_alg».proof.Proof.RefTerm
import proofs.«429314_j22110491639897_3_alg».proof.Proof.Spec
import proofs.«429314_j22110491639897_3_alg».proof.Proof.Read
import proofs.«429314_j22110491639897_3_alg».proof.Proof.Consts
import proofs.«429314_j22110491639897_3_alg».proof.Proof.Agg
import proofs.«429314_j22110491639897_3_alg».proof.Proof.LibSegmentSum
import proofs.«429314_j22110491639897_3_alg».proof.Proof.LibIdxSum
import proofs.«429314_j22110491639897_3_alg».proof.Proof.LibColumn
import proofs.«429314_j22110491639897_3_alg».proof.Proof.LibPlainMatmul
import Idealize.ShloMosaic.PureOps.Ideal.Laws
import Idealize.ShloMosaic.Lib.ValueIdx
import Idealize.ShloMosaic.Lib.IdealHost
import Idealize.ShloMosaic.Lib.Pipeline.Value

noncomputable section

open scoped BigOperators
open Idealize.ShloMosaic Idealize.ShloMosaic.ValueIdx

namespace Cert.ReferenceIdeal.RefRead

open Cert.ReferenceIdeal Cert.ReferenceIdeal.Gen

/-! ## Layout readings -/

section Layout
variable {α : Type}

/-- A vector [a] spread along dims = [1] into a row [1, a] reads, at (u, j), the vector's entry j. -/
theorem bcast_vec_row_apply {a : ℕ} (x : (⟨1, ![a]⟩ : Shape).Idx → α)
    (h : (⟨1, ![a]⟩ : Shape).BroadcastsInDim ⟨2, ![1, a]⟩ (![1] : Fin 1 → Fin 2)) (u : Fin 1) (j : Fin a) :
    broadcastInDim ⟨2, ![1, a]⟩ ![1] h x (ix2 u j) = x (ix1 j) := by
  refine broadcastInDim_apply _ h x (ix2 u j) (ix1 j) fun ax => ?_
  match ax with
  | ⟨0, _⟩ =>
    show j.val = if a = 1 then 0 else j.val
    split
    · have := j.isLt; omega
    · rfl

/-- A row [1, a] spread along dims = [0, 1] over n rows reads, at (r, j), the row's entry (0, j). -/
theorem bcast_row_rows_apply {a n : ℕ} (x : (⟨2, ![1, a]⟩ : Shape).Idx → α)
    (h : (⟨2, ![1, a]⟩ : Shape).BroadcastsInDim ⟨2, ![n, a]⟩ (![0, 1] : Fin 2 → Fin 2)) (r : Fin n) (j : Fin a) :
    broadcastInDim ⟨2, ![n, a]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if a = 1 then 0 else j.val
    split
    · have := j.isLt; omega
    · rfl

end Layout

/-- The column sum as the host spells it: the initial value plus the sum over the rows. -/
theorem colsum_apply {n a : ℕ} (z : FVec Ideal ⟨2, ![n, a]⟩ .f32) (init : FVec Ideal ⟨0, ![]⟩ .f32)
    (h' : (⟨2, ![n, a]⟩ : Shape).ReducesTo [0] ⟨1, ![a]⟩) (h : (⟨2, ![n, a]⟩ : Shape).Reduces [0] ⟨1, ![a]⟩)
    (hu : 0 < (⟨0, ![]⟩ : Shape).numel) (j : Fin a) :
    Host.reduceAdd z init h' hu (ix1 j) = init ix0 + ∑ r : Fin n, z (ix2 r j) := by
  rw [hostReduceAdd_apply, Ideal.hostReduceAdd_single h' h, eq_ix0 (Shape.Idx.first hu)]
  refine congrArg (fun t => init ix0 + t) ?_
  refine Finset.sum_congr rfl fun r _ => congrArg z ?_
  funext d
  refine Fin.ext ?_
  match d with
  | ⟨0, _⟩ => rfl
  | ⟨1, _⟩ => rfl

/-! ## The constants -/

/-- The node count, as the program spells it. -/
local notation "nn" => Ideal.ofBits FTy.f32 0x47C35000#32
/-- The small constant under the square root, as the program spells it. -/
local notation "eps" => Ideal.ofBits FTy.f32 0x3727C5AC#32

/-- The node count is positive. -/
theorem nn_pos : (0 : EReal) < nn := by
  show (0 : EReal) < Ideal.ofBits .f32 0x47C35000#32
  rw [Cert.Consts.ofBits_n]
  exact EReal.coe_pos.mpr (by norm_num)

/-! ## The term's parts read at an entry -/

/-- A [256] vector spread over the rows reads its entry j at (r, j). -/
theorem rows_apply (v : Vec Ideal S256 .f32) (r : Fin 100000) (j : Fin 256) :
    RefTerm.rows v (ix2 r j) = v (ix1 j) := by
  unfold RefTerm.rows
  rw [bcast_row_rows_apply, bcast_vec_row_apply]

/-- A [128] vector spread over the graphs reads its entry o at (g, o). -/
theorem grows_apply (v : Vec Ideal S128 .f32) (g : Fin 512) (o : Fin 128) :
    RefTerm.grows v (ix2 g o) = v (ix1 o) := by
  unfold RefTerm.grows
  rw [bcast_row_rows_apply, bcast_vec_row_apply]

/-- The column sum from +0.0 is the sum over the rows. -/
theorem colsum0_apply (z : Vec Ideal S100000x256 .f32) (j : Fin 256) :
    Host.reduceAdd z (constant (F := Ideal) S_ .f32 0x00000000#32) Facts₀.reducesTo_S100000x256_S256_d0 Facts₀.h_S_ (ix1 j)
      = ∑ r : Fin 100000, z (ix2 r j) := by
  rw [colsum_apply z _ _ (by decide)]
  show Ideal.ofBits .f32 0x00000000#32 + _ = _
  rw [Cert.Consts.ofBits_zero, zero_add]

/-- The column mean. -/
theorem mu_apply (z : Vec Ideal S100000x256 .f32) (j : Fin 256) :
    RefTerm.mu z (ix1 j) = Cert.Spec.mean nn (Cert.Read.f2 z) j := by
  unfold RefTerm.mu Cert.Spec.mean
  rw [hostDivf_apply, colsum0_apply, broadcastInDim_scalar_apply]
  rfl

/-- The deviation from the column mean. -/
theorem dev_apply (z : Vec Ideal S100000x256 .f32) (r : Fin 100000) (j : Fin 256) :
    RefTerm.dev z (ix2 r j) = Cert.Read.f2 z r j - Cert.Spec.mean nn (Cert.Read.f2 z) j := by
  unfold RefTerm.dev Cert.Spec.mean
  rw [subf_apply, bcast_row_rows_apply, hostDivf_apply, bcast_vec_row_apply, colsum0_apply, broadcastInDim_scalar_apply]
  rfl

/-- The corrected count is the node count: 100000 − 0. -/
theorem cnt_apply (i : S_.Idx) : RefTerm.cnt i = nn := by
  unfold RefTerm.cnt
  rw [subf_apply, sitofp_apply]
  show Ideal.ofBits .f32 0x47C35000#32 - (((0#32 : BitVec 32).toInt : ℝ) : EReal) = _
  rw [show (0#32 : BitVec 32).toInt = 0 from rfl, Int.cast_zero, EReal.coe_zero, sub_zero]

/-- The variance: the mean of the squared deviations (the corrected count is positive). -/
theorem var_apply (z : Vec Ideal S100000x256 .f32) (j : Fin 256) :
    RefTerm.var z (ix1 j) = Cert.Spec.varR nn (Cert.Read.f2 z) j := by
  unfold RefTerm.var Cert.Spec.varR
  rw [select_apply, broadcastInDim_scalar_apply, cmpf_apply, cnt_apply]
  have hc : FloatOps.cmpf (F := Ideal) (φ := .f32) .ogt nn (constant (F := Ideal) S_ .f32 0x00000000#32 ix0) = 1#1 := by
    show Ideal.cmp .ogt nn (Ideal.ofBits .f32 0x00000000#32) = 1#1
    rw [Cert.Consts.ofBits_zero]
    unfold Ideal.cmp
    rw [decide_eq_true nn_pos]
    rfl
  rw [hc, select_one, hostDivf_apply, colsum0_apply, broadcastInDim_scalar_apply, cnt_apply]
  refine congrArg (fun t => Ideal.div t nn) ?_
  refine Finset.sum_congr rfl fun r _ => ?_
  rw [mulf_apply, dev_apply]

/-- Batch normalisation then max(·, 0), as a function of plain coordinates. -/
theorem bnRelu_read (z : Vec Ideal S100000x256 .f32) (gamma beta : Vec Ideal S256 .f32) :
    Cert.Read.f2 (RefTerm.bnRelu z gamma beta)
      = Cert.Spec.bnR nn eps (Cert.Read.f1 gamma) (Cert.Read.f1 beta) (Cert.Read.f2 z) := by
  funext r j
  show RefTerm.bnRelu z gamma beta (ix2 r j) = _
  unfold RefTerm.bnRelu Cert.Spec.bnR
  rw [maximumf_apply, addf_apply, mulf_apply, mulf_apply, subf_apply, rows_apply, rows_apply, rows_apply, rows_apply,
    mu_apply, broadcastInDim_scalar_apply]
  have hr : ∀ (v : FVec Ideal S256 .f32) (i : S256.Idx), Host.rsqrt v i = Ideal.rsqrt (v i) := fun _ _ => rfl
  rw [hr, addf_apply, var_apply, broadcastInDim_scalar_apply, constant_apply, constant_apply, Cert.Consts.ofBits_zero]
  rfl

/-! ## The two products, the aggregation and the per-graph sums -/

/-- Entry (a, b) of a host product of an M×K by a K×N array: ∑ₖ l(a, k) · r(k, b). -/
theorem dot_plain_apply (M K N : Nat) (prec : Option ContractPrecision)
    (l : FVec Ideal ⟨2, ![M, K]⟩ .f32) (r : FVec Ideal ⟨2, ![K, N]⟩ .f32) (a : Fin M) (b : Fin N) :
    Host.dotGeneral (F := Ideal) (DotDims.plain M K N) prec l r (ix2 a b) = ∑ k : Fin K, l (ix2 a k) * r (ix2 k b) := by
  show FloatOps.dotGeneral (DotDims.plain M K N) prec .single l r (ix2 a b) = _
  rw [Ideal.dotGeneral_apply, ← Equiv.sum_comp (contrEquiv1 (DotDims.plain M K N) K rfl rfl).symm]
  refine Finset.sum_congr rfl fun k _ => ?_
  rw [Cert.LibPlainMatmul.lhsIdx_plain, Cert.LibPlainMatmul.rhsIdx_plain]

/-- The linear layer, as a function of plain coordinates. -/
theorem lin_read (a : Vec Ideal S100000x128 .f32) (w : Vec Ideal S128x256 .f32) (b : Vec Ideal S256 .f32) :
    Cert.Read.f2 (RefTerm.lin a w b) = Cert.Spec.lin (Cert.Read.f2 a) (Cert.Read.f2 w) (Cert.Read.f1 b) := by
  funext r j
  show RefTerm.lin a w b (ix2 r j) = _
  unfold RefTerm.lin Cert.Spec.lin
  have hd : dot_S100000x128_S128x256_S100000x256_1_0_0_1_n_n = DotDims.plain 100000 128 256 := rfl
  rw [addf_apply, rows_apply, hd, dot_plain_apply]
  rfl

/-- The aggregation, as a function of plain coordinates. -/
theorem agg_read (x : Vec Ideal S100000x128 .f32) (ei : Vec Ideal S2x1600000 .i32) :
    Cert.Read.f2 (RefTerm.agg x ei) = Cert.Agg.aggF (Cert.Read.f2 x) ei := by
  funext r k
  show RefTerm.agg x ei (ix2 r k) = _
  unfold RefTerm.agg
  have hg : gather_S100000x128_S1600000x1_S1600000x128_1_0_n_n_0_1_1128
      = Cert.LibRowGather.rowDims 100000 128 1600000 Facts₀.gather_S100000x128_S1600000x1_S1600000x128_1_0_n_n_0_1_1128_wf := rfl
  have hs : scatter_S100000x128_S1600000x1_S1600000x128_1_0_0_1
      = Cert.RowIndex.rowScatterDims 100000 128 1600000 Facts₀.scatter_S100000x128_S1600000x1_S1600000x128_1_0_0_1_wf := rfl
  rw [hg, hs, Cert.Agg.aggOps_apply]
  rfl

/-- A per-graph sum of rows into a zero array, read at (g, k). -/
theorem pool_apply {D : ℕ} (wf : ScatterDims.WF ⟨2, ![512, D]⟩ ⟨2, ![100000, 1]⟩ ⟨2, ![100000, D]⟩ [1] [0] [0] 1)
    (hz : S_.BroadcastsInDim ⟨2, ![512, D]⟩ (![] : Fin 0 → Fin 2))
    (hb : S100000.BroadcastsInDim S100000x1 (![0] : Fin 1 → Fin 2))
    (h : FVec Ideal ⟨2, ![100000, D]⟩ .f32) (ids : IVec S100000 32) (g : Fin 512) (k : Fin D) :
    Host.scatterAdd (Cert.RowIndex.rowScatterDims 512 D 100000 wf)
        (broadcastInDim ⟨2, ![512, D]⟩ ![] hz (constant (F := Ideal) S_ .f32 0x00000000#32))
        (broadcastInDim S100000x1 ![0] hb ids) h (ix2 g k)
      = Cert.Spec.pool (Cert.Read.i1 ids) (Cert.Read.f2 h) g k := by
  rw [Cert.LibSegmentSum.scatterAdd_row_apply, broadcastInDim_scalar_apply, constant_apply, Cert.Consts.ofBits_zero, zero_add]
  unfold Cert.Spec.pool
  refine Finset.sum_congr (Finset.filter_congr fun e _ => ?_) fun e _ => rfl
  rw [Cert.LibColumn.broadcastInDim_a_a1_apply]
  rfl

/-- The per-graph sum of the input features, as a function of plain coordinates. -/
theorem pool0_read (x : Vec Ideal S100000x128 .f32) (ids : Vec Ideal S100000 .i32) :
    Cert.Read.f2 (RefTerm.pool0 x ids) = Cert.Spec.pool (Cert.Read.i1 ids) (Cert.Read.f2 x) := by
  funext g k
  show RefTerm.pool0 x ids (ix2 g k) = _
  unfold RefTerm.pool0
  have hs : scatter_S512x128_S100000x1_S100000x128_1_0_0_1
      = Cert.RowIndex.rowScatterDims 512 128 100000 Facts₀.scatter_S512x128_S100000x1_S100000x128_1_0_0_1_wf := rfl
  rw [hs]
  exact pool_apply _ _ _ x ids g k

/-- The per-graph sum of the hidden features, as a function of plain coordinates. -/
theorem pool1_read (h : Vec Ideal S100000x256 .f32) (ids : Vec Ideal S100000 .i32) :
    Cert.Read.f2 (RefTerm.pool1 h ids) = Cert.Spec.pool (Cert.Read.i1 ids) (Cert.Read.f2 h) := by
  funext g k
  show RefTerm.pool1 h ids (ix2 g k) = _
  unfold RefTerm.pool1
  have hs : scatter_S512x256_S100000x1_S100000x256_1_0_0_1
      = Cert.RowIndex.rowScatterDims 512 256 100000 Facts₀.scatter_S512x256_S100000x1_S100000x256_1_0_0_1_wf := rfl
  rw [hs]
  exact pool_apply _ _ _ h ids g k

/-- THE READING of the reference's result at graph g and output channel o. -/
theorem score_apply (x : Vec Ideal S100000x128 .f32) (w : Vec Ideal S128x256 .f32) (b g1 b1 g2 b2 : Vec Ideal S256 .f32)
    (w0 : Vec Ideal S128x128 .f32) (c0 : Vec Ideal S128 .f32) (w1 : Vec Ideal S256x128 .f32) (c1 : Vec Ideal S128 .f32)
    (ei : Vec Ideal S2x1600000 .i32) (ids : Vec Ideal S100000 .i32) (g : Fin 512) (o : Fin 128) :
    RefTerm.score x w b g1 b1 g2 b2 w0 c0 w1 c1 ei ids (ix2 g o)
      = Cert.Spec.scoreR (Ideal.ofBits .f32 0x47C35000#32) (Ideal.ofBits .f32 0x3727C5AC#32)
          (Cert.Agg.aggF (Cert.Read.f2 x) ei) (Cert.Read.f2 w) (Cert.Read.f1 b) (Cert.Read.f1 g1) (Cert.Read.f1 b1)
          (Cert.Read.f1 g2) (Cert.Read.f1 b2) (Cert.Read.f2 x) (Cert.Read.i1 ids)
          (Cert.Read.f2 w0) (Cert.Read.f1 c0) (Cert.Read.f2 w1) (Cert.Read.f1 c1) g o := by
  unfold RefTerm.score Cert.Spec.scoreR Cert.Spec.head
  have hd0 : dot_S512x128_S128x128_S512x128_1_0_0_1_n_n = DotDims.plain 512 128 128 := rfl
  have hd1 : dot_S512x256_S256x128_S512x128_1_0_0_1_n_n = DotDims.plain 512 256 128 := rfl
  rw [addf_apply, addf_apply, addf_apply, grows_apply, grows_apply, hd0, hd1, dot_plain_apply, dot_plain_apply,
    ← pool0_read, ← agg_read, ← lin_read, ← bnRelu_read, ← bnRelu_read, ← pool1_read]
  rfl

end Cert.ReferenceIdeal.RefRead

end
-- ==== Proof.Algebra.lean ====
/-
  The two batch normalisations are one function on finite data.

  On real entries every quantity stays real: the mean is a real number, the mean of the squared deviations is the mean
  of the squares minus the squared mean and is not negative (so the clamp at zero is the identity and the two variances
  are one real number), the variance plus a positive constant is positive (so its inverse square root is a real
  number), and the fused form z · (γ · ρ) + (β − μ · (γ · ρ)) is (z − μ) · ρ · γ + β by the ring laws.
-/
import proofs.«429314_j22110491639897_3_alg».proof.Proof.Spec
import Mathlib.Data.EReal.Operations
import Mathlib.Data.EReal.Inv
import Mathlib.Analysis.SpecialFunctions.Sqrt
import Mathlib.Tactic.Ring
import Mathlib.Tactic.Linarith
import Mathlib.Tactic.Positivity

noncomputable section

open scoped BigOperators
open Idealize.ShloMosaic

namespace Cert.Algebra

open Cert.Spec

/-- The coercion from the reals commutes with a finite sum. -/
theorem coe_sum {ι : Type} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Over 100000 real terms, the mean of the squared deviations from the mean is the mean of the squares minus
    the squared mean. -/
theorem var_real (z : Fin 100000 → ℝ) :
    (∑ r, (z r - (∑ r, z r) * (1 / 100000 : ℝ)) * (z r - (∑ r, z r) * (1 / 100000 : ℝ))) * (1 / 100000 : ℝ)
      = (∑ r, z r * z r) * (1 / 100000 : ℝ)
        - ((∑ r, z r) * (1 / 100000 : ℝ)) * ((∑ r, z r) * (1 / 100000 : ℝ)) := by
  set m : ℝ := (∑ r, z r) * (1 / 100000 : ℝ) with hm
  have h1 : ∀ r, (z r - m) * (z r - m) = z r * z r - (2 * m) * z r + m * m := fun r => by ring
  have h2 : (∑ r : Fin 100000, (z r - m) * (z r - m))
      = (∑ r, z r * z r) - (2 * m) * (∑ r, z r) + 100000 * (m * m) := by
    rw [Finset.sum_congr rfl (fun r _ => h1 r), Finset.sum_add_distrib, Finset.sum_sub_distrib,
      ← Finset.mul_sum, Finset.sum_const, Finset.card_univ, Fintype.card_fin, nsmul_eq_mul]
    norm_num
  have h3 : (∑ r, z r) = 100000 * m := by rw [hm]; ring
  rw [h2, h3]
  ring

/-- The mean of the squared deviations is not negative. -/
theorem var_real_nonneg (z : Fin 100000 → ℝ) :
    0 ≤ (∑ r, (z r - (∑ r, z r) * (1 / 100000 : ℝ)) * (z r - (∑ r, z r) * (1 / 100000 : ℝ))) * (1 / 100000 : ℝ) := by
  apply mul_nonneg
  · exact Finset.sum_nonneg (fun r _ => mul_self_nonneg _)
  · norm_num

/-- The coercion from the reals commutes with the maximum. -/
theorem coe_max (x y : ℝ) : ((max x y : ℝ) : EReal) = max (x : EReal) (y : EReal) :=
  EReal.coe_strictMono.monotone.map_max

/-- One over the square root of a positive real is the real reciprocal of its square root. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

section Layer

variable (e : ℝ) (z : Fin 100000 → Fin 256 → ℝ) (g bb : Fin 256 → ℝ)

/-- The mean of real data is the real mean. -/
theorem mean_coe (j : Fin 256) :
    mean ((100000 : ℝ) : EReal) (fun r j => (z r j : EReal)) j
      = (((∑ r, z r j) * (1 / 100000 : ℝ) : ℝ) : EReal) := by
  unfold mean
  rw [Ideal.div_coe (by norm_num), coe_sum, ← EReal.coe_mul]

/-- The textbook variance of real data is the real mean of the squared deviations. -/
theorem varR_coe (j : Fin 256) :
    varR ((100000 : ℝ) : EReal) (fun r j => (z r j : EReal)) j
      = (((∑ r, (z r j - (∑ r, z r j) * (1 / 100000 : ℝ)) * (z r j - (∑ r, z r j) * (1 / 100000 : ℝ)))
          * (1 / 100000 : ℝ) : ℝ) : EReal) := by
  unfold varR
  rw [mean_coe, Ideal.div_coe (by norm_num)]
  simp only [← EReal.coe_sub, ← EReal.coe_mul]
  rw [coe_sum, ← EReal.coe_mul]

/-- The clamped variance of real data is the same real number. -/
theorem varK_coe (j : Fin 256) :
    varK ((100000 : ℝ) : EReal) (fun r j => (z r j : EReal)) j
      = (((∑ r, (z r j - (∑ r, z r j) * (1 / 100000 : ℝ)) * (z r j - (∑ r, z r j) * (1 / 100000 : ℝ)))
          * (1 / 100000 : ℝ) : ℝ) : EReal) := by
  unfold varK
  rw [mean_coe, Ideal.div_coe (by norm_num)]
  simp only [← EReal.coe_mul]
  rw [coe_sum, ← EReal.coe_mul, ← EReal.coe_sub, ← var_real (fun r => z r j), ← EReal.coe_zero, ← coe_max,
    max_eq_left (var_real_nonneg (fun r => z r j))]

end Layer

section Layer2

variable (e : ℝ) (he : 0 < e) (z : Fin 100000 → Fin 256 → ℝ) (g bb : Fin 256 → ℝ)

/-- The real value of one entry of the normalisation. -/
def bnReal (r : Fin 100000) (j : Fin 256) : ℝ :=
  max ((z r j - (∑ r, z r j) * (1 / 100000 : ℝ))
      * (Real.sqrt ((∑ r, (z r j - (∑ r, z r j) * (1 / 100000 : ℝ)) * (z r j - (∑ r, z r j) * (1 / 100000 : ℝ)))
          * (1 / 100000 : ℝ) + e))⁻¹ * g j + bb j) 0

include he in
/-- The textbook normalisation of real data is real. -/
theorem bnR_coe (r : Fin 100000) (j : Fin 256) :
    bnR ((100000 : ℝ) : EReal) (e : EReal) (fun j => (g j : EReal)) (fun j => (bb j : EReal))
        (fun r j => (z r j : EReal)) r j = ((bnReal e z g bb r j : ℝ) : EReal) := by
  unfold bnR
  rw [mean_coe, varR_coe, ← EReal.coe_add,
    rsqrt_pos (add_pos_of_nonneg_of_pos (var_real_nonneg (fun r => z r j)) he)]
  simp only [← EReal.coe_sub, ← EReal.coe_mul, ← EReal.coe_add]
  rw [← EReal.coe_zero, ← coe_max]
  rfl

include he in
/-- The fused normalisation of real data is the same real number. -/
theorem bnK_coe (r : Fin 100000) (j : Fin 256) :
    bnK ((100000 : ℝ) : EReal) (e : EReal) (fun j => (g j : EReal)) (fun j => (bb j : EReal))
        (fun r j => (z r j : EReal)) r j = ((bnReal e z g bb r j : ℝ) : EReal) := by
  unfold bnK shiftK scaleK
  rw [mean_coe, varK_coe, ← EReal.coe_add,
    rsqrt_pos (add_pos_of_nonneg_of_pos (var_real_nonneg (fun r => z r j)) he)]
  simp only [← EReal.coe_sub, ← EReal.coe_mul, ← EReal.coe_add]
  rw [← EReal.coe_zero, ← coe_max]
  unfold bnReal
  congr 2
  ring

end Layer2

/-- One layer on real data: both normalisations give the same array, and its entries are real. -/
theorem bn_eq {e : ℝ} (he : 0 < e) {Z : Fin 100000 → Fin 256 → EReal} {g bb : Fin 256 → EReal}
    (hZ : ∀ r j, ∃ a : ℝ, Z r j = (a : EReal)) (hg : ∀ j, ∃ a : ℝ, g j = (a : EReal))
    (hbb : ∀ j, ∃ a : ℝ, bb j = (a : EReal)) :
    bnK ((100000 : ℝ) : EReal) (e : EReal) g bb Z = bnR ((100000 : ℝ) : EReal) (e : EReal) g bb Z ∧
      ∀ r j, ∃ a : ℝ, bnR ((100000 : ℝ) : EReal) (e : EReal) g bb Z r j = (a : EReal) := by
  choose z hz using hZ
  choose g' hg' using hg
  choose b' hb' using hbb
  have hZ' : Z = fun r j => (z r j : EReal) := funext fun r => funext fun j => hz r j
  have hG : g = fun j => (g' j : EReal) := funext hg'
  have hB : bb = fun j => (b' j : EReal) := funext hb'
  rw [hZ', hG, hB]
  refine ⟨funext fun r => funext fun j => ?_, fun r j => ⟨_, bnR_coe e he z g' b' r j⟩⟩
  rw [bnK_coe e he, bnR_coe e he]

/-- The linear layer on real data is real. -/
theorem lin_real {A : Fin 100000 → Fin 128 → EReal} {W : Fin 128 → Fin 256 → EReal} {b : Fin 256 → EReal}
    (hA : ∀ r k, ∃ a : ℝ, A r k = (a : EReal)) (hW : ∀ k j, ∃ a : ℝ, W k j = (a : EReal))
    (hb : ∀ j, ∃ a : ℝ, b j = (a : EReal)) (r : Fin 100000) (j : Fin 256) :
    ∃ a : ℝ, lin A W b r j = (a : EReal) := by
  choose fa hfa using hA
  choose fw hfw using hW
  choose fb hfb using hb
  refine ⟨(∑ k, fa r k * fw k j) + fb j, ?_⟩
  unfold lin
  simp only [hfa, hfw, hfb, ← EReal.coe_mul]
  rw [coe_sum, ← EReal.coe_add]

/-- On real data the fused and the textbook normalisation agree, layer after layer, so the two results agree. -/
theorem score_eq {nn eps : EReal} (hn : nn = ((100000 : ℝ) : EReal)) (heps : ∃ e : ℝ, 0 < e ∧ eps = (e : EReal))
    {A : Fin 100000 → Fin 128 → EReal} {W : Fin 128 → Fin 256 → EReal} {b g1 b1 g2 b2 : Fin 256 → EReal}
    (X : Fin 100000 → Fin 128 → EReal) (ids : Fin 100000 → BitVec 32)
    (W0 : Fin 128 → Fin 128 → EReal) (c0 : Fin 128 → EReal) (W1 : Fin 256 → Fin 128 → EReal) (c1 : Fin 128 → EReal)
    (hA : ∀ r k, ∃ a : ℝ, A r k = (a : EReal)) (hW : ∀ k j, ∃ a : ℝ, W k j = (a : EReal))
    (hb : ∀ j, ∃ a : ℝ, b j = (a : EReal)) (hg1 : ∀ j, ∃ a : ℝ, g1 j = (a : EReal)) (hb1 : ∀ j, ∃ a : ℝ, b1 j = (a : EReal))
    (hg2 : ∀ j, ∃ a : ℝ, g2 j = (a : EReal)) (hb2 : ∀ j, ∃ a : ℝ, b2 j = (a : EReal)) :
    scoreK nn eps A W b g1 b1 g2 b2 X ids W0 c0 W1 c1 = scoreR nn eps A W b g1 b1 g2 b2 X ids W0 c0 W1 c1 := by
  obtain ⟨e, he, rfl⟩ := heps
  subst hn
  obtain ⟨h1, h1r⟩ := bn_eq he (lin_real hA hW hb) hg1 hb1
  obtain ⟨h2, _⟩ := bn_eq he h1r hg2 hb2
  unfold scoreK scoreR
  rw [h1, h2]

end Cert.Algebra

end
-- ==== Proof.Finite.lean ====
/-
  What the precondition gives: every entry of every float argument is a real number. The precondition is the
  conjunction, over the eleven float arguments, of "every entry's absolute value is below +∞"; on the extended reals an
  entry with |x| < ⊤ is neither ⊤ nor ⊥, hence the coercion of a real.
-/
import proofs.«429314_j22110491639897_3_alg».proof.Defs
import proofs.«429314_j22110491639897_3_alg».proof.Proof.Gen.Pre_finite_inputs
import proofs.«429314_j22110491639897_3_alg».proof.Proof.Gen.KernelIdeal
import proofs.«429314_j22110491639897_3_alg».proof.Proof.KArgs
import Idealize.ShloMosaic.Lib.ReduceAll
import Idealize.ShloMosaic.Lib.ValueIdx
import Idealize.ShloMosaic.PureOps.Ideal.Laws

noncomputable section

open Idealize.ShloMosaic Idealize.ShloMosaic.TcCoe Idealize.ShloMosaic.ValueIdx Idealize.SL.Sem

namespace Cert.Finite

open Cert.KernelIdeal Cert.KernelIdeal.KArgs

/-- An extended real whose absolute value is below the bit pattern of +∞ is the coercion of a real. -/
theorem real_of_abs_lt (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  unfold Ideal.cmp at h
  induction x using EReal.rec with
  | bot => simp at h
  | coe a => exact ⟨a, rfl⟩
  | top => simp at h

/-- The shape of a scalar has one index. -/
instance : Subsingleton Cert.Pre_finite_inputs.S_.Idx := ⟨fun a b => funext fun d => d.elim0⟩

/-- A conjunction of two one-bit arrays that is 1 at an index has both conjuncts 1 there. -/
theorem andi_split {s : Shape} (a b : IVec s 1) (i : s.Idx) (h : andi a b i = 1#1) : a i = 1#1 ∧ b i = 1#1 :=
  IntOp.andi_eq_one.1 h

/-- "Every entry's absolute value is below +∞", as the precondition spells it for one array, makes every entry real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1)
    (i : s.Idx) : ∃ a : ℝ, x i = (a : EReal) :=
  real_of_abs_lt (x i) (Host.reduce_andi_all _ _ hr hu ix0 e i)

/-- Under the precondition the aggregated layer's seven float operands are real, entry by entry. -/
theorem inputs_real (m : (ℓ : Loc nD τ sig) → Buf (Elt Ideal) ℓ) (h : Cert.Pre_KernelIdeal m) (c : Dev nD) :
    (∀ r k, ∃ a : ℝ, X m c r k = (a : EReal)) ∧ (∀ k j, ∃ a : ℝ, Wm m c k j = (a : EReal))
    ∧ (∀ j, ∃ a : ℝ, bv m c j = (a : EReal)) ∧ (∀ j, ∃ a : ℝ, g1 m c j = (a : EReal))
    ∧ (∀ j, ∃ a : ℝ, b1 m c j = (a : EReal)) ∧ (∀ j, ∃ a : ℝ, g2 m c j = (a : EReal))
    ∧ (∀ j, ∃ a : ℝ, b2 m c j = (a : EReal)) := by
  have h0 := congrFun (h c) ValueIdx.ix0
  dsimp only [Cert.Pre_finite_inputs.fn, Cert.Pre_finite_inputs.fn_part1, Cert.Pre_finite_inputs.fn_part2, Cert.Pre_finite_inputs.fn_part3] at h0
  obtain ⟨h0, e10⟩ := andi_split _ _ _ h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨h0, e2⟩ := andi_split _ _ _ h0
  obtain ⟨e0, e1⟩ := andi_split _ _ _ h0
  exact ⟨fun r k => real_of_all _ _ _ _ e0 (ix2 r k), fun k j => real_of_all _ _ _ _ e1 (ix2 k j),
    fun j => real_of_all _ _ _ _ e2 (ix1 j), fun j => real_of_all _ _ _ _ e3 (ix1 j),
    fun j => real_of_all _ _ _ _ e4 (ix1 j), fun j => real_of_all _ _ _ _ e5 (ix1 j),
    fun j => real_of_all _ _ _ _ e6 (ix1 j)⟩

end Cert.Finite

end
-- ==== Proof.lean ====
/-
  The certificate of a graph-network layer computed by four kernel launches against its plain reference.

  Both programs aggregate each node's in-neighbours' features onto its own, apply a linear layer, normalise twice
  over all the nodes (batch statistics) with max(·, 0) after each, sum the input and the hidden features per graph and
  apply two linear heads. The kernel program gets the batch statistics from per-core accumulators (column sums and
  sums of squares over two halves of the rows), takes the variance as the mean of the squares minus the squared mean,
  clamped at zero, and applies the normalisation in the fused form z · scale + shift; it pools through a 0/1 membership
  matrix. The reference takes the variance as the mean of the squared deviations, normalises in the textbook form and
  pools by a scatter-add. On finite inputs every intermediate value is a real number, the two variances are the same
  non-negative number, the fused and the textbook form are the same real function, and the membership-matrix product
  is the per-graph sum; so the two results are equal entry by entry on the extended reals.

  The frames of the two kernel programs are the generated ones; the reference's frame is its run with the result
  dropped; nothing was rewritten between the kernel and its idealization.
-/
import proofs.«429314_j22110491639897_3_alg».proof.Defs
import proofs.«429314_j22110491639897_3_alg».proof.Proof.Gen.Kernel
import proofs.«429314_j22110491639897_3_alg».proof.Proof.Gen.Kernel.Skeleton
import proofs.«429314_j22110491639897_3_alg».proof.Proof.Gen.Kernel.Launch
import proofs.«429314_j22110491639897_3_alg».proof.Proof.Gen.Kernel.Points
import proofs.«429314_j22110491639897_3_alg».proof.Proof.Gen.Kernel.Frame
import proofs.«429314_j22110491639897_3_alg».proof.Proof.Gen.KernelIdeal
import proofs.«429314_j22110491639897_3_alg».proof.Proof.Gen.KernelIdeal.Skeleton
import proofs.«429314_j22110491639897_3_alg».proof.Proof.Gen.KernelIdeal.Launch
import proofs.«429314_j22110491639897_3_alg».proof.Proof.Gen.KernelIdeal.Points
import proofs.«429314_j22110491639897_3_alg».proof.Proof.Gen.KernelIdeal.Frame
import proofs.«429314_j22110491639897_3_alg».proof.Proof.Gen.ReferenceIdeal
import proofs.«429314_j22110491639897_3_alg».proof.Proof.Gen.Pre_finite_inputs
import proofs.«429314_j22110491639897_3_alg».proof.Proof.KRun
import proofs.«429314_j22110491639897_3_alg».proof.Proof.KStage4
import proofs.«429314_j22110491639897_3_alg».proof.Proof.RefRun
import proofs.«429314_j22110491639897_3_alg».proof.Proof.RefRead
import proofs.«429314_j22110491639897_3_alg».proof.Proof.Algebra
import proofs.«429314_j22110491639897_3_alg».proof.Proof.Finite
import proofs.«429314_j22110491639897_3_alg».proof.Proof.Consts
import proofs.«429314_j22110491639897_3_alg».proof.Proof.Agg
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- The two results agree entry by entry: the kernel's is the fused form of the mathematics over the arguments, the
    reference's the textbook form over arguments that agree, and on real inputs the two forms are one function. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v63),
    Cert.KernelIdeal.KRun.run (F := Ideal) m ρ, ?_⟩
  refine (θ_run Cert.ReferenceIdeal.defs _ _).mono (fun r h c => ⟨(h c).1.trans ?_, (h c).2⟩)
    (Cert.ReferenceIdeal.RefRun.run m' ρ')
  obtain ⟨h0, h1, h2, h3, h4, h5, h6, h7, h8, h9, h10, h11, h12⟩ := hagree c
  rw [h0, h1, h2, h3, h4, h5, h6, h7, h8, h9, h10, h11, h12]
  obtain ⟨hX, hW, hb, hg1, hb1, hg2, hb2⟩ := Cert.Finite.inputs_real m hpre c
  show (_ : Cert.KernelIdeal.S512x128.Idx → EReal) = _
  funext i
  rw [eq_ix2 i]
  refine (Cert.ReferenceIdeal.RefRead.score_apply _ _ _ _ _ _ _ _ _ _ _ _ _ (i 0) (i 1)).trans ?_
  refine Eq.trans ?_ (Cert.KernelIdeal.KS4.result_apply m ρ c (i 0) (i 1)).symm
  exact (congrFun (congrFun (Cert.Algebra.score_eq Cert.Consts.ofBits_n Cert.Consts.ofBits_eps
    (Cert.KernelIdeal.KArgs.X m c) (Cert.KernelIdeal.KArgs.ids m c) (Cert.KernelIdeal.KArgs.W0 m c)
    (Cert.KernelIdeal.KArgs.c0 m c) (Cert.KernelIdeal.KArgs.W1 m c) (Cert.KernelIdeal.KArgs.c1 m c)
    (Cert.Agg.aggF_real (Cert.KernelIdeal.KArgs.X m c) (Cert.KernelIdeal.KArgs.EI m c) hX) hW hb hg1 hb1 hg2 hb2)
    (i 0)) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
